-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v57)) (v3 : (c : Dev Cert.KernelIdeal.nD) → Buf (Elt Ideal) ((c.tc : Thread Cert.KernelIdeal.nD Cert.KernelIdeal.τ).loc Cert.KernelIdeal.main_v61)) (v4 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_v65) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x32 : Shape := ⟨2, ![800000, 32]⟩
abbrev S160x64 : Shape := ⟨2, ![160, 64]⟩
abbrev S64 : Shape := ⟨1, ![64]⟩
abbrev S64x32 : Shape := ⟨2, ![64, 32]⟩
abbrev S32 : Shape := ⟨1, ![32]⟩
abbrev S96x64 : Shape := ⟨2, ![96, 64]⟩
abbrev S2x800000 : Shape := ⟨2, ![2, 800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S96x64 : S_.BroadcastsInDim S96x64 (![] : Fin 0 → Fin S96x64.rank)
  reducesTo_S96x64_S_d0_1 : S96x64.ReducesTo [0, 1] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg18 : FVec F S64 .f32) (main_arg19 : FVec F S96x64 .f32) (main_arg20 : FVec F S64 .f32) (main_v83 : IVec S_ 1) (main_v84 : FVec F S96x64 .f32) (main_cst_32 : FVec F S_ .f32) : IVec S_ 1 :=
  let main_v85 : FVec F S96x64 .f32 := broadcastInDim S96x64 ![] bcast_S_S96x64 main_cst_32
  let main_v86 : IVec S96x64 1 := cmpf .olt main_v84 main_v85
  let main_c_33 : IVec S_ 1 := constantI S_ 1 1#1
  let main_v87 : IVec S_ 1 := (fun x v => Host.reduce IntOp.andi x v reducesTo_S96x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S96x64 .f32 := Host.absf main_arg19
  let main_cst_36 : FVec F S_ .f32 := constant S_ .f32 0x7F800000#32
  let main_v95 : FVec F S96x64 .f32 := broadcastInDim S96x64 ![] bcast_S_S96x64 main_cst_36
  let main_v96 : IVec S96x64 1 := cmpf .olt main_v94 main_v95
  let main_c_37 : IVec S_ 1 := constantI S_ 1 1#1
  let main_v97 : IVec S_ 1 := (fun x v => Host.reduce IntOp.andi x v reducesTo_S96x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64x32 .f32) (main_arg16 : FVec F S32 .f32) (main_arg17 : FVec F S96x64 .f32) (main_arg18 : FVec F S64 .f32) (main_arg19 : FVec F S96x64 .f32) (main_arg20 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg15
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S96x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x32 .f32) (main_arg12 : FVec F S32 .f32) (main_arg13 : FVec F S160x64 .f32) (main_arg14 : FVec F S64 .f32) (main_arg15 : FVec F S64x32 .f32) (main_arg16 : FVec F S32 .f32) (main_arg17 : FVec F S96x64 .f32) (main_arg18 : FVec F S64 .f32) (main_arg19 : FVec F S96x64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S160x64 .f32 := Host.absf main_arg13
  let main_cst_24 : FVec F S_ .f32 := constant S_ .f32 0x7F800000#32
  let main_v65 : FVec F S160x64 .f32 := broadcastInDim S160x64 ![] bcast_S_S160x64 main_cst_24
  let main_v66 : IVec S160x64 1 := cmpf .olt main_v64 main_v65
  let main_c_25 : IVec S_ 1 := constantI S_ 1 1#1
  let main_v67 : IVec S_ 1 := (fun x v => Host.reduce IntOp.andi x v reducesTo_S160x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64x32 .f32) (main_arg8 : FVec F S32 .f32) (main_arg9 : FVec F S160x64 .f32) (main_arg10 : FVec F S64 .f32) (main_arg11 : FVec F S64x32 .f32) (main_arg12 : FVec F S32 .f32) (main_arg13 : FVec F S160x64 .f32) (main_arg14 : FVec F S64 .f32) (main_arg15 : FVec F S64x32 .f32) (main_arg16 : FVec F S32 .f32) (main_arg17 : FVec F S96x64 .f32) (main_arg18 : FVec F S64 .f32) (main_arg19 : FVec F S96x64 .f32) (main_arg20 : FVec F S64 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S160x64 .f32 := Host.absf main_arg9
  let main_cst_16 : FVec F S_ .f32 := constant S_ .f32 0x7F800000#32
  let main_v45 : FVec F S160x64 .f32 := broadcastInDim S160x64 ![] bcast_S_S160x64 main_cst_16
  let main_v46 : IVec S160x64 1 := cmpf .olt main_v44 main_v45
  let main_c_17 : IVec S_ 1 := constantI S_ 1 1#1
  let main_v47 : IVec S_ 1 := (fun x v => Host.reduce IntOp.andi x v reducesTo_S160x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S800000x32 .f32) (main_arg5 : FVec F S160x64 .f32) (main_arg6 : FVec F S64 .f32) (main_arg7 : FVec F S64x32 .f32) (main_arg8 : FVec F S32 .f32) (main_arg9 : FVec F S160x64 .f32) (main_arg10 : FVec F S64 .f32) (main_arg11 : FVec F S64x32 .f32) (main_arg12 : FVec F S32 .f32) (main_arg13 : FVec F S160x64 .f32) (main_arg14 : FVec F S64 .f32) (main_arg15 : FVec F S64x32 .f32) (main_arg16 : FVec F S32 .f32) (main_arg17 : FVec F S96x64 .f32) (main_arg18 : FVec F S64 .f32) (main_arg19 : FVec F S96x64 .f32) (main_arg20 : FVec F S64 .f32) (main_v13 : IVec S_ 1) (main_v16 : IVec S800000x32 1) : IVec S_ 1 :=
  let main_c_5 : IVec S_ 1 := constantI S_ 1 1#1
  let main_v17 : IVec S_ 1 := (fun x v => Host.reduce IntOp.andi x v reducesTo_S800000x32_S_d0_1 h_S_) main_v16 main_c_5
  let main_v18 : IVec S_ 1 := andi main_v13 main_v17
  let main_v19 : FVec F S800000x32 .f32 := Host.absf main_arg4
  let main_cst_6 : FVec F S_ .f32 := constant S_ .f32 0x7F800000#32
  let main_v20 : FVec F S800000x32 .f32 := broadcastInDim S800000x32 ![] bcast_S_S800000x32 main_cst_6
  let main_v21 : IVec S800000x32 1 := cmpf .olt main_v19 main_v20
  let main_c_7 : IVec S_ 1 := constantI S_ 1 1#1
  let main_v22 : IVec S_ 1 := (fun x v => Host.reduce IntOp.andi x v reducesTo_S800000x32_S_d0_1 h_S_) main_v21 main_c_7
  let main_v23 : IVec S_ 1 := andi main_v18 main_v22
  let main_v24 : FVec F S160x64 .f32 := Host.absf main_arg5
  let main_cst_8 : FVec F S_ .f32 := constant S_ .f32 0x7F800000#32
  let main_v25 : FVec F S160x64 .f32 := broadcastInDim S160x64 ![] bcast_S_S160x64 main_cst_8
  let main_v26 : IVec S160x64 1 := cmpf .olt main_v24 main_v25
  let main_c_9 : IVec S_ 1 := constantI S_ 1 1#1
  let main_v27 : IVec S_ 1 := (fun x v => Host.reduce IntOp.andi x v reducesTo_S160x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : FVec F S100000x64 .f32) (main_arg2 : FVec F S800000x32 .f32) (main_arg3 : FVec F S800000x32 .f32) (main_arg4 : FVec F S800000x32 .f32) (main_arg5 : FVec F S160x64 .f32) (main_arg6 : FVec F S64 .f32) (main_arg7 : FVec F S64x32 .f32) (main_arg8 : FVec F S32 .f32) (main_arg9 : FVec F S160x64 .f32) (main_arg10 : FVec F S64 .f32) (main_arg11 : FVec F S64x32 .f32) (main_arg12 : FVec F S32 .f32) (main_arg13 : FVec F S160x64 .f32) (main_arg14 : FVec F S64 .f32) (main_arg15 : FVec F S64x32 .f32) (main_arg16 : FVec F S32 .f32) (main_arg17 : FVec F S96x64 .f32) (main_arg18 : FVec F S64 .f32) (main_arg19 : FVec F S96x64 .f32) (main_arg20 : FVec F S64 .f32) (main_arg21 : IVec S2x800000 32) (main_arg22 : IVec S2x800000 32) (main_arg23 : IVec S2x800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S800000x32 .f32 := Host.absf main_arg3
  let main_cst_4 : FVec F S_ .f32 := constant S_ .f32 0x7F800000#32
  let main_v15 : FVec F S800000x32 .f32 := broadcastInDim S800000x32 ![] bcast_S_S800000x32 main_cst_4
  let main_v16 : IVec S800000x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S800000x32 : Shape := ⟨2, ![800000, 32]⟩
abbrev S160x64 : Shape := ⟨2, ![160, 64]⟩
abbrev S64 : Shape := ⟨1, ![64]⟩
abbrev S64x32 : Shape := ⟨2, ![64, 32]⟩
abbrev S32 : Shape := ⟨1, ![32]⟩
abbrev S96x64 : Shape := ⟨2, ![96, 64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x64 : Shape := ⟨2, ![64, 64]⟩
abbrev S32x64 : Shape := ⟨2, ![32, 64]⟩
abbrev S8000x64 : Shape := ⟨2, ![8000, 64]⟩
abbrev S8000x32 : Shape := ⟨2, ![8000, 32]⟩
abbrev S1x64 : Shape := ⟨2, ![1, 64]⟩
abbrev S1x32 : Shape := ⟨2, ![1, 32]⟩
abbrev S1600000 : Shape := ⟨1, ![1600000]⟩
abbrev S1600000x32 : Shape := ⟨2, ![1600000, 32]⟩
abbrev S100000x32 : Shape := ⟨2, ![100000, 32]⟩
abbrev S1600000x1 : Shape := ⟨2, ![1600000, 1]⟩
abbrev S10000x64 : Shape := ⟨2, ![10000, 64]⟩
abbrev S10000x32 : Shape := ⟨2, ![10000, 32]⟩

abbrev nBuf : Space → Nat
  | .hbm => 130
  | .vmem => 60
  | .smem => 0
  | _ => 0

abbrev hbmTy0_0 (i : Nat) : BufTy := match i % 128 with
  | 0 => ⟨S100000x64, .f32⟩
  | 1 => ⟨S100000x64, .f32⟩
  | 2 => ⟨S800000x32, .f32⟩
  | 3 => ⟨S800000x32, .f32⟩
  | 4 => ⟨S800000x32, .f32⟩
  | 5 => ⟨S160x64, .f32⟩
  | 6 => ⟨S64, .f32⟩
  | 7 => ⟨S64x32, .f32⟩
  | 8 => ⟨S32, .f32⟩
  | 9 => ⟨S160x64, .f32⟩
  | 10 => ⟨S64, .f32⟩
  | 11 => ⟨S64x32, .f32⟩
  | 12 => ⟨S32, .f32⟩
  | 13 => ⟨S160x64, .f32⟩
  | 14 => ⟨S64, .f32⟩
  | 15 => ⟨S64x32, .f32⟩
  | 16 => ⟨S32, .f32⟩
  | 17 => ⟨S96x64, .f32⟩
  | 18 => ⟨S64, .f32⟩
  | 19 => ⟨S96x64, .f32⟩
  | 20 => ⟨S64, .f32⟩
  | 21 => ⟨S2x800000, .i32⟩
  | 22 => ⟨S2x800000, .i32⟩
  | 23 => ⟨S2x800000, .i32⟩
  | 24 => ⟨S1x800000, .i32⟩
  | 25 => ⟨S800000, .i32⟩
  | 26 => ⟨S1x800000, .i32⟩
  | 27 => ⟨S800000, .i32⟩
  | 28 => ⟨S1x800000, .i32⟩
  | 29 => ⟨S800000, .i32⟩
  | 30 => ⟨S1x800000, .i32⟩
  | 31 => ⟨S800000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S64x64, .f32⟩
  | 91 => ⟨S64x64, .f32⟩
  | 92 => ⟨S32x64, .f32⟩
  | 93 => ⟨S800000x32, .f32⟩
  | 94 => ⟨S64x64, .f32⟩
  | 95 => ⟨S64x64, .f32⟩
  | 96 => ⟨S32x64, .f32⟩
  | 97 => ⟨S800000x32, .f32⟩
  | 98 => ⟨S64x64, .f32⟩
  | 99 => ⟨S64x64, .f32⟩
  | 100 => ⟨S32x64, .f32⟩
  | 101 => ⟨S800000x32, .f32⟩
  | 102 => ⟨S1600000, .i32⟩
  | 103 => ⟨S1600000x32, .f32⟩
  | 104 => ⟨S_, .f32⟩
  | 105 => ⟨S100000x32, .f32⟩
  | 106 => ⟨S1600000x1, .i32⟩
  | 107 => ⟨S100000x32, .f32⟩
  | 108 => ⟨S1600000, .i32⟩
  | 109 => ⟨S1600000x32, .f32⟩
  | 110 => ⟨S_, .f32⟩
  | 111 => ⟨S100000x32, .f32⟩
  | 112 => ⟨S1600000x1, .i32⟩
  | 113 => ⟨S100000x32, .f32⟩
  | 114 => ⟨S_, .f32⟩
  | 115 => ⟨S100000x32, .f32⟩
  | 116 => ⟨S800000x1, .i32⟩
  | 117 => ⟨S100000x32, .f32⟩
  | 118 => ⟨S100000x32, .f32⟩
  | 119 => ⟨S_, .f32⟩
  | 120 => ⟨S100000x32, .f32⟩
  | 121 => ⟨S800000x1, .i32⟩
  | 122 => ⟨S100000x32, .f32⟩
  | 123 => ⟨S100000x32, .f32⟩
  | 124 => ⟨S64x64, .f32⟩
  | 125 => ⟨S32x64, .f32⟩
  | 126 => ⟨S100000x64, .f32⟩
  | 127 => ⟨S64x64, .f32⟩
  | _ => ⟨S100000x64, .f32⟩

abbrev hbmTy0_1 (i : Nat) : BufTy := match i % 128 with
  | 0 => ⟨S32x64, .f32⟩
  | 1 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x32, .f32⟩
  | .local _ .vmem, ⟨5, _⟩ => ⟨S8000x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S64, .f32⟩
  | .local _ .vmem, ⟨10, _⟩ => ⟨S64x32, .f32⟩
  | .local _ .vmem, ⟨11, _⟩ => ⟨S32, .f32⟩
  | .local _ .vmem, ⟨12, _⟩ => ⟨S8000x32, .f32⟩
  | .local _ .vmem, ⟨13, _⟩ => ⟨S8000x32, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x32, .f32⟩
  | .local _ .vmem, ⟨19, _⟩ => ⟨S8000x32, .f32⟩
  | .local _ .vmem, ⟨20, _⟩ => ⟨S64x64, .f32⟩
  | .local _ .vmem, ⟨21, _⟩ => ⟨S64x64, .f32⟩
  | .local _ .vmem, ⟨22, _⟩ => ⟨S32x64, .f32⟩
  | .local _ .vmem, ⟨23, _⟩ => ⟨S64, .f32⟩
  | .local _ .vmem, ⟨24, _⟩ => ⟨S64x32, .f32⟩
  | .local _ .vmem, ⟨25, _⟩ => ⟨S32, .f32⟩
  | .local _ .vmem, ⟨26, _⟩ => ⟨S8000x32, .f32⟩
  | .local _ .vmem, ⟨27, _⟩ => ⟨S8000x32, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S8000x32, .f32⟩
  | .local _ .vmem, ⟨33, _⟩ => ⟨S8000x32, .f32⟩
  | .local _ .vmem, ⟨34, _⟩ => ⟨S64x64, .f32⟩
  | .local _ .vmem, ⟨35, _⟩ => ⟨S64x64, .f32⟩
  | .local _ .vmem, ⟨36, _⟩ => ⟨S32x64, .f32⟩
  | .local _ .vmem, ⟨37, _⟩ => ⟨S64, .f32⟩
  | .local _ .vmem, ⟨38, _⟩ => ⟨S64x32, .f32⟩
  | .local _ .vmem, ⟨39, _⟩ => ⟨S32, .f32⟩
  | .local _ .vmem, ⟨40, _⟩ => ⟨S8000x32, .f32⟩
  | .local _ .vmem, ⟨41, _⟩ => ⟨S8000x32, .f32⟩
  | .local _ .vmem, ⟨42, _⟩ => ⟨S10000x64, .f32⟩
  | .local _ .vmem, ⟨43, _⟩ => ⟨S10000x64, .f32⟩
  | .local _ .vmem, ⟨44, _⟩ => ⟨S10000x32, .f32⟩
  | .local _ .vmem, ⟨45, _⟩ => ⟨S10000x32, .f32⟩
  | .local _ .vmem, ⟨46, _⟩ => ⟨S64x64, .f32⟩
  | .local _ .vmem, ⟨47, _⟩ => ⟨S32x64, .f32⟩
  | .local _ .vmem, ⟨48, _⟩ => ⟨S64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x32, .f32⟩
  | .local _ .vmem, ⟨54, _⟩ => ⟨S10000x32, .f32⟩
  | .local _ .vmem, ⟨55, _⟩ => ⟨S64x64, .f32⟩
  | .local _ .vmem, ⟨56, _⟩ => ⟨S32x64, .f32⟩
  | .local _ .vmem, ⟨57, _⟩ => ⟨S64, .f32⟩
  | .local _ .vmem, ⟨58, _⟩ => ⟨S10000x64, .f32⟩
  | .local _ .vmem, ⟨59, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_v40 : Ref sig .tc := ⟨.hbm, 73, rfl⟩
abbrev main_v41 : Ref sig .tc := ⟨.hbm, 74, rfl⟩
abbrev main_c_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_9 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg5_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem5_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem5_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S160x64_S64x64_0_0 : S160x64.Slices ![0, 0] S64x64
  slices_S160x64_S64x64_64_0 : S160x64.Slices ![64, 0] S64x64
  slices_S160x64_S32x64_128_0 : S160x64.Slices ![128, 0] S32x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  concatenates_S800000_S800000_S1600000_d0 : Shape.Concatenates [S800000, S800000] S1600000 0
  concatenates_S800000x32_S800000x32_S1600000x32_d0 : Shape.Concatenates [S800000x32, S800000x32] S1600000x32 0
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  slices_S96x64_S64x64_0_0 : S96x64.Slices ![0, 0] S64x64
  slices_S96x64_S32x64_64_0 : S96x64.Slices ![64, 0] S32x64
  inb_S10000x64_S10000x64_0_0 : ∀ a, (![0, 0] : Fin 2 → Nat) a + S10000x64.size a ≤ S10000x64.size a
  h_S10000x64 : 0 < S10000x64.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S1x64_S10000x64 : S1x64.Broadcasts S10000x64
  gather_S100000x64_S800000x1_S800000x64_1_0_n_n_0_1_164_wf : GatherDims.WF S100000x64 S800000x1 S800000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  dot_S8000x64_S64x32_S8000x32_1_0_0_1_n_n_wf : DotDims.WF S8000x64 S64x32 S8000x32 [1] [0] [0] [1] [] []
  scatter_S100000x32_S1600000x1_S1600000x32_1_0_0_1_wf : ScatterDims.WF S100000x32 S1600000x1 S1600000x32 [1] [0] [0] 1
  scatter_S100000x32_S800000x1_S800000x32_1_0_0_1_wf : ScatterDims.WF S100000x32 S800000x1 S800000x32 [1] [0] [0] 1
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .f32 = 32 ∨ (Rect.block (s := S800000x32) S8000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x32.size a ≤ S800000x32.size a
  hwx0_9 : ∀ i : grid0.Coords, EltTy.bits .f32 = 32 ∨ (Rect.block (s := S800000x32) S8000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S800000x32.size a
  hwx1_2 : ∀ i : grid1.Coords, EltTy.bits .f32 = 32 ∨ (Rect.block (s := S800000x32) S8000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x32.size a ≤ S800000x32.size a
  hwx1_9 : ∀ i : grid1.Coords, EltTy.bits .f32 = 32 ∨ (Rect.block (s := S800000x32) S8000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S800000x32.size a
  hwx2_2 : ∀ i : grid2.Coords, EltTy.bits .f32 = 32 ∨ (Rect.block (s := S800000x32) S8000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x64.size a ≤ S32x64.size a
  hwx2_5 : ∀ i : grid2.Coords, EltTy.bits .f32 = 32 ∨ (Rect.block (s := S32x64) S32x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32.size a ≤ S32.size a
  hwx2_8 : ∀ i : grid2.Coords, EltTy.bits .f32 = 32 ∨ (Rect.block (s := S32) S32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x32.size a ≤ S800000x32.size a
  hwx2_9 : ∀ i : grid2.Coords, EltTy.bits .f32 = 32 ∨ (Rect.block (s := S800000x32) S8000x32.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x64.size a ≤ S32x64.size a
  hwx4_3 : ∀ i : grid4.Coords, EltTy.bits .f32 = 32 ∨ (Rect.block (s := S32x64) S32x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf

abbrev win0_0 : Pipeline.Window sig grid0 :=
  Pipeline.Window.ofSpec (Memref.whole main_v18) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S8000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v32) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v61) S8000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v46) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S32x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S64x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S8000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg1) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S32x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg20) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S800000x32 : Shape := ⟨2, ![800000, 32]⟩
abbrev S160x64 : Shape := ⟨2, ![160, 64]⟩
abbrev S64 : Shape := ⟨1, ![64]⟩
abbrev S64x32 : Shape := ⟨2, ![64, 32]⟩
abbrev S32 : Shape := ⟨1, ![32]⟩
abbrev S96x64 : Shape := ⟨2, ![96, 64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S1x32 : Shape := ⟨2, ![1, 32]⟩
abbrev S100000x32 : Shape := ⟨2, ![100000, 32]⟩
abbrev S100000x96 : Shape := ⟨2, ![100000, 96]⟩

abbrev nBuf : Space → Nat
  | .hbm => 179
  | .vmem => 0
  | .smem => 0
  | _ => 0

abbrev hbmTy0_0 (i : Nat) : BufTy := match i % 128 with
  | 0 => ⟨S100000x64, .f32⟩
  | 1 => ⟨S100000x64, .f32⟩
  | 2 => ⟨S800000x32, .f32⟩
  | 3 => ⟨S800000x32, .f32⟩
  | 4 => ⟨S800000x32, .f32⟩
  | 5 => ⟨S160x64, .f32⟩
  | 6 => ⟨S64, .f32⟩
  | 7 => ⟨S64x32, .f32⟩
  | 8 => ⟨S32, .f32⟩
  | 9 => ⟨S160x64, .f32⟩
  | 10 => ⟨S64, .f32⟩
  | 11 => ⟨S64x32, .f32⟩
  | 12 => ⟨S32, .f32⟩
  | 13 => ⟨S160x64, .f32⟩
  | 14 => ⟨S64, .f32⟩
  | 15 => ⟨S64x32, .f32⟩
  | 16 => ⟨S32, .f32⟩
  | 17 => ⟨S96x64, .f32⟩
  | 18 => ⟨S64, .f32⟩
  | 19 => ⟨S96x64, .f32⟩
  | 20 => ⟨S64, .f32⟩
  | 21 => ⟨S2x800000, .i32⟩
  | 22 => ⟨S2x800000, .i32⟩
  | 23 => ⟨S2x800000, .i32⟩
  | 24 => ⟨S1x800000, .i32⟩
  | 25 => ⟨S800000, .i32⟩
  | 26 => ⟨S1x800000, .i32⟩
  | 27 => ⟨S800000, .i32⟩
  | 28 => ⟨S1x800000, .i32⟩
  | 29 => ⟨S800000, .i32⟩
  | 30 => ⟨S1x800000, .i32⟩
  | 31 => ⟨S800000, .i32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x160, .f32⟩
  | 55 => ⟨S800000x64, .f32⟩
  | 56 => ⟨S1x64, .f32⟩
  | 57 => ⟨S800000x64, .f32⟩
  | 58 => ⟨S800000x64, .f32⟩
  | 59 => ⟨S_, .f32⟩
  | 60 => ⟨S800000x64, .f32⟩
  | 61 => ⟨S800000x64, .f32⟩
  | 62 => ⟨S800000x32, .f32⟩
  | 63 => ⟨S1x32, .f32⟩
  | 64 => ⟨S800000x32, .f32⟩
  | 65 => ⟨S800000x32, .f32⟩
  | 66 => ⟨S_, .f32⟩
  | 67 => ⟨S800000x32, .f32⟩
  | 68 => ⟨S800000x32, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x160, .f32⟩
  | 88 => ⟨S800000x64, .f32⟩
  | 89 => ⟨S1x64, .f32⟩
  | 90 => ⟨S800000x64, .f32⟩
  | 91 => ⟨S800000x64, .f32⟩
  | 92 => ⟨S_, .f32⟩
  | 93 => ⟨S800000x64, .f32⟩
  | 94 => ⟨S800000x64, .f32⟩
  | 95 => ⟨S800000x32, .f32⟩
  | 96 => ⟨S1x32, .f32⟩
  | 97 => ⟨S800000x32, .f32⟩
  | 98 => ⟨S800000x32, .f32⟩
  | 99 => ⟨S_, .f32⟩
  | 100 => ⟨S800000x32, .f32⟩
  | 101 => ⟨S800000x32, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x160, .f32⟩
  | 121 => ⟨S800000x64, .f32⟩
  | 122 => ⟨S1x64, .f32⟩
  | 123 => ⟨S800000x64, .f32⟩
  | 124 => ⟨S800000x64, .f32⟩
  | 125 => ⟨S_, .f32⟩
  | 126 => ⟨S800000x64, .f32⟩
  | 127 => ⟨S800000x64, .f32⟩
  | _ => ⟨S100000x64, .f32⟩

abbrev hbmTy0_1 (i : Nat) : BufTy := match i % 128 with
  | 0 => ⟨S800000x32, .f32⟩
  | 1 => ⟨S1x32, .f32⟩
  | 2 => ⟨S800000x32, .f32⟩
  | 3 => ⟨S800000x32, .f32⟩
  | 4 => ⟨S_, .f32⟩
  | 5 => ⟨S800000x32, .f32⟩
  | 6 => ⟨S800000x32, .f32⟩
  | 7 => ⟨S_, .f32⟩
  | 8 => ⟨S100000x32, .f32⟩
  | 9 => ⟨S800000x1, .i32⟩
  | 10 => ⟨S100000x32, .f32⟩
  | 11 => ⟨S_, .f32⟩
  | 12 => ⟨S100000x32, .f32⟩
  | 13 => ⟨S800000x1, .i32⟩
  | 14 => ⟨S100000x32, .f32⟩
  | 15 => ⟨S100000x32, .f32⟩
  | 16 => ⟨S_, .f32⟩
  | 17 => ⟨S100000x32, .f32⟩
  | 18 => ⟨S800000x1, .i32⟩
  | 19 => ⟨S100000x32, .f32⟩
  | 20 => ⟨S100000x32, .f32⟩
  | 21 => ⟨S_, .f32⟩
  | 22 => ⟨S100000x32, .f32⟩
  | 23 => ⟨S800000x1, .i32⟩
  | 24 => ⟨S100000x32, .f32⟩
  | 25 => ⟨S_, .f32⟩
  | 26 => ⟨S100000x32, .f32⟩
  | 27 => ⟨S800000x1, .i32⟩
  | 28 => ⟨S100000x32, .f32⟩
  | 29 => ⟨S100000x32, .f32⟩
  | 30 => ⟨S_, .f32⟩
  | 31 => ⟨S100000x32, .f32⟩
  | 32 => ⟨S800000x1, .i32⟩
  | 33 => ⟨S100000x32, .f32⟩
  | 34 => ⟨S100000x32, .f32⟩
  | 35 => ⟨S100000x96, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x96, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call0_cst : Ref sig .tc := ⟨.hbm, 59, rfl⟩
abbrev main_call0_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call1_cst : Ref sig .tc := ⟨.hbm, 66, rfl⟩
abbrev main_call1_v0 : Ref sig .tc := ⟨.hbm, 67, rfl⟩
abbrev main_v36 : Ref sig .tc := ⟨.hbm, 68, rfl⟩
abbrev main_c_3 : Ref sig .tc := ⟨.hbm, 69, rfl⟩
abbrev main_v37 : Ref sig .tc := ⟨.hbm, 70, rfl⟩
abbrev main_v38 : Ref sig .tc := ⟨.hbm, 71, rfl⟩
abbrev main_c_4 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_c_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call2_cst : Ref sig .tc := ⟨.hbm, 92, rfl⟩
abbrev main_call2_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call3_cst : Ref sig .tc := ⟨.hbm, 99, rfl⟩
abbrev main_call3_v0 : Ref sig .tc := ⟨.hbm, 100, rfl⟩
abbrev main_v61 : Ref sig .tc := ⟨.hbm, 101, rfl⟩
abbrev main_c_7 : Ref sig .tc := ⟨.hbm, 102, rfl⟩
abbrev main_v62 : Ref sig .tc := ⟨.hbm, 103, rfl⟩
abbrev main_v63 : Ref sig .tc := ⟨.hbm, 104, rfl⟩
abbrev main_c_8 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_9 : Ref sig .tc := ⟨.hbm, 111, rfl⟩
abbrev main_v69 : Ref sig .tc := ⟨.hbm, 112, rfl⟩
abbrev main_v70 : Ref sig .tc := ⟨.hbm, 113, rfl⟩
abbrev main_c_10 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call4_cst : Ref sig .tc := ⟨.hbm, 125, rfl⟩
abbrev main_call4_v0 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call5_cst : Ref sig .tc := ⟨.hbm, 132, rfl⟩
abbrev main_call5_v0 : Ref sig .tc := ⟨.hbm, 133, rfl⟩
abbrev main_v86 : Ref sig .tc := ⟨.hbm, 134, rfl⟩
abbrev main_cst : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_11 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_12 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_13 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_14 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_15 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_call6_cst : Ref sig .tc := ⟨.hbm, 168, rfl⟩
abbrev main_call6_v0 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call7_cst : Ref sig .tc := ⟨.hbm, 176, rfl⟩
abbrev main_call7_v0 : Ref sig .tc := ⟨.hbm, 177, rfl⟩
abbrev main_v120 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S100000x32 : S_.BroadcastsInDim S100000x32 (![] : Fin 0 → Fin S100000x32.rank)
  concatenates_S100000x64_S100000x32_S100000x96_d1 : Shape.Concatenates [S100000x64, S100000x32] S100000x96 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x64_S800000x1_S800000x64_1_0_n_n_0_1_164_wf : GatherDims.WF S100000x64 S800000x1 S800000x64 [1] [0] [] [0] [] 1 ![1, 64]
  dot_S800000x160_S160x64_S800000x64_1_0_0_1_n_n_wf : DotDims.WF S800000x160 S160x64 S800000x64 [1] [0] [0] [1] [] []
  dot_S800000x64_S64x32_S800000x32_1_0_0_1_n_n_wf : DotDims.WF S800000x64 S64x32 S800000x32 [1] [0] [0] [1] [] []
  scatter_S100000x32_S800000x1_S800000x32_1_0_0_1_wf : ScatterDims.WF S100000x32 S800000x1 S800000x32 [1] [0] [0] 1
  dot_S100000x96_S96x64_S100000x64_1_0_0_1_n_n_wf : DotDims.WF S100000x96 S96x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x96_S96x64_S100000x64_1_0_0_1_n_n : DotDims S100000x96 S96x64 S100000x64 where
  lhsContracting := [1]
  rhsContracting := [0]
  lhsNonContracting := [0]
  rhsNonContracting := [1]
  lhsBatch := []
  rhsBatch := []
  wf := dot_S100000x96_S96x64_S100000x64_1_0_0_1_n_n_wf

class Facts : Prop extends Facts₀ where

variable [Facts]
-- ==== Proof.KFold.lean ====
/-
  The contents of the idealized kernel program's buffers at the segment boundaries of @main, read back to the launch
  memory: which host operation or which region wrote each buffer a later segment reads, and that nothing in between
  overwrites it.
-/
import proofs.«407052_j2267742732914_3_alg».proof.Proof.Gen.KernelIdeal.Frame
import Idealize.ShloMosaic.Lib.StableHlo.Run
import Idealize.ShloMosaic.PureOps.Ideal

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A stretch of host operations leaves a buffer none of them writes as it was. -/
macro "host_keeps " ops:ident : term =>
  `(List.forall_iff_forall_mem.mp (by
      simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Buffers nothing writes between two boundaries -/

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (host_keeps hostOps0)
    _ = m ((c : Thread nD τ).loc main_arg2) := rfl

theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (host_keeps hostOps0)
    _ = m ((c : Thread nD τ).loc main_arg6) := rfl

theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (host_keeps hostOps0)
    _ = m ((c : Thread nD τ).loc main_arg7) := rfl

theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (host_keeps hostOps0)
    _ = m ((c : Thread nD τ).loc main_arg8) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (host_keeps hostOps1)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (host_keeps hostOps0)
    _ = m ((c : Thread nD τ).loc main_arg3) := rfl

theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (host_keeps hostOps1)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (host_keeps hostOps0)
    _ = m ((c : Thread nD τ).loc main_arg10) := rfl

theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (host_keeps hostOps1)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (host_keeps hostOps0)
    _ = m ((c : Thread nD τ).loc main_arg11) := rfl

theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (host_keeps hostOps1)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (host_keeps hostOps0)
    _ = m ((c : Thread nD τ).loc main_arg12) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (host_keeps hostOps0)
    _ = m ((c : Thread nD τ).loc main_arg9) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (host_keeps hostOps2)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (host_keeps hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (host_keeps hostOps0)
    _ = m ((c : Thread nD τ).loc main_arg4) := rfl

theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (host_keeps hostOps2)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (host_keeps hostOps1)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (host_keeps hostOps0)
    _ = m ((c : Thread nD τ).loc main_arg14) := rfl

theorem W5_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (host_keeps hostOps2)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (host_keeps hostOps1)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (host_keeps hostOps0)
    _ = m ((c : Thread nD τ).loc main_arg15) := rfl

theorem W5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_forall_not_mem (b := Proc.devRef .tc main_arg16) _ _ (host_keeps hostOps2)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (host_keeps hostOps1)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (host_keeps hostOps0)
    _ = m ((c : Thread nD τ).loc main_arg16) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (host_keeps hostOps1)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (host_keeps hostOps0)
    _ = m ((c : Thread nD τ).loc main_arg13) := rfl

theorem W7_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (host_keeps hostOps3)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (host_keeps hostOps2)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (host_keeps hostOps1)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (host_keeps hostOps0)
    _ = m ((c : Thread nD τ).loc main_arg0) := rfl

theorem W7_arg18 (c : Dev nD) : W7 m ρ c (Proc.devRef .tc main_arg18) = m ((c : Thread nD τ).loc main_arg18) :=
  calc W7 m ρ c (Proc.devRef .tc main_arg18)
    _ = W6 m ρ c (Proc.devRef .tc main_arg18) := StableHlo.after_of_forall_not_mem (b := Proc.devRef .tc main_arg18) _ _ (host_keeps hostOps3)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (host_keeps hostOps2)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (host_keeps hostOps1)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (host_keeps hostOps0)
    _ = m ((c : Thread nD τ).loc main_arg18) := rfl

theorem W6_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (host_keeps hostOps2)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (host_keeps hostOps1)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (host_keeps hostOps0)
    _ = m ((c : Thread nD τ).loc main_arg17) := rfl

theorem W9_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_forall_not_mem (b := Proc.devRef .tc main_arg1) _ _ (host_keeps hostOps4)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (host_keeps hostOps3)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (host_keeps hostOps2)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (host_keeps hostOps1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (host_keeps hostOps0)
    _ = m ((c : Thread nD τ).loc main_arg1) := rfl

theorem W9_arg20 (c : Dev nD) : W9 m ρ c (Proc.devRef .tc main_arg20) = m ((c : Thread nD τ).loc main_arg20) :=
  calc W9 m ρ c (Proc.devRef .tc main_arg20)
    _ = W8 m ρ c (Proc.devRef .tc main_arg20) := StableHlo.after_of_forall_not_mem (b := Proc.devRef .tc main_arg20) _ _ (host_keeps hostOps4)
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (host_keeps hostOps3)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (host_keeps hostOps2)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (host_keeps hostOps1)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (host_keeps hostOps0)
    _ = m ((c : Thread nD τ).loc main_arg20) := rfl

theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (host_keeps hostOps3)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (host_keeps hostOps2)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (host_keeps hostOps1)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (host_keeps hostOps0)
    _ = m ((c : Thread nD τ).loc main_arg19) := rfl

theorem W6_v57 (c : Dev nD) : W6 m ρ c (Proc.devRef .tc main_v57) = W2 m ρ c (Proc.devRef .tc main_v57) :=
  calc W6 m ρ c (Proc.devRef .tc main_v57)
    _ = W5 m ρ c (Proc.devRef .tc main_v57) := W6_of_ne m ρ c main_v57 (by decide)
    _ = W4 m ρ c (Proc.devRef .tc main_v57) := StableHlo.after_of_forall_not_mem (b := Proc.devRef .tc main_v57) _ _ (host_keeps hostOps2)
    _ = W3 m ρ c (Proc.devRef .tc main_v57) := W4_of_ne m ρ c main_v57 (by decide)
    _ = W2 m ρ c (Proc.devRef .tc main_v57) := StableHlo.after_of_forall_not_mem (b := Proc.devRef .tc main_v57) _ _ (host_keeps hostOps1)

theorem W10_v57 (c : Dev nD) : W10 m ρ c (Proc.devRef .tc main_v57) = W6 m ρ c (Proc.devRef .tc main_v57) :=
  calc W10 m ρ c (Proc.devRef .tc main_v57)
    _ = W9 m ρ c (Proc.devRef .tc main_v57) := W10_of_ne m ρ c main_v57 (by decide)
    _ = W8 m ρ c (Proc.devRef .tc main_v57) := StableHlo.after_of_forall_not_mem (b := Proc.devRef .tc main_v57) _ _ (host_keeps hostOps4)
    _ = W7 m ρ c (Proc.devRef .tc main_v57) := W8_of_ne m ρ c main_v57 (by decide)
    _ = W6 m ρ c (Proc.devRef .tc main_v57) := StableHlo.after_of_forall_not_mem (b := Proc.devRef .tc main_v57) _ _ (host_keeps hostOps3)

theorem W6_v61 (c : Dev nD) : W6 m ρ c (Proc.devRef .tc main_v61) = W4 m ρ c (Proc.devRef .tc main_v61) :=
  calc W6 m ρ c (Proc.devRef .tc main_v61)
    _ = W5 m ρ c (Proc.devRef .tc main_v61) := W6_of_ne m ρ c main_v61 (by decide)
    _ = W4 m ρ c (Proc.devRef .tc main_v61) := StableHlo.after_of_forall_not_mem (b := Proc.devRef .tc main_v61) _ _ (host_keeps hostOps2)

theorem W10_v61 (c : Dev nD) : W10 m ρ c (Proc.devRef .tc main_v61) = W6 m ρ c (Proc.devRef .tc main_v61) :=
  calc W10 m ρ c (Proc.devRef .tc main_v61)
    _ = W9 m ρ c (Proc.devRef .tc main_v61) := W10_of_ne m ρ c main_v61 (by decide)
    _ = W8 m ρ c (Proc.devRef .tc main_v61) := StableHlo.after_of_forall_not_mem (b := Proc.devRef .tc main_v61) _ _ (host_keeps hostOps4)
    _ = W7 m ρ c (Proc.devRef .tc main_v61) := W8_of_ne m ρ c main_v61 (by decide)
    _ = W6 m ρ c (Proc.devRef .tc main_v61) := StableHlo.after_of_forall_not_mem (b := Proc.devRef .tc main_v61) _ _ (host_keeps hostOps3)

theorem W10_v65 (c : Dev nD) : W10 m ρ c (Proc.devRef .tc main_v65) = W6 m ρ c (Proc.devRef .tc main_v65) :=
  calc W10 m ρ c (Proc.devRef .tc main_v65)
    _ = W9 m ρ c (Proc.devRef .tc main_v65) := W10_of_ne m ρ c main_v65 (by decide)
    _ = W8 m ρ c (Proc.devRef .tc main_v65) := StableHlo.after_of_forall_not_mem (b := Proc.devRef .tc main_v65) _ _ (host_keeps hostOps4)
    _ = W7 m ρ c (Proc.devRef .tc main_v65) := W8_of_ne m ρ c main_v65 (by decide)
    _ = W6 m ρ c (Proc.devRef .tc main_v65) := StableHlo.after_of_forall_not_mem (b := Proc.devRef .tc main_v65) _ _ (host_keeps hostOps3)

theorem W10_v86 (c : Dev nD) : W10 m ρ c (Proc.devRef .tc main_v86) = W8 m ρ c (Proc.devRef .tc main_v86) :=
  calc W10 m ρ c (Proc.devRef .tc main_v86)
    _ = W9 m ρ c (Proc.devRef .tc main_v86) := W10_of_ne m ρ c main_v86 (by decide)
    _ = W8 m ρ c (Proc.devRef .tc main_v86) := StableHlo.after_of_forall_not_mem (b := Proc.devRef .tc main_v86) _ _ (host_keeps hostOps4)

theorem W3_v32_to1 (c : Dev nD) : W3 m ρ c (Proc.devRef .tc main_v32) = W1 m ρ c (Proc.devRef .tc main_v32) :=
  calc W3 m ρ c (Proc.devRef .tc main_v32)
    _ = W2 m ρ c (Proc.devRef .tc main_v32) := StableHlo.after_of_forall_not_mem (b := Proc.devRef .tc main_v32) _ _ (host_keeps hostOps1)
    _ = W1 m ρ c (Proc.devRef .tc main_v32) := W2_of_ne m ρ c main_v32 (by decide)

theorem W3_v39_to1 (c : Dev nD) : W3 m ρ c (Proc.devRef .tc main_v39) = W1 m ρ c (Proc.devRef .tc main_v39) :=
  calc W3 m ρ c (Proc.devRef .tc main_v39)
    _ = W2 m ρ c (Proc.devRef .tc main_v39) := StableHlo.after_of_forall_not_mem (b := Proc.devRef .tc main_v39) _ _ (host_keeps hostOps1)
    _ = W1 m ρ c (Proc.devRef .tc main_v39) := W2_of_ne m ρ c main_v39 (by decide)

theorem W5_v46_to1 (c : Dev nD) : W5 m ρ c (Proc.devRef .tc main_v46) = W1 m ρ c (Proc.devRef .tc main_v46) :=
  calc W5 m ρ c (Proc.devRef .tc main_v46)
    _ = W4 m ρ c (Proc.devRef .tc main_v46) := StableHlo.after_of_forall_not_mem (b := Proc.devRef .tc main_v46) _ _ (host_keeps hostOps2)
    _ = W3 m ρ c (Proc.devRef .tc main_v46) := W4_of_ne m ρ c main_v46 (by decide)
    _ = W2 m ρ c (Proc.devRef .tc main_v46) := StableHlo.after_of_forall_not_mem (b := Proc.devRef .tc main_v46) _ _ (host_keeps hostOps1)
    _ = W1 m ρ c (Proc.devRef .tc main_v46) := W2_of_ne m ρ c main_v46 (by decide)

theorem W5_v53_to1 (c : Dev nD) : W5 m ρ c (Proc.devRef .tc main_v53) = W1 m ρ c (Proc.devRef .tc main_v53) :=
  calc W5 m ρ c (Proc.devRef .tc main_v53)
    _ = W4 m ρ c (Proc.devRef .tc main_v53) := StableHlo.after_of_forall_not_mem (b := Proc.devRef .tc main_v53) _ _ (host_keeps hostOps2)
    _ = W3 m ρ c (Proc.devRef .tc main_v53) := W4_of_ne m ρ c main_v53 (by decide)
    _ = W2 m ρ c (Proc.devRef .tc main_v53) := StableHlo.after_of_forall_not_mem (b := Proc.devRef .tc main_v53) _ _ (host_keeps hostOps1)
    _ = W1 m ρ c (Proc.devRef .tc main_v53) := W2_of_ne m ρ c main_v53 (by decide)

theorem W6_v1_to1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (host_keeps hostOps2)
    _ = W3 m ρ c (Proc.devRef .tc main_v1) := W4_of_ne m ρ c main_v1 (by decide)
    _ = W2 m ρ c (Proc.devRef .tc main_v1) := StableHlo.after_of_forall_not_mem (b := Proc.devRef .tc main_v1) _ _ (host_keeps hostOps1)
    _ = W1 m ρ c (Proc.devRef .tc main_v1) := W2_of_ne m ρ c main_v1 (by decide)

theorem W6_v3_to1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (host_keeps hostOps2)
    _ = W3 m ρ c (Proc.devRef .tc main_v3) := W4_of_ne m ρ c main_v3 (by decide)
    _ = W2 m ρ c (Proc.devRef .tc main_v3) := StableHlo.after_of_forall_not_mem (b := Proc.devRef .tc main_v3) _ _ (host_keeps hostOps1)
    _ = W1 m ρ c (Proc.devRef .tc main_v3) := W2_of_ne m ρ c main_v3 (by decide)

theorem W6_v5_to1 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (host_keeps hostOps2)
    _ = W3 m ρ c (Proc.devRef .tc main_v5) := W4_of_ne m ρ c main_v5 (by decide)
    _ = W2 m ρ c (Proc.devRef .tc main_v5) := StableHlo.after_of_forall_not_mem (b := Proc.devRef .tc main_v5) _ _ (host_keeps hostOps1)
    _ = W1 m ρ c (Proc.devRef .tc main_v5) := W2_of_ne m ρ c main_v5 (by decide)

theorem W6_v7_to1 (c : Dev nD) : W6 m ρ c (Proc.devRef .tc main_v7) = W1 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := StableHlo.after_of_forall_not_mem (b := Proc.devRef .tc main_v7) _ _ (host_keeps hostOps2)
    _ = W3 m ρ c (Proc.devRef .tc main_v7) := W4_of_ne m ρ c main_v7 (by decide)
    _ = W2 m ρ c (Proc.devRef .tc main_v7) := StableHlo.after_of_forall_not_mem (b := Proc.devRef .tc main_v7) _ _ (host_keeps hostOps1)
    _ = W1 m ρ c (Proc.devRef .tc main_v7) := W2_of_ne m ρ c main_v7 (by decide)

theorem W6_v9_to1 (c : Dev nD) : W6 m ρ c (Proc.devRef .tc main_v9) = W1 m ρ c (Proc.devRef .tc main_v9) :=
  calc W6 m ρ c (Proc.devRef .tc main_v9)
    _ = W5 m ρ c (Proc.devRef .tc main_v9) := W6_of_ne m ρ c main_v9 (by decide)
    _ = W4 m ρ c (Proc.devRef .tc main_v9) := StableHlo.after_of_forall_not_mem (b := Proc.devRef .tc main_v9) _ _ (host_keeps hostOps2)
    _ = W3 m ρ c (Proc.devRef .tc main_v9) := W4_of_ne m ρ c main_v9 (by decide)
    _ = W2 m ρ c (Proc.devRef .tc main_v9) := StableHlo.after_of_forall_not_mem (b := Proc.devRef .tc main_v9) _ _ (host_keeps hostOps1)
    _ = W1 m ρ c (Proc.devRef .tc main_v9) := W2_of_ne m ρ c main_v9 (by decide)

theorem W6_v11_to1 (c : Dev nD) : W6 m ρ c (Proc.devRef .tc main_v11) = W1 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := StableHlo.after_of_forall_not_mem (b := Proc.devRef .tc main_v11) _ _ (host_keeps hostOps2)
    _ = W3 m ρ c (Proc.devRef .tc main_v11) := W4_of_ne m ρ c main_v11 (by decide)
    _ = W2 m ρ c (Proc.devRef .tc main_v11) := StableHlo.after_of_forall_not_mem (b := Proc.devRef .tc main_v11) _ _ (host_keeps hostOps1)
    _ = W1 m ρ c (Proc.devRef .tc main_v11) := W2_of_ne m ρ c main_v11 (by decide)

theorem W9_v83_to7 (c : Dev nD) : W9 m ρ c (Proc.devRef .tc main_v83) = W7 m ρ c (Proc.devRef .tc main_v83) :=
  calc W9 m ρ c (Proc.devRef .tc main_v83)
    _ = W8 m ρ c (Proc.devRef .tc main_v83) := StableHlo.after_of_forall_not_mem (b := Proc.devRef .tc main_v83) _ _ (host_keeps hostOps4)
    _ = W7 m ρ c (Proc.devRef .tc main_v83) := W8_of_ne m ρ c main_v83 (by decide)

/-! ## The host operations' values, named -/

/-- The first row of an edge-index array [2, E]: the edges' source nodes. -/
def srcOf (ei : IVec S2x800000 32) : IVec S800000 32 :=
  shapeCast _ (extractStridedSlice S1x800000 ![0, 0] ei slices_S2x800000_S1x800000_0_0) shapeCasts_S1x800000_S800000
/-- The second row: the edges' destination nodes. -/
def dstOf (ei : IVec S2x800000 32) : IVec S800000 32 :=
  shapeCast _ (extractStridedSlice S1x800000 ![1, 0] ei slices_S2x800000_S1x800000_1_0) shapeCasts_S1x800000_S800000
/-- The rows of a node table at a vector of node indices (a negative index counted once from the end, then the
    gather's own clamping). -/
def gatherRows (x : FVec Ideal S100000x64 .f32) (r : IVec S800000 32) : FVec Ideal S800000x64 .f32 :=
  Host.gather gather_S100000x64_S800000x1_S800000x64_1_0_n_n_0_1_164 x
    (broadcastInDim S800000x1 ![0] bcast_S800000_S800000x1_0
      (select (cmpi .slt r (broadcastInDim S800000 ![] bcast_S_S800000 (constantI S_ 32 0#32)))
        (addi r (broadcastInDim S800000 ![] bcast_S_S800000 (constantI S_ 32 100000#32))) r))
/-- The sum, per node, of the attribute rows of the edges whose index in `r` is that node. -/
def segSum (r : IVec S800000 32) (e : FVec Ideal S800000x32 .f32) : FVec Ideal S100000x32 .f32 :=
  Host.scatterAdd scatter_S100000x32_S800000x1_S800000x32_1_0_0_1
    (broadcastInDim S100000x32 ![] bcast_S_S100000x32 (constant (F := Ideal) S_ .f32 0x00000000#32))
    (broadcastInDim S800000x1 ![0] bcast_S800000_S800000x1_0 r) e
/-- The same sum taken at once over the two index vectors `r` and `c`, each edge's row scattered twice. -/
def segSum2 (r c : IVec S800000 32) (e : FVec Ideal S800000x32 .f32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0
      (concatenate S1600000 0 [⟨S800000, r⟩, ⟨S800000, c⟩] concatenates_S800000_S800000_S1600000_d0))
    (concatenate S1600000x32 0 [⟨S800000x32, e⟩, ⟨S800000x32, e⟩] concatenates_S800000x32_S800000x32_S1600000x32_d0)

/-! ## What the host operations before region 0 write -/

set_option maxHeartbeats 16000000 in
theorem W1_v1 (c : Dev nD) : W1 m ρ c (Proc.devRef .tc main_v1) = srcOf (m ((c : Thread nD τ).loc main_arg21)) := by
  show StableHlo.after hostOps0 (W0 m ρ c) (Proc.devRef .tc main_v1) = _
  after_results <;> rfl

set_option maxHeartbeats 16000000 in
theorem W1_v3 (c : Dev nD) : W1 m ρ c (Proc.devRef .tc main_v3) = dstOf (m ((c : Thread nD τ).loc main_arg21)) := by
  show StableHlo.after hostOps0 (W0 m ρ c) (Proc.devRef .tc main_v3) = _
  after_results <;> rfl

set_option maxHeartbeats 16000000 in
theorem W1_v5 (c : Dev nD) : W1 m ρ c (Proc.devRef .tc main_v5) = srcOf (m ((c : Thread nD τ).loc main_arg22)) := by
  show StableHlo.after hostOps0 (W0 m ρ c) (Proc.devRef .tc main_v5) = _
  after_results <;> rfl

set_option maxHeartbeats 16000000 in
theorem W1_v7 (c : Dev nD) : W1 m ρ c (Proc.devRef .tc main_v7) = dstOf (m ((c : Thread nD τ).loc main_arg22)) := by
  show StableHlo.after hostOps0 (W0 m ρ c) (Proc.devRef .tc main_v7) = _
  after_results <;> rfl

set_option maxHeartbeats 16000000 in
theorem W1_v9 (c : Dev nD) : W1 m ρ c (Proc.devRef .tc main_v9) = srcOf (m ((c : Thread nD τ).loc main_arg23)) := by
  show StableHlo.after hostOps0 (W0 m ρ c) (Proc.devRef .tc main_v9) = _
  after_results <;> rfl

set_option maxHeartbeats 16000000 in
theorem W1_v11 (c : Dev nD) : W1 m ρ c (Proc.devRef .tc main_v11) = dstOf (m ((c : Thread nD τ).loc main_arg23)) := by
  show StableHlo.after hostOps0 (W0 m ρ c) (Proc.devRef .tc main_v11) = _
  after_results <;> rfl

set_option maxHeartbeats 16000000 in
theorem W1_v18 (c : Dev nD) : W1 m ρ c (Proc.devRef .tc main_v18) = gatherRows (m ((c : Thread nD τ).loc main_arg0)) (srcOf (m ((c : Thread nD τ).loc main_arg21))) := by
  show StableHlo.after hostOps0 (W0 m ρ c) (Proc.devRef .tc main_v18) = _
  after_results <;> rfl

set_option maxHeartbeats 16000000 in
theorem W1_v25 (c : Dev nD) : W1 m ρ c (Proc.devRef .tc main_v25) = gatherRows (m ((c : Thread nD τ).loc main_arg0)) (dstOf (m ((c : Thread nD τ).loc main_arg21))) := by
  show StableHlo.after hostOps0 (W0 m ρ c) (Proc.devRef .tc main_v25) = _
  after_results <;> rfl

set_option maxHeartbeats 16000000 in
theorem W1_v32 (c : Dev nD) : W1 m ρ c (Proc.devRef .tc main_v32) = gatherRows (m ((c : Thread nD τ).loc main_arg0)) (srcOf (m ((c : Thread nD τ).loc main_arg22))) := by
  show StableHlo.after hostOps0 (W0 m ρ c) (Proc.devRef .tc main_v32) = _
  after_results <;> rfl

set_option maxHeartbeats 16000000 in
theorem W1_v39 (c : Dev nD) : W1 m ρ c (Proc.devRef .tc main_v39) = gatherRows (m ((c : Thread nD τ).loc main_arg1)) (dstOf (m ((c : Thread nD τ).loc main_arg22))) := by
  show StableHlo.after hostOps0 (W0 m ρ c) (Proc.devRef .tc main_v39) = _
  after_results <;> rfl

set_option maxHeartbeats 16000000 in
theorem W1_v46 (c : Dev nD) : W1 m ρ c (Proc.devRef .tc main_v46) = gatherRows (m ((c : Thread nD τ).loc main_arg1)) (srcOf (m ((c : Thread nD τ).loc main_arg23))) := by
  show StableHlo.after hostOps0 (W0 m ρ c) (Proc.devRef .tc main_v46) = _
  after_results <;> rfl

set_option maxHeartbeats 16000000 in
theorem W1_v53 (c : Dev nD) : W1 m ρ c (Proc.devRef .tc main_v53) = gatherRows (m ((c : Thread nD τ).loc main_arg1)) (dstOf (m ((c : Thread nD τ).loc main_arg23))) := by
  show StableHlo.after hostOps0 (W0 m ρ c) (Proc.devRef .tc main_v53) = _
  after_results <;> rfl

set_option maxHeartbeats 16000000 in
theorem W1_v54 (c : Dev nD) : W1 m ρ c (Proc.devRef .tc main_v54) = extractStridedSlice S64x64 ![0, 0] (m ((c : Thread nD τ).loc main_arg5)) slices_S160x64_S64x64_0_0 := by
  show StableHlo.after hostOps0 (W0 m ρ c) (Proc.devRef .tc main_v54) = _
  after_results <;> rfl

set_option maxHeartbeats 16000000 in
theorem W1_v55 (c : Dev nD) : W1 m ρ c (Proc.devRef .tc main_v55) = extractStridedSlice S64x64 ![64, 0] (m ((c : Thread nD τ).loc main_arg5)) slices_S160x64_S64x64_64_0 := by
  show StableHlo.after hostOps0 (W0 m ρ c) (Proc.devRef .tc main_v55) = _
  after_results <;> rfl

set_option maxHeartbeats 16000000 in
theorem W1_v56 (c : Dev nD) : W1 m ρ c (Proc.devRef .tc main_v56) = extractStridedSlice S32x64 ![128, 0] (m ((c : Thread nD τ).loc main_arg5)) slices_S160x64_S32x64_128_0 := by
  show StableHlo.after hostOps0 (W0 m ρ c) (Proc.devRef .tc main_v56) = _
  after_results <;> rfl

/-! ## What the host operations between the regions write -/

theorem W3_v58 (c : Dev nD) : W3 m ρ c (Proc.devRef .tc main_v58) = extractStridedSlice S64x64 ![0, 0] (m ((c : Thread nD τ).loc main_arg9)) slices_S160x64_S64x64_0_0 := by
  have h : W3 m ρ c (Proc.devRef .tc main_v58) = extractStridedSlice S64x64 ![0, 0] (W2 m ρ c (Proc.devRef .tc main_arg9)) slices_S160x64_S64x64_0_0 := by
    show StableHlo.after hostOps1 (W2 m ρ c) (Proc.devRef .tc main_v58) = _
    after_results <;> rfl
  rw [h, W2_arg9]

theorem W3_v59 (c : Dev nD) : W3 m ρ c (Proc.devRef .tc main_v59) = extractStridedSlice S64x64 ![64, 0] (m ((c : Thread nD τ).loc main_arg9)) slices_S160x64_S64x64_64_0 := by
  have h : W3 m ρ c (Proc.devRef .tc main_v59) = extractStridedSlice S64x64 ![64, 0] (W2 m ρ c (Proc.devRef .tc main_arg9)) slices_S160x64_S64x64_64_0 := by
    show StableHlo.after hostOps1 (W2 m ρ c) (Proc.devRef .tc main_v59) = _
    after_results <;> rfl
  rw [h, W2_arg9]

theorem W3_v60 (c : Dev nD) : W3 m ρ c (Proc.devRef .tc main_v60) = extractStridedSlice S32x64 ![128, 0] (m ((c : Thread nD τ).loc main_arg9)) slices_S160x64_S32x64_128_0 := by
  have h : W3 m ρ c (Proc.devRef .tc main_v60) = extractStridedSlice S32x64 ![128, 0] (W2 m ρ c (Proc.devRef .tc main_arg9)) slices_S160x64_S32x64_128_0 := by
    show StableHlo.after hostOps1 (W2 m ρ c) (Proc.devRef .tc main_v60) = _
    after_results <;> rfl
  rw [h, W2_arg9]

theorem W5_v62 (c : Dev nD) : W5 m ρ c (Proc.devRef .tc main_v62) = extractStridedSlice S64x64 ![0, 0] (m ((c : Thread nD τ).loc main_arg13)) slices_S160x64_S64x64_0_0 := by
  have h : W5 m ρ c (Proc.devRef .tc main_v62) = extractStridedSlice S64x64 ![0, 0] (W4 m ρ c (Proc.devRef .tc main_arg13)) slices_S160x64_S64x64_0_0 := by
    show StableHlo.after hostOps2 (W4 m ρ c) (Proc.devRef .tc main_v62) = _
    after_results <;> rfl
  rw [h, W4_arg13]

theorem W5_v63 (c : Dev nD) : W5 m ρ c (Proc.devRef .tc main_v63) = extractStridedSlice S64x64 ![64, 0] (m ((c : Thread nD τ).loc main_arg13)) slices_S160x64_S64x64_64_0 := by
  have h : W5 m ρ c (Proc.devRef .tc main_v63) = extractStridedSlice S64x64 ![64, 0] (W4 m ρ c (Proc.devRef .tc main_arg13)) slices_S160x64_S64x64_64_0 := by
    show StableHlo.after hostOps2 (W4 m ρ c) (Proc.devRef .tc main_v63) = _
    after_results <;> rfl
  rw [h, W4_arg13]

theorem W5_v64 (c : Dev nD) : W5 m ρ c (Proc.devRef .tc main_v64) = extractStridedSlice S32x64 ![128, 0] (m ((c : Thread nD τ).loc main_arg13)) slices_S160x64_S32x64_128_0 := by
  have h : W5 m ρ c (Proc.devRef .tc main_v64) = extractStridedSlice S32x64 ![128, 0] (W4 m ρ c (Proc.devRef .tc main_arg13)) slices_S160x64_S32x64_128_0 := by
    show StableHlo.after hostOps2 (W4 m ρ c) (Proc.devRef .tc main_v64) = _
    after_results <;> rfl
  rw [h, W4_arg13]

theorem W7_v84 (c : Dev nD) : W7 m ρ c (Proc.devRef .tc main_v84) = extractStridedSlice S64x64 ![0, 0] (m ((c : Thread nD τ).loc main_arg17)) slices_S96x64_S64x64_0_0 := by
  have h : W7 m ρ c (Proc.devRef .tc main_v84) = extractStridedSlice S64x64 ![0, 0] (W6 m ρ c (Proc.devRef .tc main_arg17)) slices_S96x64_S64x64_0_0 := by
    show StableHlo.after hostOps3 (W6 m ρ c) (Proc.devRef .tc main_v84) = _
    after_results <;> rfl
  rw [h, W6_arg17]

theorem W7_v85 (c : Dev nD) : W7 m ρ c (Proc.devRef .tc main_v85) = extractStridedSlice S32x64 ![64, 0] (m ((c : Thread nD τ).loc main_arg17)) slices_S96x64_S32x64_64_0 := by
  have h : W7 m ρ c (Proc.devRef .tc main_v85) = extractStridedSlice S32x64 ![64, 0] (W6 m ρ c (Proc.devRef .tc main_arg17)) slices_S96x64_S32x64_64_0 := by
    show StableHlo.after hostOps3 (W6 m ρ c) (Proc.devRef .tc main_v85) = _
    after_results <;> rfl
  rw [h, W6_arg17]

theorem W9_v87 (c : Dev nD) : W9 m ρ c (Proc.devRef .tc main_v87) = extractStridedSlice S64x64 ![0, 0] (m ((c : Thread nD τ).loc main_arg19)) slices_S96x64_S64x64_0_0 := by
  have h : W9 m ρ c (Proc.devRef .tc main_v87) = extractStridedSlice S64x64 ![0, 0] (W8 m ρ c (Proc.devRef .tc main_arg19)) slices_S96x64_S64x64_0_0 := by
    show StableHlo.after hostOps4 (W8 m ρ c) (Proc.devRef .tc main_v87) = _
    after_results <;> rfl
  rw [h, W8_arg19]

theorem W9_v88 (c : Dev nD) : W9 m ρ c (Proc.devRef .tc main_v88) = extractStridedSlice S32x64 ![64, 0] (m ((c : Thread nD τ).loc main_arg19)) slices_S96x64_S32x64_64_0 := by
  have h : W9 m ρ c (Proc.devRef .tc main_v88) = extractStridedSlice S32x64 ![64, 0] (W8 m ρ c (Proc.devRef .tc main_arg19)) slices_S96x64_S32x64_64_0 := by
    show StableHlo.after hostOps4 (W8 m ρ c) (Proc.devRef .tc main_v88) = _
    after_results <;> rfl
  rw [h, W8_arg19]

set_option maxHeartbeats 16000000 in
theorem W7_v79 (c : Dev nD) : W7 m ρ c (Proc.devRef .tc main_v79) = addf (segSum2 (srcOf (m ((c : Thread nD τ).loc main_arg21))) (dstOf (m ((c : Thread nD τ).loc main_arg21))) (W2 m ρ c (Proc.devRef .tc main_v57))) (segSum (srcOf (m ((c : Thread nD τ).loc main_arg22))) (W4 m ρ c (Proc.devRef .tc main_v61))) := by
  have h : W7 m ρ c (Proc.devRef .tc main_v79) = addf (segSum2 (W6 m ρ c (Proc.devRef .tc main_v1)) (W6 m ρ c (Proc.devRef .tc main_v3)) (W6 m ρ c (Proc.devRef .tc main_v57))) (segSum (W6 m ρ c (Proc.devRef .tc main_v5)) (W6 m ρ c (Proc.devRef .tc main_v61))) := by
    show StableHlo.after hostOps3 (W6 m ρ c) (Proc.devRef .tc main_v79) = _
    after_results <;> rfl
  rw [h, W6_v1_to1, W1_v1, W6_v3_to1, W1_v3, W6_v5_to1, W1_v5, W6_v57, W6_v61]

set_option maxHeartbeats 16000000 in
theorem W7_v83 (c : Dev nD) : W7 m ρ c (Proc.devRef .tc main_v83) = addf (segSum (dstOf (m ((c : Thread nD τ).loc main_arg22))) (W4 m ρ c (Proc.devRef .tc main_v61))) (segSum2 (srcOf (m ((c : Thread nD τ).loc main_arg23))) (dstOf (m ((c : Thread nD τ).loc main_arg23))) (W6 m ρ c (Proc.devRef .tc main_v65))) := by
  have h : W7 m ρ c (Proc.devRef .tc main_v83) = addf (segSum (W6 m ρ c (Proc.devRef .tc main_v7)) (W6 m ρ c (Proc.devRef .tc main_v61))) (segSum2 (W6 m ρ c (Proc.devRef .tc main_v9)) (W6 m ρ c (Proc.devRef .tc main_v11)) (W6 m ρ c (Proc.devRef .tc main_v65))) := by
    show StableHlo.after hostOps3 (W6 m ρ c) (Proc.devRef .tc main_v83) = _
    after_results <;> rfl
  rw [h, W6_v7_to1, W1_v7, W6_v9_to1, W1_v9, W6_v11_to1, W1_v11, W6_v61]

end Cert.KernelIdeal.KFold

end
-- ==== Proof.Spec.lean ====
/-
  One layer of a heterogeneous graph network, as plain functions of the argument arrays on the extended reals.

  Two node types (a, b) with N = 100000 nodes of 64 features each; three edge types (aa, ab, bb) with
  E = 800000 edges of 32 features each. For an edge with endpoint features x1, x2 (rows gathered from the node
  tables) and attributes ea, the edge update is a two-layer perceptron

      hidden = relu ([x1 | x2 | ea] · W1 + b1)        (160 → 64)
      e'     = relu (hidden · W2 + b2)                 (64 → 32)

  and a node's update is  relu ([x | agg] · Wn + bn)  (96 → 64), where agg sums the updated attributes of the
  edges incident to the node. The product with the concatenated row is written here as the SUM of the products with
  the row's pieces (rows 0–63, 64–127, 128–159 of W1; rows 0–63, 64–95 of Wn): a sum over 160 (or 96) terms split
  at the piece boundaries, which is the same number on the extended reals because addition there is commutative
  and associative (no finiteness is needed).
-/
import Idealize.ShloMosaic.PureOps.Ideal
import Idealize.ShloMosaic.PureOps.Ideal.Laws
import Idealize.ShloMosaic.Lib.ValueIdx

noncomputable section

namespace Hetero

open Idealize.ShloMosaic Idealize.ShloMosaic.ValueIdx

/-- A matrix of extended reals with `r` rows and `c` columns, as a function of its index. -/
abbrev Mat (r c : Nat) : Type := (⟨2, ![r, c]⟩ : Shape).Idx → EReal
/-- A vector of extended reals of length `n`. -/
abbrev Vect (n : Nat) : Type := (⟨1, ![n]⟩ : Shape).Idx → EReal

/-- Rows `off … off + n − 1` of a matrix. -/
def rows {R C : Nat} (n off : Nat) (h : off + n ≤ R) (W : Mat R C) : Mat n C :=
  fun i => W (ix2 (⟨off + (i 0).val, by have := (i 0).isLt; exact Nat.lt_of_lt_of_le (Nat.add_lt_add_left this off) h⟩ : Fin R) (i 1))

theorem rows_apply {R C : Nat} (n off : Nat) (h : off + n ≤ R) (W : Mat R C) (k : Fin n) (q : Fin C) :
    rows n off h W (ix2 k q) = W (ix2 (⟨off + k.val, Nat.lt_of_lt_of_le (Nat.add_lt_add_left k.isLt off) h⟩ : Fin R) q) := rfl

/-- The pre-activation of hidden unit `h` for edge `r`, the first layer's weights given as the three blocks
    of rows that meet x1, x2 and ea: the three partial products, then the bias. -/
def edgeHidden3 {E : Nat} (x1 x2 : Mat E 64) (ea : Mat E 32) (Wa Wb : Mat 64 64) (Wc : Mat 32 64) (b1 : Vect 64)
    (r : Fin E) (h : Fin 64) : EReal :=
  (∑ k : Fin 64, x1 (ix2 r k) * Wa (ix2 k h)) + (∑ k : Fin 64, x2 (ix2 r k) * Wb (ix2 k h))
    + (∑ k : Fin 32, ea (ix2 r k) * Wc (ix2 k h)) + b1 (ix1 h)

/-- Updated attribute `q` of edge `r`. -/
def edgeAt3 {E : Nat} (x1 x2 : Mat E 64) (ea : Mat E 32) (Wa Wb : Mat 64 64) (Wc : Mat 32 64) (b1 : Vect 64)
    (W2 : Mat 64 32) (b2 : Vect 32) (r : Fin E) (q : Fin 32) : EReal :=
  max ((∑ h : Fin 64, max (edgeHidden3 x1 x2 ea Wa Wb Wc b1 r h) 0 * W2 (ix2 h q)) + b2 (ix1 q)) 0

/-- The updated edge attributes as an array, from the three blocks of first-layer weights. -/
def edgeOut3 {E : Nat} (x1 x2 : Mat E 64) (ea : Mat E 32) (Wa Wb : Mat 64 64) (Wc : Mat 32 64) (b1 : Vect 64)
    (W2 : Mat 64 32) (b2 : Vect 32) : Mat E 32 :=
  fun i => edgeAt3 x1 x2 ea Wa Wb Wc b1 W2 b2 (i 0) (i 1)

theorem edgeOut3_apply {E : Nat} (x1 x2 : Mat E 64) (ea : Mat E 32) (Wa Wb : Mat 64 64) (Wc : Mat 32 64) (b1 : Vect 64)
    (W2 : Mat 64 32) (b2 : Vect 32) (r : Fin E) (q : Fin 32) :
    edgeOut3 x1 x2 ea Wa Wb Wc b1 W2 b2 (ix2 r q) = edgeAt3 x1 x2 ea Wa Wb Wc b1 W2 b2 r q := rfl

/-- The updated edge attributes from the whole first-layer weight matrix `W1` (160 × 64). -/
def edgeOut {E : Nat} (x1 x2 : Mat E 64) (ea : Mat E 32) (W1 : Mat 160 64) (b1 : Vect 64) (W2 : Mat 64 32) (b2 : Vect 32) :
    Mat E 32 :=
  edgeOut3 x1 x2 ea (rows 64 0 (by decide) W1) (rows 64 64 (by decide) W1) (rows 32 128 (by decide) W1) b1 W2 b2

/-- Updated feature `q` of node `r`, the weights given as the two blocks of rows that meet x and agg. -/
def nodeAt2 {N : Nat} (x : Mat N 64) (agg : Mat N 32) (Wx : Mat 64 64) (Wg : Mat 32 64) (bn : Vect 64) (r : Fin N) (q : Fin 64) : EReal :=
  max ((∑ k : Fin 64, x (ix2 r k) * Wx (ix2 k q)) + (∑ k : Fin 32, agg (ix2 r k) * Wg (ix2 k q)) + bn (ix1 q)) 0

/-- The updated node features as an array, from the two blocks of weights. -/
def nodeOut2 {N : Nat} (x : Mat N 64) (agg : Mat N 32) (Wx : Mat 64 64) (Wg : Mat 32 64) (bn : Vect 64) : Mat N 64 :=
  fun i => nodeAt2 x agg Wx Wg bn (i 0) (i 1)

theorem nodeOut2_apply {N : Nat} (x : Mat N 64) (agg : Mat N 32) (Wx : Mat 64 64) (Wg : Mat 32 64) (bn : Vect 64)
    (r : Fin N) (q : Fin 64) : nodeOut2 x agg Wx Wg bn (ix2 r q) = nodeAt2 x agg Wx Wg bn r q := rfl

/-- The updated node features from the whole weight matrix `Wn` (96 × 64). -/
def nodeOut {N : Nat} (x : Mat N 64) (agg : Mat N 32) (Wn : Mat 96 64) (bn : Vect 64) : Mat N 64 :=
  nodeOut2 x agg (rows 64 0 (by decide) Wn) (rows 32 64 (by decide) Wn) bn

/-- A sum over 160 terms is the sum of its first 64, next 64 and last 32 terms. -/
theorem sum_split_160 {M : Type*} [AddCommMonoid M] (f : Fin 160 → M) :
    ∑ k, f k = (∑ k : Fin 64, f ⟨k.val, by have := k.isLt; omega⟩) + (∑ k : Fin 64, f ⟨64 + k.val, by have := k.isLt; omega⟩)
      + ∑ k : Fin 32, f ⟨128 + k.val, by have := k.isLt; omega⟩ := by
  have h1 := Fin.sum_univ_add (a := 64 + 64) (b := 32) (fun k : Fin (64 + 64 + 32) => f k)
  have h2 := Fin.sum_univ_add (a := 64) (b := 64) (fun k : Fin (64 + 64) => f (Fin.castAdd 32 k))
  rw [h2] at h1
  exact h1

/-- A sum over 96 terms is the sum of its first 64 and last 32 terms. -/
theorem sum_split_96 {M : Type*} [AddCommMonoid M] (f : Fin 96 → M) :
    ∑ k, f k = (∑ k : Fin 64, f ⟨k.val, by have := k.isLt; omega⟩) + ∑ k : Fin 32, f ⟨64 + k.val, by have := k.isLt; omega⟩ :=
  Fin.sum_univ_add (a := 64) (b := 32) (fun k : Fin (64 + 32) => f k)

end Hetero

end
-- ==== Proof.KEdge0.lean ====
/-
  Region 0 (the aa edge update) of the idealized kernel program, read as a value: whatever the arrays hold when the
  region is entered, the pipeline leaves the output array at `Hetero.edgeOut3` of the nine input arrays.

  Grid point t stages rows 8000·t … 8000·t + 7999 of the three edge-sized inputs and the whole of the six weight and
  bias arrays, and writes back the same rows of the output; the body's result at (p, q) depends only on row p of the
  staged edge blocks, so block t of the output is the restriction of ONE whole-array function to those rows, and the
  100 blocks tile the 800000 rows.
-/
import proofs.«407052_j2267742732914_3_alg».proof.Proof.Gen.KernelIdeal.Frame
import proofs.«407052_j2267742732914_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KEdge0

open Cert.KernelIdeal Cert.KernelIdeal.Gen Idealize.ShloMosaic Idealize.ShloMosaic.TcCoe Idealize.SL.Sem Idealize.ShloMosaic.ValueIdx
open Idealize.ShloMosaic.Pipeline (Dat)

/-! ## The body's value at an index

The three matrix products, each into a zero accumulator, are the sums over their one contracted axis; the two biases
are vectors repeated down the rows; the two rectifications are maxima with the number zero. -/

/-! The product `S8000x64 · S64x64`: where its operand indices sit at an output index and a contraction position. -/

theorem lhs_xw_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl

theorem lhs_xw_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q

theorem rhs_xw_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q

theorem rhs_xw_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- An [8000, 64] block times a [64, 64] matrix into a zero accumulator, at (p, h): the sum over the 64 contracted positions. -/
theorem mm_xw (l : FVec Ideal S8000x64 .f32) (r : FVec Ideal S64x64 .f32) (p : Fin 8000) (h : Fin 64) :
    matmul dot_S8000x64_S64x64_S8000x64_1_0_0_1_n_n none l r (constant (F := Ideal) S8000x64 .f32 0x00000000#32) (ix2 p h)
      = ∑ k : Fin 64, l (ix2 p k) * r (ix2 k h) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p h) ((contrEquiv1 dot_S8000x64_S64x64_S8000x64_1_0_0_1_n_n 64 rfl rfl).symm k) = ix2 p k := funext fun a => Fin.ext (by
    match a with
    | ⟨0, _⟩ => exact lhs_xw_0 _ _
    | ⟨1, _⟩ => exact (lhs_xw_1 _ _).trans hk)
  have er : dot_S8000x64_S64x64_S8000x64_1_0_0_1_n_n.rhsIdx (ix2 p h) ((contrEquiv1 dot_S8000x64_S64x64_S8000x64_1_0_0_1_n_n 64 rfl rfl).symm k) = ix2 k h := funext fun a => Fin.ext (by
    match a with
    | ⟨0, _⟩ => exact (rhs_xw_0 _ _).trans hk
    | ⟨1, _⟩ => exact rhs_xw_1 _ _)
  rw [el, er]

/-! The product `S8000x32 · S32x64`: where its operand indices sit at an output index and a contraction position. -/

theorem lhs_ew_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl

theorem lhs_ew_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q

theorem rhs_ew_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q

theorem rhs_ew_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- An [8000, 32] block times a [32, 64] matrix into a zero accumulator, at (p, h): the sum over the 32 contracted positions. -/
theorem mm_ew (l : FVec Ideal S8000x32 .f32) (r : FVec Ideal S32x64 .f32) (p : Fin 8000) (h : Fin 64) :
    matmul dot_S8000x32_S32x64_S8000x64_1_0_0_1_n_n none l r (constant (F := Ideal) S8000x64 .f32 0x00000000#32) (ix2 p h)
      = ∑ k : Fin 32, l (ix2 p k) * r (ix2 k h) := by
  simp only [matmul]
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p h) ((contrEquiv1 dot_S8000x32_S32x64_S8000x64_1_0_0_1_n_n 32 rfl rfl).symm k) = ix2 p k := funext fun a => Fin.ext (by
    match a with
    | ⟨0, _⟩ => exact lhs_ew_0 _ _
    | ⟨1, _⟩ => exact (lhs_ew_1 _ _).trans hk)
  have er : dot_S8000x32_S32x64_S8000x64_1_0_0_1_n_n.rhsIdx (ix2 p h) ((contrEquiv1 dot_S8000x32_S32x64_S8000x64_1_0_0_1_n_n 32 rfl rfl).symm k) = ix2 k h := funext fun a => Fin.ext (by
    match a with
    | ⟨0, _⟩ => exact (rhs_ew_0 _ _).trans hk
    | ⟨1, _⟩ => exact rhs_ew_1 _ _)
  rw [el, er]

/-! The product `S8000x64 · S64x32`: where its operand indices sit at an output index and a contraction position. -/

theorem lhs_hw_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl

theorem lhs_hw_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q

theorem rhs_hw_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q

theorem rhs_hw_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- An [8000, 64] block times a [64, 32] matrix into a zero accumulator, at (p, q): the sum over the 64 contracted positions. -/
theorem mm_hw (l : FVec Ideal S8000x64 .f32) (r : FVec Ideal S64x32 .f32) (p : Fin 8000) (h : Fin 32) :
    matmul dot_S8000x64_S64x32_S8000x32_1_0_0_1_n_n none l r (constant (F := Ideal) S8000x32 .f32 0x00000000#32) (ix2 p h)
      = ∑ k : Fin 64, l (ix2 p k) * r (ix2 k h) := by
  simp only [matmul]
  rw [Ideal.matmul_constant_zero_apply, ← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 p h) ((contrEquiv1 dot_S8000x64_S64x32_S8000x32_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S8000x64_S64x32_S8000x32_1_0_0_1_n_n.rhsIdx (ix2 p h) ((contrEquiv1 dot_S8000x64_S64x32_S8000x32_1_0_0_1_n_n 64 rfl rfl).symm k) = ix2 k h := funext fun a => Fin.ext (by
    match a with
    | ⟨0, _⟩ => exact (rhs_hw_0 _ _).trans hk
    | ⟨1, _⟩ => exact rhs_hw_1 _ _)
  rw [el, er]

/-- A length-64 vector laid as one row and repeated down 8000 rows reads, at (p, h), its entry h. -/
theorem bias_hidden (b : FVec Ideal S64 .f32) (p : Fin 8000) (h : Fin 64) :
    broadcastTo S8000x64 (shapeCast S1x64 b shapeCasts_S64_S1x64) broadcasts_S1x64_S8000x64 (ix2 p h) = b (ix1 h) := by
  rw [broadcastTo_1b_ab_apply, shapeCast_a_1a_apply]

/-- A length-32 vector laid as one row and repeated down 8000 rows reads, at (p, q), its entry q. -/
theorem bias_out (b : FVec Ideal S32 .f32) (p : Fin 8000) (q : Fin 32) :
    broadcastTo S8000x32 (shapeCast S1x32 b shapeCasts_S32_S1x32) broadcasts_S1x32_S8000x32 (ix2 p q) = b (ix1 q) := by
  rw [broadcastTo_1b_ab_apply, shapeCast_a_1a_apply]

/-- The zero word is the number zero. -/
theorem zero_word : Scalar.ofBits (F := Ideal) .f32 0x00000000#32 = (0 : EReal) := Ideal.ofBits_zero_f32

/-- THE BODY'S VALUE AT (p, q): the second layer's rectified sum over the 64 hidden units of the rectified first-layer
    pre-activation (the three partial products of row p with the three weight blocks, then the bias) times the
    second-layer weight, then the second bias. Only row p of the three edge-sized blocks is read. -/
theorem pay_apply (v0 v5 : Vec Ideal S8000x64 .f32) (v11 : Vec Ideal S8000x32 .f32) (v2 v7 : Vec Ideal S64x64 .f32)
    (v12 : Vec Ideal S32x64 .f32) (v16 : Vec Ideal S64 .f32) (v22 : Vec Ideal S64x32 .f32) (v24 : Vec Ideal S32 .f32)
    (p : Fin 8000) (q : Fin 32) :
    k0_pay1 v0 v2 v5 v7 v11 v12 v16 v22 v24 (ix2 p q)
      = max ((∑ h : Fin 64, max ((∑ k : Fin 64, v0 (ix2 p k) * v2 (ix2 k h)) + (∑ k : Fin 64, v5 (ix2 p k) * v7 (ix2 k h))
          + (∑ k : Fin 32, v11 (ix2 p k) * v12 (ix2 k h)) + v16 (ix1 h)) 0 * v22 (ix2 h q)) + v24 (ix1 q)) 0 := by
  unfold k0_pay1
  simp only [shapeCast_self, maximumf_apply, addf_apply, broadcast_apply, mm_hw, mm_xw, mm_ew, bias_hidden, bias_out, zero_word]

/-! ## The index maps -/

variable (V : (c : Dev nD) → (b : Ref sig .tc) → Buf (Elt Ideal) ((c : Thread nD τ).loc b))

theorem hz0 : (![0, 0] : Fin 2 → Nat) = fun _ => 0 := funext fun a => by fin_cases a <;> rfl
theorem hz0' : (![0] : Fin 1 → Nat) = fun _ => 0 := funext fun a => by fin_cases a; rfl

/-- The printed index maps, decided over the grid. -/
theorem idx_facts0 : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_9.index t (0 : Fin 2) ≤ 99 ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block of rows is some point's. -/
theorem idx_onto0 : ∀ (q0 : Fin 100), ∃ t : Fin cfg0.N, win0_9.index t = ![q0.val, 0] :=
  (by decide +kernel : ∀ (q0 : Fin 100), ∃ t : Fin grid0.N, win0_9.index t = ![q0.val, 0])

/-! ### Each input block is its array, read where the output's block sits -/

/-- Point `t`'s block of the first endpoint's rows: entry (p, k) is the array's entry at row `index · 8000 + p`. -/
theorem blk0_0 (c : Dev nD) (t : Fin cfg0.N) (p : Fin 8000) (k : Fin 64) (r : Fin 800000)
    (hr : r.val = win0_9.index t (0 : Fin 2) * 8000 + p.val) :
    (iblk0 V c 0 t : Vec Ideal S8000x64 .f32) (ix2 p k) = (V c main_v18 : Vec Ideal S800000x64 .f32) (ix2 r k) := by
  obtain ⟨e0, e1, -⟩ := idx_facts0 t
  unfold iblk0
  rw [View.read_apply]
  show V c main_v18 (((cfg0.win 0).blk t).view.emb (ix2 p k)) = V c main_v18 (ix2 r k)
  refine congrArg _ (funext fun a => Fin.ext ?_)
  match a with
  | ⟨0, _⟩ => show win0_0.index t (0 : Fin 2) * 8000 + 1 * p.val = r.val; omega
  | ⟨1, _⟩ => show win0_0.index t (1 : Fin 2) * 64 + 1 * k.val = k.val; omega

/-- The same for the second endpoint's rows. -/
theorem blk0_1 (c : Dev nD) (t : Fin cfg0.N) (p : Fin 8000) (k : Fin 64) (r : Fin 800000)
    (hr : r.val = win0_9.index t (0 : Fin 2) * 8000 + p.val) :
    (iblk0 V c 1 t : Vec Ideal S8000x64 .f32) (ix2 p k) = (V c main_v25 : Vec Ideal S800000x64 .f32) (ix2 r k) := by
  obtain ⟨-, -, e0, e1, -⟩ := idx_facts0 t
  unfold iblk0
  rw [View.read_apply]
  show V c main_v25 (((cfg0.win 1).blk t).view.emb (ix2 p k)) = V c main_v25 (ix2 r k)
  refine congrArg _ (funext fun a => Fin.ext ?_)
  match a with
  | ⟨0, _⟩ => show win0_1.index t (0 : Fin 2) * 8000 + 1 * p.val = r.val; omega
  | ⟨1, _⟩ => show win0_1.index t (1 : Fin 2) * 64 + 1 * k.val = k.val; omega

/-- The same for the edge attributes. -/
theorem blk0_2 (c : Dev nD) (t : Fin cfg0.N) (p : Fin 8000) (k : Fin 32) (r : Fin 800000)
    (hr : r.val = win0_9.index t (0 : Fin 2) * 8000 + p.val) :
    (iblk0 V c 2 t : Vec Ideal S8000x32 .f32) (ix2 p k) = (V c main_arg2 : Vec Ideal S800000x32 .f32) (ix2 r k) := by
  obtain ⟨-, -, -, -, e0, e1, -⟩ := idx_facts0 t
  unfold iblk0
  rw [View.read_apply]
  show V c main_arg2 (((cfg0.win 2).blk t).view.emb (ix2 p k)) = V c main_arg2 (ix2 r k)
  refine congrArg _ (funext fun a => Fin.ext ?_)
  match a with
  | ⟨0, _⟩ => show win0_2.index t (0 : Fin 2) * 8000 + 1 * p.val = r.val; omega
  | ⟨1, _⟩ => show win0_2.index t (1 : Fin 2) * 32 + 1 * k.val = k.val; omega

/-- The first block of first-layer weights is staged whole at every point. -/
theorem blk0_3 (c : Dev nD) (t : Fin cfg0.N) :
    (iblk0 V c 3 t : Vec Ideal S64x64 .f32) = (V c main_v54 : Vec Ideal S64x64 .f32) := by
  obtain ⟨-, -, -, -, -, -, -, -, e0, e1, -⟩ := idx_facts0 t
  funext y
  unfold iblk0
  rw [View.read_apply]
  show V c main_v54 (((cfg0.win 3).blk t).view.emb y) = V c main_v54 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- So is the second. -/
theorem blk0_4 (c : Dev nD) (t : Fin cfg0.N) :
    (iblk0 V c 4 t : Vec Ideal S64x64 .f32) = (V c main_v55 : Vec Ideal S64x64 .f32) := by
  obtain ⟨-, -, -, -, -, -, -, -, -, -, e0, e1, -⟩ := idx_facts0 t
  funext y
  unfold iblk0
  rw [View.read_apply]
  show V c main_v55 (((cfg0.win 4).blk t).view.emb y) = V c main_v55 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- So is the third. -/
theorem blk0_5 (c : Dev nD) (t : Fin cfg0.N) :
    (iblk0 V c 5 t : Vec Ideal S32x64 .f32) = (V c main_v56 : Vec Ideal S32x64 .f32) := by
  obtain ⟨-, -, -, -, -, -, -, -, -, -, -, -, e0, e1, -⟩ := idx_facts0 t
  funext y
  unfold iblk0
  rw [View.read_apply]
  show V c main_v56 (((cfg0.win 5).blk t).view.emb y) = V c main_v56 y
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 64 + 1 * (y 1).val = (y 1).val; omega

/-- So is the first-layer bias. -/
theorem blk0_6 (c : Dev nD) (t : Fin cfg0.N) :
    (iblk0 V c 6 t : Vec Ideal S64 .f32) = (V c main_arg6 : Vec Ideal S64 .f32) := by
  obtain ⟨-, -, -, -, -, -, -, -, -, -, -, -, -, -, e0, -⟩ := idx_facts0 t
  funext y
  unfold iblk0
  rw [View.read_apply]
  show V c main_arg6 (((cfg0.win 6).blk t).view.emb y) = V c main_arg6 y
  refine congrArg _ (funext fun a => Fin.ext ?_)
  match a with
  | ⟨0, _⟩ => show win0_6.index t (0 : Fin 1) * 64 + 1 * (y 0).val = (y 0).val; omega

/-- So are the second-layer weights. -/
theorem blk0_7 (c : Dev nD) (t : Fin cfg0.N) :
    (iblk0 V c 7 t : Vec Ideal S64x32 .f32) = (V c main_arg7 : Vec Ideal S64x32 .f32) := by
  obtain ⟨-, -, -, -, -, -, -, -, -, -, -, -, -, -, -, e0, e1, -⟩ := idx_facts0 t
  funext y
  unfold iblk0
  rw [View.read_apply]
  show V c main_arg7 (((cfg0.win 7).blk t).view.emb y) = V c main_arg7 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 32 + 1 * (y 1).val = (y 1).val; omega

/-- So is the second-layer bias. -/
theorem blk0_8 (c : Dev nD) (t : Fin cfg0.N) :
    (iblk0 V c 8 t : Vec Ideal S32 .f32) = (V c main_arg8 : Vec Ideal S32 .f32) := by
  obtain ⟨-, -, -, -, -, -, -, -, -, -, -, -, -, -, -, -, -, e0⟩ := idx_facts0 t
  funext y
  unfold iblk0
  rw [View.read_apply]
  show V c main_arg8 (((cfg0.win 8).blk t).view.emb y) = V c main_arg8 y
  refine congrArg _ (funext fun a => Fin.ext ?_)
  match a with
  | ⟨0, _⟩ => show win0_8.index t (0 : Fin 1) * 32 + 1 * (y 0).val = (y 0).val; omega

/-! ### What a point writes back -/

/-- WHAT POINT `t` WRITES BACK is its block of the edge update of the whole arrays: row p of the block is row
    `index · 8000 + p` of the three edge-sized inputs, the weights and biases are staged whole, and the body's value at
    (p, q) reads only row p of the staged blocks. -/
theorem flushed0_eq (c : Dev nD) (t : Fin cfg0.N) :
    (dat0 (F := Ideal) V c).flushed 9 t
      = ((cfg0.win 9).blk t).view.read (Elt Ideal)
          (Hetero.edgeOut3 (V c main_v18) (V c main_v25) (V c main_arg2) (V c main_v54) (V c main_v55) (V c main_v56)
            (V c main_arg6) (V c main_arg7) (V c main_arg8)) := by
  show (cfg0.win 9).cut (grid0.coords t) ((dat0 V c).after 9 t) = _
  rw [after0_9]
  unfold out0_9
  rw [View.canon_unit_zero hz0]
  simp only [View.ld_unit_zero (S := S8000x64) hz0, View.ld_unit_zero (S := S64x64) hz0, View.ld_unit_zero (S := S8000x32) hz0,
    View.ld_unit_zero (S := S32x64) hz0, View.ld_unit_zero (S := S64) hz0', View.ld_unit_zero (S := S64x32) hz0,
    View.ld_unit_zero (S := S32) hz0']
  funext j
  obtain ⟨p, q, rfl⟩ : ∃ (p : Fin 8000) (q : Fin 32), j = ix2 p q := ⟨j 0, j 1, eq_ix2 j⟩
  obtain ⟨-, -, -, -, -, -, l9, e91, -⟩ := idx_facts0 t
  obtain ⟨r, hr⟩ : ∃ r : Fin 800000, r.val = win0_9.index t (0 : Fin 2) * 8000 + p.val :=
    ⟨⟨win0_9.index t (0 : Fin 2) * 8000 + p.val, by have := p.isLt; omega⟩, rfl⟩
  have hemb : ((cfg0.win 9).blk t).view.emb (ix2 p q) = ix2 r q := by
    funext a; apply Fin.ext
    match a with
    | ⟨0, _⟩ => show win0_9.index t (0 : Fin 2) * 8000 + 1 * p.val = r.val; omega
    | ⟨1, _⟩ => show win0_9.index t (1 : Fin 2) * 32 + 1 * q.val = q.val; omega
  show k0_pay1 (iblk0 V c 0 t) (iblk0 V c 3 t) (iblk0 V c 1 t) (iblk0 V c 4 t) (iblk0 V c 2 t) (iblk0 V c 5 t)
        (iblk0 V c 6 t) (iblk0 V c 7 t) (iblk0 V c 8 t) (ix2 p q)
      = Hetero.edgeOut3 (V c main_v18) (V c main_v25) (V c main_arg2) (V c main_v54) (V c main_v55) (V c main_v56)
          (V c main_arg6) (V c main_arg7) (V c main_arg8) (((cfg0.win 9).blk t).view.emb (ix2 p q))
  rw [hemb, Hetero.edgeOut3_apply]
  refine (pay_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [blk0_3 V c t, blk0_4 V c t, blk0_5 V c t, blk0_6 V c t, blk0_7 V c t, blk0_8 V c t]
  have b0 := fun k => blk0_0 V c t p k r hr
  have b1 := fun k => blk0_1 V c t p k r hr
  have b2 := fun k => blk0_2 V c t p k r hr
  simp only [b0, b1, b2]
  rfl

/-! ### From blocks to the array -/

/-- An index of the output array is in point `t`'s block iff each coordinate is in the block's range on its axis. -/
theorem mem_blk0 (t : Fin cfg0.N) (i : S800000x32.Idx) :
    i ∈ ((cfg0.win 9).blk t).view.set
      ↔ ∀ a : Fin 2, win0_9.index t a * S8000x32.size a ≤ (i a).val ∧ (i a).val < win0_9.index t a * S8000x32.size a + S8000x32.size a := by
  show i ∈ ((View.whole main_v57).slice (win0_9.rect t)).set ↔ _
  rw [View.set_slice_whole, Rect.mem_set_unit]
  exact Iff.rfl

/-- The 100 blocks of 8000 rows tile the 800000 rows: row r is in the block of the point whose block index is r / 8000. -/
theorem cover0 (i : S800000x32.Idx) :
    ∃ t : Fin cfg0.N, (cfg0.win 9).flush t = true ∧ i ∈ ((cfg0.win 9).blk t).view.set := by
  have hi0 : (i 0).val < 800000 := (i 0).isLt
  have hi1 : (i 1).val < 32 := (i 1).isLt
  obtain ⟨t, ht⟩ := idx_onto0 ⟨(i 0).val / 8000, by omega⟩
  have q0 : win0_9.index t (0 : Fin 2) = (i 0).val / 8000 := congrFun ht 0
  have q1 : win0_9.index t (1 : Fin 2) = 0 := congrFun ht 1
  refine ⟨t, flush0_9 t, ?_⟩
  rw [mem_blk0]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 32 ≤ (i 1).val ∧ (i 1).val < win0_9.index t (1 : Fin 2) * 32 + 32; omega

/-- THE ARRAY region 0 leaves in its output window: the edge update of the arrays the region finds. -/
theorem final0 (c : Dev nD) :
    (dat0 (F := Ideal) V c).arrAt 9 cfg0.N
      = Hetero.edgeOut3 (V c main_v18) (V c main_v25) (V c main_arg2) (V c main_v54) (V c main_v55) (V c main_v56)
          (V c main_arg6) (V c main_arg7) (V c main_arg8) :=
  (dat0 (F := Ideal) V c).arrAt_eq_of_cover 9 _ (fun t _ => flushed0_eq V c t) cover0

end Cert.KernelIdeal.KEdge0

end
-- ==== Proof.KEdge1.lean ====
/-
  Region 1 (the ab edge update) of the idealized kernel program, read as a value: whatever the arrays hold when the
  region is entered, the pipeline leaves the output array at `Hetero.edgeOut3` of the nine input arrays.

  Grid point t stages rows 8000·t … 8000·t + 7999 of the three edge-sized inputs and the whole of the six weight and
  bias arrays, and writes back the same rows of the output; the body's result at (p, q) depends only on row p of the
  staged edge blocks, so block t of the output is the restriction of ONE whole-array function to those rows, and the
  100 blocks tile the 800000 rows.
-/
import proofs.«407052_j2267742732914_3_alg».proof.Proof.Gen.KernelIdeal.Frame
import proofs.«407052_j2267742732914_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KEdge1

open Cert.KernelIdeal Cert.KernelIdeal.Gen Idealize.ShloMosaic Idealize.ShloMosaic.TcCoe Idealize.SL.Sem Idealize.ShloMosaic.ValueIdx
open Idealize.ShloMosaic.Pipeline (Dat)

/-! ## The body's value at an index

The three matrix products, each into a zero accumulator, are the sums over their one contracted axis; the two biases
are vectors repeated down the rows; the two rectifications are maxima with the number zero. -/

/-! The product `S8000x64 · S64x64`: where its operand indices sit at an output index and a contraction position. -/

theorem lhs_xw_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl

theorem lhs_xw_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q

theorem rhs_xw_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q

theorem rhs_xw_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- An [8000, 64] block times a [64, 64] matrix into a zero accumulator, at (p, h): the sum over the 64 contracted positions. -/
theorem mm_xw (l : FVec Ideal S8000x64 .f32) (r : FVec Ideal S64x64 .f32) (p : Fin 8000) (h : Fin 64) :
    matmul dot_S8000x64_S64x64_S8000x64_1_0_0_1_n_n none l r (constant (F := Ideal) S8000x64 .f32 0x00000000#32) (ix2 p h)
      = ∑ k : Fin 64, l (ix2 p k) * r (ix2 k h) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p h) ((contrEquiv1 dot_S8000x64_S64x64_S8000x64_1_0_0_1_n_n 64 rfl rfl).symm k) = ix2 p k := funext fun a => Fin.ext (by
    match a with
    | ⟨0, _⟩ => exact lhs_xw_0 _ _
    | ⟨1, _⟩ => exact (lhs_xw_1 _ _).trans hk)
  have er : dot_S8000x64_S64x64_S8000x64_1_0_0_1_n_n.rhsIdx (ix2 p h) ((contrEquiv1 dot_S8000x64_S64x64_S8000x64_1_0_0_1_n_n 64 rfl rfl).symm k) = ix2 k h := funext fun a => Fin.ext (by
    match a with
    | ⟨0, _⟩ => exact (rhs_xw_0 _ _).trans hk
    | ⟨1, _⟩ => exact rhs_xw_1 _ _)
  rw [el, er]

/-! The product `S8000x32 · S32x64`: where its operand indices sit at an output index and a contraction position. -/

theorem lhs_ew_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl

theorem lhs_ew_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q

theorem rhs_ew_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q

theorem rhs_ew_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- An [8000, 32] block times a [32, 64] matrix into a zero accumulator, at (p, h): the sum over the 32 contracted positions. -/
theorem mm_ew (l : FVec Ideal S8000x32 .f32) (r : FVec Ideal S32x64 .f32) (p : Fin 8000) (h : Fin 64) :
    matmul dot_S8000x32_S32x64_S8000x64_1_0_0_1_n_n none l r (constant (F := Ideal) S8000x64 .f32 0x00000000#32) (ix2 p h)
      = ∑ k : Fin 32, l (ix2 p k) * r (ix2 k h) := by
  simp only [matmul]
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p h) ((contrEquiv1 dot_S8000x32_S32x64_S8000x64_1_0_0_1_n_n 32 rfl rfl).symm k) = ix2 p k := funext fun a => Fin.ext (by
    match a with
    | ⟨0, _⟩ => exact lhs_ew_0 _ _
    | ⟨1, _⟩ => exact (lhs_ew_1 _ _).trans hk)
  have er : dot_S8000x32_S32x64_S8000x64_1_0_0_1_n_n.rhsIdx (ix2 p h) ((contrEquiv1 dot_S8000x32_S32x64_S8000x64_1_0_0_1_n_n 32 rfl rfl).symm k) = ix2 k h := funext fun a => Fin.ext (by
    match a with
    | ⟨0, _⟩ => exact (rhs_ew_0 _ _).trans hk
    | ⟨1, _⟩ => exact rhs_ew_1 _ _)
  rw [el, er]

/-! The product `S8000x64 · S64x32`: where its operand indices sit at an output index and a contraction position. -/

theorem lhs_hw_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl

theorem lhs_hw_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q

theorem rhs_hw_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q

theorem rhs_hw_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- An [8000, 64] block times a [64, 32] matrix into a zero accumulator, at (p, q): the sum over the 64 contracted positions. -/
theorem mm_hw (l : FVec Ideal S8000x64 .f32) (r : FVec Ideal S64x32 .f32) (p : Fin 8000) (h : Fin 32) :
    matmul dot_S8000x64_S64x32_S8000x32_1_0_0_1_n_n none l r (constant (F := Ideal) S8000x32 .f32 0x00000000#32) (ix2 p h)
      = ∑ k : Fin 64, l (ix2 p k) * r (ix2 k h) := by
  simp only [matmul]
  rw [Ideal.matmul_constant_zero_apply, ← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 p h) ((contrEquiv1 dot_S8000x64_S64x32_S8000x32_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S8000x64_S64x32_S8000x32_1_0_0_1_n_n.rhsIdx (ix2 p h) ((contrEquiv1 dot_S8000x64_S64x32_S8000x32_1_0_0_1_n_n 64 rfl rfl).symm k) = ix2 k h := funext fun a => Fin.ext (by
    match a with
    | ⟨0, _⟩ => exact (rhs_hw_0 _ _).trans hk
    | ⟨1, _⟩ => exact rhs_hw_1 _ _)
  rw [el, er]

/-- A length-64 vector laid as one row and repeated down 8000 rows reads, at (p, h), its entry h. -/
theorem bias_hidden (b : FVec Ideal S64 .f32) (p : Fin 8000) (h : Fin 64) :
    broadcastTo S8000x64 (shapeCast S1x64 b shapeCasts_S64_S1x64) broadcasts_S1x64_S8000x64 (ix2 p h) = b (ix1 h) := by
  rw [broadcastTo_1b_ab_apply, shapeCast_a_1a_apply]

/-- A length-32 vector laid as one row and repeated down 8000 rows reads, at (p, q), its entry q. -/
theorem bias_out (b : FVec Ideal S32 .f32) (p : Fin 8000) (q : Fin 32) :
    broadcastTo S8000x32 (shapeCast S1x32 b shapeCasts_S32_S1x32) broadcasts_S1x32_S8000x32 (ix2 p q) = b (ix1 q) := by
  rw [broadcastTo_1b_ab_apply, shapeCast_a_1a_apply]

/-- The zero word is the number zero. -/
theorem zero_word : Scalar.ofBits (F := Ideal) .f32 0x00000000#32 = (0 : EReal) := Ideal.ofBits_zero_f32

/-- THE BODY'S VALUE AT (p, q): the second layer's rectified sum over the 64 hidden units of the rectified first-layer
    pre-activation (the three partial products of row p with the three weight blocks, then the bias) times the
    second-layer weight, then the second bias. Only row p of the three edge-sized blocks is read. -/
theorem pay_apply (v0 v5 : Vec Ideal S8000x64 .f32) (v11 : Vec Ideal S8000x32 .f32) (v2 v7 : Vec Ideal S64x64 .f32)
    (v12 : Vec Ideal S32x64 .f32) (v16 : Vec Ideal S64 .f32) (v22 : Vec Ideal S64x32 .f32) (v24 : Vec Ideal S32 .f32)
    (p : Fin 8000) (q : Fin 32) :
    k1_pay1 v0 v2 v5 v7 v11 v12 v16 v22 v24 (ix2 p q)
      = max ((∑ h : Fin 64, max ((∑ k : Fin 64, v0 (ix2 p k) * v2 (ix2 k h)) + (∑ k : Fin 64, v5 (ix2 p k) * v7 (ix2 k h))
          + (∑ k : Fin 32, v11 (ix2 p k) * v12 (ix2 k h)) + v16 (ix1 h)) 0 * v22 (ix2 h q)) + v24 (ix1 q)) 0 := by
  unfold k1_pay1
  simp only [shapeCast_self, maximumf_apply, addf_apply, broadcast_apply, mm_hw, mm_xw, mm_ew, bias_hidden, bias_out, zero_word]

/-! ## The index maps -/

variable (V : (c : Dev nD) → (b : Ref sig .tc) → Buf (Elt Ideal) ((c : Thread nD τ).loc b))

theorem hz0 : (![0, 0] : Fin 2 → Nat) = fun _ => 0 := funext fun a => by fin_cases a <;> rfl
theorem hz0' : (![0] : Fin 1 → Nat) = fun _ => 0 := funext fun a => by fin_cases a; rfl

/-- The printed index maps, decided over the grid. -/
theorem idx_facts0 : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_9.index t (0 : Fin 2) ≤ 99 ∧ win1_9.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Every block of rows is some point's. -/
theorem idx_onto0 : ∀ (q0 : Fin 100), ∃ t : Fin cfg1.N, win1_9.index t = ![q0.val, 0] :=
  (by decide +kernel : ∀ (q0 : Fin 100), ∃ t : Fin grid1.N, win1_9.index t = ![q0.val, 0])

/-! ### Each input block is its array, read where the output's block sits -/

/-- Point `t`'s block of the first endpoint's rows: entry (p, k) is the array's entry at row `index · 8000 + p`. -/
theorem blk0_0 (c : Dev nD) (t : Fin cfg1.N) (p : Fin 8000) (k : Fin 64) (r : Fin 800000)
    (hr : r.val = win1_9.index t (0 : Fin 2) * 8000 + p.val) :
    (iblk1 V c 0 t : Vec Ideal S8000x64 .f32) (ix2 p k) = (V c main_v32 : Vec Ideal S800000x64 .f32) (ix2 r k) := by
  obtain ⟨e0, e1, -⟩ := idx_facts0 t
  unfold iblk1
  rw [View.read_apply]
  show V c main_v32 (((cfg1.win 0).blk t).view.emb (ix2 p k)) = V c main_v32 (ix2 r k)
  refine congrArg _ (funext fun a => Fin.ext ?_)
  match a with
  | ⟨0, _⟩ => show win1_0.index t (0 : Fin 2) * 8000 + 1 * p.val = r.val; omega
  | ⟨1, _⟩ => show win1_0.index t (1 : Fin 2) * 64 + 1 * k.val = k.val; omega

/-- The same for the second endpoint's rows. -/
theorem blk0_1 (c : Dev nD) (t : Fin cfg1.N) (p : Fin 8000) (k : Fin 64) (r : Fin 800000)
    (hr : r.val = win1_9.index t (0 : Fin 2) * 8000 + p.val) :
    (iblk1 V c 1 t : Vec Ideal S8000x64 .f32) (ix2 p k) = (V c main_v39 : Vec Ideal S800000x64 .f32) (ix2 r k) := by
  obtain ⟨-, -, e0, e1, -⟩ := idx_facts0 t
  unfold iblk1
  rw [View.read_apply]
  show V c main_v39 (((cfg1.win 1).blk t).view.emb (ix2 p k)) = V c main_v39 (ix2 r k)
  refine congrArg _ (funext fun a => Fin.ext ?_)
  match a with
  | ⟨0, _⟩ => show win1_1.index t (0 : Fin 2) * 8000 + 1 * p.val = r.val; omega
  | ⟨1, _⟩ => show win1_1.index t (1 : Fin 2) * 64 + 1 * k.val = k.val; omega

/-- The same for the edge attributes. -/
theorem blk0_2 (c : Dev nD) (t : Fin cfg1.N) (p : Fin 8000) (k : Fin 32) (r : Fin 800000)
    (hr : r.val = win1_9.index t (0 : Fin 2) * 8000 + p.val) :
    (iblk1 V c 2 t : Vec Ideal S8000x32 .f32) (ix2 p k) = (V c main_arg3 : Vec Ideal S800000x32 .f32) (ix2 r k) := by
  obtain ⟨-, -, -, -, e0, e1, -⟩ := idx_facts0 t
  unfold iblk1
  rw [View.read_apply]
  show V c main_arg3 (((cfg1.win 2).blk t).view.emb (ix2 p k)) = V c main_arg3 (ix2 r k)
  refine congrArg _ (funext fun a => Fin.ext ?_)
  match a with
  | ⟨0, _⟩ => show win1_2.index t (0 : Fin 2) * 8000 + 1 * p.val = r.val; omega
  | ⟨1, _⟩ => show win1_2.index t (1 : Fin 2) * 32 + 1 * k.val = k.val; omega

/-- The first block of first-layer weights is staged whole at every point. -/
theorem blk0_3 (c : Dev nD) (t : Fin cfg1.N) :
    (iblk1 V c 3 t : Vec Ideal S64x64 .f32) = (V c main_v58 : Vec Ideal S64x64 .f32) := by
  obtain ⟨-, -, -, -, -, -, -, -, e0, e1, -⟩ := idx_facts0 t
  funext y
  unfold iblk1
  rw [View.read_apply]
  show V c main_v58 (((cfg1.win 3).blk t).view.emb y) = V c main_v58 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- So is the second. -/
theorem blk0_4 (c : Dev nD) (t : Fin cfg1.N) :
    (iblk1 V c 4 t : Vec Ideal S64x64 .f32) = (V c main_v59 : Vec Ideal S64x64 .f32) := by
  obtain ⟨-, -, -, -, -, -, -, -, -, -, e0, e1, -⟩ := idx_facts0 t
  funext y
  unfold iblk1
  rw [View.read_apply]
  show V c main_v59 (((cfg1.win 4).blk t).view.emb y) = V c main_v59 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- So is the third. -/
theorem blk0_5 (c : Dev nD) (t : Fin cfg1.N) :
    (iblk1 V c 5 t : Vec Ideal S32x64 .f32) = (V c main_v60 : Vec Ideal S32x64 .f32) := by
  obtain ⟨-, -, -, -, -, -, -, -, -, -, -, -, e0, e1, -⟩ := idx_facts0 t
  funext y
  unfold iblk1
  rw [View.read_apply]
  show V c main_v60 (((cfg1.win 5).blk t).view.emb y) = V c main_v60 y
  refine congrArg _ (funext fun a => Fin.ext ?_)
  match a with
  | ⟨0, _⟩ => show win1_5.index t (0 : Fin 2) * 32 + 1 * (y 0).val = (y 0).val; omega
  | ⟨1, _⟩ => show win1_5.index t (1 : Fin 2) * 64 + 1 * (y 1).val = (y 1).val; omega

/-- So is the first-layer bias. -/
theorem blk0_6 (c : Dev nD) (t : Fin cfg1.N) :
    (iblk1 V c 6 t : Vec Ideal S64 .f32) = (V c main_arg10 : Vec Ideal S64 .f32) := by
  obtain ⟨-, -, -, -, -, -, -, -, -, -, -, -, -, -, e0, -⟩ := idx_facts0 t
  funext y
  unfold iblk1
  rw [View.read_apply]
  show V c main_arg10 (((cfg1.win 6).blk t).view.emb y) = V c main_arg10 y
  refine congrArg _ (funext fun a => Fin.ext ?_)
  match a with
  | ⟨0, _⟩ => show win1_6.index t (0 : Fin 1) * 64 + 1 * (y 0).val = (y 0).val; omega

/-- So are the second-layer weights. -/
theorem blk0_7 (c : Dev nD) (t : Fin cfg1.N) :
    (iblk1 V c 7 t : Vec Ideal S64x32 .f32) = (V c main_arg11 : Vec Ideal S64x32 .f32) := by
  obtain ⟨-, -, -, -, -, -, -, -, -, -, -, -, -, -, -, e0, e1, -⟩ := idx_facts0 t
  funext y
  unfold iblk1
  rw [View.read_apply]
  show V c main_arg11 (((cfg1.win 7).blk t).view.emb y) = V c main_arg11 y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 32 + 1 * (y 1).val = (y 1).val; omega

/-- So is the second-layer bias. -/
theorem blk0_8 (c : Dev nD) (t : Fin cfg1.N) :
    (iblk1 V c 8 t : Vec Ideal S32 .f32) = (V c main_arg12 : Vec Ideal S32 .f32) := by
  obtain ⟨-, -, -, -, -, -, -, -, -, -, -, -, -, -, -, -, -, e0⟩ := idx_facts0 t
  funext y
  unfold iblk1
  rw [View.read_apply]
  show V c main_arg12 (((cfg1.win 8).blk t).view.emb y) = V c main_arg12 y
  refine congrArg _ (funext fun a => Fin.ext ?_)
  match a with
  | ⟨0, _⟩ => show win1_8.index t (0 : Fin 1) * 32 + 1 * (y 0).val = (y 0).val; omega

/-! ### What a point writes back -/

/-- WHAT POINT `t` WRITES BACK is its block of the edge update of the whole arrays: row p of the block is row
    `index · 8000 + p` of the three edge-sized inputs, the weights and biases are staged whole, and the body's value at
    (p, q) reads only row p of the staged blocks. -/
theorem flushed0_eq (c : Dev nD) (t : Fin cfg1.N) :
    (dat1 (F := Ideal) V c).flushed 9 t
      = ((cfg1.win 9).blk t).view.read (Elt Ideal)
          (Hetero.edgeOut3 (V c main_v32) (V c main_v39) (V c main_arg3) (V c main_v58) (V c main_v59) (V c main_v60)
            (V c main_arg10) (V c main_arg11) (V c main_arg12)) := by
  show (cfg1.win 9).cut (grid1.coords t) ((dat1 V c).after 9 t) = _
  rw [after1_9]
  unfold out1_9
  rw [View.canon_unit_zero hz0]
  simp only [View.ld_unit_zero (S := S8000x64) hz0, View.ld_unit_zero (S := S64x64) hz0, View.ld_unit_zero (S := S8000x32) hz0,
    View.ld_unit_zero (S := S32x64) hz0, View.ld_unit_zero (S := S64) hz0', View.ld_unit_zero (S := S64x32) hz0,
    View.ld_unit_zero (S := S32) hz0']
  funext j
  obtain ⟨p, q, rfl⟩ : ∃ (p : Fin 8000) (q : Fin 32), j = ix2 p q := ⟨j 0, j 1, eq_ix2 j⟩
  obtain ⟨-, -, -, -, -, -, l9, e91, -⟩ := idx_facts0 t
  obtain ⟨r, hr⟩ : ∃ r : Fin 800000, r.val = win1_9.index t (0 : Fin 2) * 8000 + p.val :=
    ⟨⟨win1_9.index t (0 : Fin 2) * 8000 + p.val, by have := p.isLt; omega⟩, rfl⟩
  have hemb : ((cfg1.win 9).blk t).view.emb (ix2 p q) = ix2 r q := by
    funext a; apply Fin.ext
    match a with
    | ⟨0, _⟩ => show win1_9.index t (0 : Fin 2) * 8000 + 1 * p.val = r.val; omega
    | ⟨1, _⟩ => show win1_9.index t (1 : Fin 2) * 32 + 1 * q.val = q.val; omega
  show k1_pay1 (iblk1 V c 0 t) (iblk1 V c 3 t) (iblk1 V c 1 t) (iblk1 V c 4 t) (iblk1 V c 2 t) (iblk1 V c 5 t)
        (iblk1 V c 6 t) (iblk1 V c 7 t) (iblk1 V c 8 t) (ix2 p q)
      = Hetero.edgeOut3 (V c main_v32) (V c main_v39) (V c main_arg3) (V c main_v58) (V c main_v59) (V c main_v60)
          (V c main_arg10) (V c main_arg11) (V c main_arg12) (((cfg1.win 9).blk t).view.emb (ix2 p q))
  rw [hemb, Hetero.edgeOut3_apply]
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  rw [blk0_3 V c t, blk0_4 V c t, blk0_5 V c t, blk0_6 V c t, blk0_7 V c t, blk0_8 V c t]
  have b0 := fun k => blk0_0 V c t p k r hr
  have b1 := fun k => blk0_1 V c t p k r hr
  have b2 := fun k => blk0_2 V c t p k r hr
  simp only [b0, b1, b2]
  rfl

/-! ### From blocks to the array -/

/-- An index of the output array is in point `t`'s block iff each coordinate is in the block's range on its axis. -/
theorem mem_blk0 (t : Fin cfg1.N) (i : S800000x32.Idx) :
    i ∈ ((cfg1.win 9).blk t).view.set
      ↔ ∀ a : Fin 2, win1_9.index t a * S8000x32.size a ≤ (i a).val ∧ (i a).val < win1_9.index t a * S8000x32.size a + S8000x32.size a := by
  show i ∈ ((View.whole main_v61).slice (win1_9.rect t)).set ↔ _
  rw [View.set_slice_whole, Rect.mem_set_unit]
  exact Iff.rfl

/-- The 100 blocks of 8000 rows tile the 800000 rows: row r is in the block of the point whose block index is r / 8000. -/
theorem cover0 (i : S800000x32.Idx) :
    ∃ t : Fin cfg1.N, (cfg1.win 9).flush t = true ∧ i ∈ ((cfg1.win 9).blk t).view.set := by
  have hi0 : (i 0).val < 800000 := (i 0).isLt
  have hi1 : (i 1).val < 32 := (i 1).isLt
  obtain ⟨t, ht⟩ := idx_onto0 ⟨(i 0).val / 8000, by omega⟩
  have q0 : win1_9.index t (0 : Fin 2) = (i 0).val / 8000 := congrFun ht 0
  have q1 : win1_9.index t (1 : Fin 2) = 0 := congrFun ht 1
  refine ⟨t, flush1_9 t, ?_⟩
  rw [mem_blk0]
  intro a
  match a with
  | ⟨0, _⟩ => show win1_9.index t (0 : Fin 2) * 8000 ≤ (i 0).val ∧ (i 0).val < win1_9.index t (0 : Fin 2) * 8000 + 8000; omega
  | ⟨1, _⟩ => show win1_9.index t (1 : Fin 2) * 32 ≤ (i 1).val ∧ (i 1).val < win1_9.index t (1 : Fin 2) * 32 + 32; omega

/-- THE ARRAY region 1 leaves in its output window: the edge update of the arrays the region finds. -/
theorem final1 (c : Dev nD) :
    (dat1 (F := Ideal) V c).arrAt 9 cfg1.N
      = Hetero.edgeOut3 (V c main_v32) (V c main_v39) (V c main_arg3) (V c main_v58) (V c main_v59) (V c main_v60)
          (V c main_arg10) (V c main_arg11) (V c main_arg12) :=
  (dat1 (F := Ideal) V c).arrAt_eq_of_cover 9 _ (fun t _ => flushed0_eq V c t) cover0

end Cert.KernelIdeal.KEdge1

end
-- ==== Proof.KEdge2.lean ====
/-
  Region 2 (the bb edge update) of the idealized kernel program, read as a value: whatever the arrays hold when the
  region is entered, the pipeline leaves the output array at `Hetero.edgeOut3` of the nine input arrays.

  Grid point t stages rows 8000·t … 8000·t + 7999 of the three edge-sized inputs and the whole of the six weight and
  bias arrays, and writes back the same rows of the output; the body's result at (p, q) depends only on row p of the
  staged edge blocks, so block t of the output is the restriction of ONE whole-array function to those rows, and the
  100 blocks tile the 800000 rows.
-/
import proofs.«407052_j2267742732914_3_alg».proof.Proof.Gen.KernelIdeal.Frame
import proofs.«407052_j2267742732914_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KEdge2

open Cert.KernelIdeal Cert.KernelIdeal.Gen Idealize.ShloMosaic Idealize.ShloMosaic.TcCoe Idealize.SL.Sem Idealize.ShloMosaic.ValueIdx
open Idealize.ShloMosaic.Pipeline (Dat)

/-! ## The body's value at an index

The three matrix products, each into a zero accumulator, are the sums over their one contracted axis; the two biases
are vectors repeated down the rows; the two rectifications are maxima with the number zero. -/

/-! The product `S8000x64 · S64x64`: where its operand indices sit at an output index and a contraction position. -/

theorem lhs_xw_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl

theorem lhs_xw_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q

theorem rhs_xw_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q

theorem rhs_xw_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- An [8000, 64] block times a [64, 64] matrix into a zero accumulator, at (p, h): the sum over the 64 contracted positions. -/
theorem mm_xw (l : FVec Ideal S8000x64 .f32) (r : FVec Ideal S64x64 .f32) (p : Fin 8000) (h : Fin 64) :
    matmul dot_S8000x64_S64x64_S8000x64_1_0_0_1_n_n none l r (constant (F := Ideal) S8000x64 .f32 0x00000000#32) (ix2 p h)
      = ∑ k : Fin 64, l (ix2 p k) * r (ix2 k h) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p h) ((contrEquiv1 dot_S8000x64_S64x64_S8000x64_1_0_0_1_n_n 64 rfl rfl).symm k) = ix2 p k := funext fun a => Fin.ext (by
    match a with
    | ⟨0, _⟩ => exact lhs_xw_0 _ _
    | ⟨1, _⟩ => exact (lhs_xw_1 _ _).trans hk)
  have er : dot_S8000x64_S64x64_S8000x64_1_0_0_1_n_n.rhsIdx (ix2 p h) ((contrEquiv1 dot_S8000x64_S64x64_S8000x64_1_0_0_1_n_n 64 rfl rfl).symm k) = ix2 k h := funext fun a => Fin.ext (by
    match a with
    | ⟨0, _⟩ => exact (rhs_xw_0 _ _).trans hk
    | ⟨1, _⟩ => exact rhs_xw_1 _ _)
  rw [el, er]

/-! The product `S8000x32 · S32x64`: where its operand indices sit at an output index and a contraction position. -/

theorem lhs_ew_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl

theorem lhs_ew_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q

theorem rhs_ew_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q

theorem rhs_ew_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- An [8000, 32] block times a [32, 64] matrix into a zero accumulator, at (p, h): the sum over the 32 contracted positions. -/
theorem mm_ew (l : FVec Ideal S8000x32 .f32) (r : FVec Ideal S32x64 .f32) (p : Fin 8000) (h : Fin 64) :
    matmul dot_S8000x32_S32x64_S8000x64_1_0_0_1_n_n none l r (constant (F := Ideal) S8000x64 .f32 0x00000000#32) (ix2 p h)
      = ∑ k : Fin 32, l (ix2 p k) * r (ix2 k h) := by
  simp only [matmul]
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p h) ((contrEquiv1 dot_S8000x32_S32x64_S8000x64_1_0_0_1_n_n 32 rfl rfl).symm k) = ix2 p k := funext fun a => Fin.ext (by
    match a with
    | ⟨0, _⟩ => exact lhs_ew_0 _ _
    | ⟨1, _⟩ => exact (lhs_ew_1 _ _).trans hk)
  have er : dot_S8000x32_S32x64_S8000x64_1_0_0_1_n_n.rhsIdx (ix2 p h) ((contrEquiv1 dot_S8000x32_S32x64_S8000x64_1_0_0_1_n_n 32 rfl rfl).symm k) = ix2 k h := funext fun a => Fin.ext (by
    match a with
    | ⟨0, _⟩ => exact (rhs_ew_0 _ _).trans hk
    | ⟨1, _⟩ => exact rhs_ew_1 _ _)
  rw [el, er]

/-! The product `S8000x64 · S64x32`: where its operand indices sit at an output index and a contraction position. -/

theorem lhs_hw_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl

theorem lhs_hw_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q

theorem rhs_hw_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q

theorem rhs_hw_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- An [8000, 64] block times a [64, 32] matrix into a zero accumulator, at (p, q): the sum over the 64 contracted positions. -/
theorem mm_hw (l : FVec Ideal S8000x64 .f32) (r : FVec Ideal S64x32 .f32) (p : Fin 8000) (h : Fin 32) :
    matmul dot_S8000x64_S64x32_S8000x32_1_0_0_1_n_n none l r (constant (F := Ideal) S8000x32 .f32 0x00000000#32) (ix2 p h)
      = ∑ k : Fin 64, l (ix2 p k) * r (ix2 k h) := by
  simp only [matmul]
  rw [Ideal.matmul_constant_zero_apply, ← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 p h) ((contrEquiv1 dot_S8000x64_S64x32_S8000x32_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S8000x64_S64x32_S8000x32_1_0_0_1_n_n.rhsIdx (ix2 p h) ((contrEquiv1 dot_S8000x64_S64x32_S8000x32_1_0_0_1_n_n 64 rfl rfl).symm k) = ix2 k h := funext fun a => Fin.ext (by
    match a with
    | ⟨0, _⟩ => exact (rhs_hw_0 _ _).trans hk
    | ⟨1, _⟩ => exact rhs_hw_1 _ _)
  rw [el, er]

/-- A length-64 vector laid as one row and repeated down 8000 rows reads, at (p, h), its entry h. -/
theorem bias_hidden (b : FVec Ideal S64 .f32) (p : Fin 8000) (h : Fin 64) :
    broadcastTo S8000x64 (shapeCast S1x64 b shapeCasts_S64_S1x64) broadcasts_S1x64_S8000x64 (ix2 p h) = b (ix1 h) := by
  rw [broadcastTo_1b_ab_apply, shapeCast_a_1a_apply]

/-- A length-32 vector laid as one row and repeated down 8000 rows reads, at (p, q), its entry q. -/
theorem bias_out (b : FVec Ideal S32 .f32) (p : Fin 8000) (q : Fin 32) :
    broadcastTo S8000x32 (shapeCast S1x32 b shapeCasts_S32_S1x32) broadcasts_S1x32_S8000x32 (ix2 p q) = b (ix1 q) := by
  rw [broadcastTo_1b_ab_apply, shapeCast_a_1a_apply]

/-- The zero word is the number zero. -/
theorem zero_word : Scalar.ofBits (F := Ideal) .f32 0x00000000#32 = (0 : EReal) := Ideal.ofBits_zero_f32

/-- THE BODY'S VALUE AT (p, q): the second layer's rectified sum over the 64 hidden units of the rectified first-layer
    pre-activation (the three partial products of row p with the three weight blocks, then the bias) times the
    second-layer weight, then the second bias. Only row p of the three edge-sized blocks is read. -/
theorem pay_apply (v0 v5 : Vec Ideal S8000x64 .f32) (v11 : Vec Ideal S8000x32 .f32) (v2 v7 : Vec Ideal S64x64 .f32)
    (v12 : Vec Ideal S32x64 .f32) (v16 : Vec Ideal S64 .f32) (v22 : Vec Ideal S64x32 .f32) (v24 : Vec Ideal S32 .f32)
    (p : Fin 8000) (q : Fin 32) :
    k2_pay1 v0 v2 v5 v7 v11 v12 v16 v22 v24 (ix2 p q)
      = max ((∑ h : Fin 64, max ((∑ k : Fin 64, v0 (ix2 p k) * v2 (ix2 k h)) + (∑ k : Fin 64, v5 (ix2 p k) * v7 (ix2 k h))
          + (∑ k : Fin 32, v11 (ix2 p k) * v12 (ix2 k h)) + v16 (ix1 h)) 0 * v22 (ix2 h q)) + v24 (ix1 q)) 0 := by
  unfold k2_pay1
  simp only [shapeCast_self, maximumf_apply, addf_apply, broadcast_apply, mm_hw, mm_xw, mm_ew, bias_hidden, bias_out, zero_word]

/-! ## The index maps -/

variable (V : (c : Dev nD) → (b : Ref sig .tc) → Buf (Elt Ideal) ((c : Thread nD τ).loc b))

theorem hz0 : (![0, 0] : Fin 2 → Nat) = fun _ => 0 := funext fun a => by fin_cases a <;> rfl
theorem hz0' : (![0] : Fin 1 → Nat) = fun _ => 0 := funext fun a => by fin_cases a; rfl

/-- The printed index maps, decided over the grid. -/
theorem idx_facts0 : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_9.index t (0 : Fin 2) ≤ 99 ∧ win2_9.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

/-- Every block of rows is some point's. -/
theorem idx_onto0 : ∀ (q0 : Fin 100), ∃ t : Fin cfg2.N, win2_9.index t = ![q0.val, 0] :=
  (by decide +kernel : ∀ (q0 : Fin 100), ∃ t : Fin grid2.N, win2_9.index t = ![q0.val, 0])

/-! ### Each input block is its array, read where the output's block sits -/

/-- Point `t`'s block of the first endpoint's rows: entry (p, k) is the array's entry at row `index · 8000 + p`. -/
theorem blk0_0 (c : Dev nD) (t : Fin cfg2.N) (p : Fin 8000) (k : Fin 64) (r : Fin 800000)
    (hr : r.val = win2_9.index t (0 : Fin 2) * 8000 + p.val) :
    (iblk2 V c 0 t : Vec Ideal S8000x64 .f32) (ix2 p k) = (V c main_v46 : Vec Ideal S800000x64 .f32) (ix2 r k) := by
  obtain ⟨e0, e1, -⟩ := idx_facts0 t
  unfold iblk2
  rw [View.read_apply]
  show V c main_v46 (((cfg2.win 0).blk t).view.emb (ix2 p k)) = V c main_v46 (ix2 r k)
  refine congrArg _ (funext fun a => Fin.ext ?_)
  match a with
  | ⟨0, _⟩ => show win2_0.index t (0 : Fin 2) * 8000 + 1 * p.val = r.val; omega
  | ⟨1, _⟩ => show win2_0.index t (1 : Fin 2) * 64 + 1 * k.val = k.val; omega

/-- The same for the second endpoint's rows. -/
theorem blk0_1 (c : Dev nD) (t : Fin cfg2.N) (p : Fin 8000) (k : Fin 64) (r : Fin 800000)
    (hr : r.val = win2_9.index t (0 : Fin 2) * 8000 + p.val) :
    (iblk2 V c 1 t : Vec Ideal S8000x64 .f32) (ix2 p k) = (V c main_v53 : Vec Ideal S800000x64 .f32) (ix2 r k) := by
  obtain ⟨-, -, e0, e1, -⟩ := idx_facts0 t
  unfold iblk2
  rw [View.read_apply]
  show V c main_v53 (((cfg2.win 1).blk t).view.emb (ix2 p k)) = V c main_v53 (ix2 r k)
  refine congrArg _ (funext fun a => Fin.ext ?_)
  match a with
  | ⟨0, _⟩ => show win2_1.index t (0 : Fin 2) * 8000 + 1 * p.val = r.val; omega
  | ⟨1, _⟩ => show win2_1.index t (1 : Fin 2) * 64 + 1 * k.val = k.val; omega

/-- The same for the edge attributes. -/
theorem blk0_2 (c : Dev nD) (t : Fin cfg2.N) (p : Fin 8000) (k : Fin 32) (r : Fin 800000)
    (hr : r.val = win2_9.index t (0 : Fin 2) * 8000 + p.val) :
    (iblk2 V c 2 t : Vec Ideal S8000x32 .f32) (ix2 p k) = (V c main_arg4 : Vec Ideal S800000x32 .f32) (ix2 r k) := by
  obtain ⟨-, -, -, -, e0, e1, -⟩ := idx_facts0 t
  unfold iblk2
  rw [View.read_apply]
  show V c main_arg4 (((cfg2.win 2).blk t).view.emb (ix2 p k)) = V c main_arg4 (ix2 r k)
  refine congrArg _ (funext fun a => Fin.ext ?_)
  match a with
  | ⟨0, _⟩ => show win2_2.index t (0 : Fin 2) * 8000 + 1 * p.val = r.val; omega
  | ⟨1, _⟩ => show win2_2.index t (1 : Fin 2) * 32 + 1 * k.val = k.val; omega

/-- The first block of first-layer weights is staged whole at every point. -/
theorem blk0_3 (c : Dev nD) (t : Fin cfg2.N) :
    (iblk2 V c 3 t : Vec Ideal S64x64 .f32) = (V c main_v62 : Vec Ideal S64x64 .f32) := by
  obtain ⟨-, -, -, -, -, -, -, -, e0, e1, -⟩ := idx_facts0 t
  funext y
  unfold iblk2
  rw [View.read_apply]
  show V c main_v62 (((cfg2.win 3).blk t).view.emb y) = V c main_v62 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- So is the second. -/
theorem blk0_4 (c : Dev nD) (t : Fin cfg2.N) :
    (iblk2 V c 4 t : Vec Ideal S64x64 .f32) = (V c main_v63 : Vec Ideal S64x64 .f32) := by
  obtain ⟨-, -, -, -, -, -, -, -, -, -, e0, e1, -⟩ := idx_facts0 t
  funext y
  unfold iblk2
  rw [View.read_apply]
  show V c main_v63 (((cfg2.win 4).blk t).view.emb y) = V c main_v63 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- So is the third. -/
theorem blk0_5 (c : Dev nD) (t : Fin cfg2.N) :
    (iblk2 V c 5 t : Vec Ideal S32x64 .f32) = (V c main_v64 : Vec Ideal S32x64 .f32) := by
  obtain ⟨-, -, -, -, -, -, -, -, -, -, -, -, e0, e1, -⟩ := idx_facts0 t
  funext y
  unfold iblk2
  rw [View.read_apply]
  show V c main_v64 (((cfg2.win 5).blk t).view.emb y) = V c main_v64 y
  refine congrArg _ (funext fun a => Fin.ext ?_)
  match a with
  | ⟨0, _⟩ => show win2_5.index t (0 : Fin 2) * 32 + 1 * (y 0).val = (y 0).val; omega
  | ⟨1, _⟩ => show win2_5.index t (1 : Fin 2) * 64 + 1 * (y 1).val = (y 1).val; omega

/-- So is the first-layer bias. -/
theorem blk0_6 (c : Dev nD) (t : Fin cfg2.N) :
    (iblk2 V c 6 t : Vec Ideal S64 .f32) = (V c main_arg14 : Vec Ideal S64 .f32) := by
  obtain ⟨-, -, -, -, -, -, -, -, -, -, -, -, -, -, e0, -⟩ := idx_facts0 t
  funext y
  unfold iblk2
  rw [View.read_apply]
  show V c main_arg14 (((cfg2.win 6).blk t).view.emb y) = V c main_arg14 y
  refine congrArg _ (funext fun a => Fin.ext ?_)
  match a with
  | ⟨0, _⟩ => show win2_6.index t (0 : Fin 1) * 64 + 1 * (y 0).val = (y 0).val; omega

/-- So are the second-layer weights. -/
theorem blk0_7 (c : Dev nD) (t : Fin cfg2.N) :
    (iblk2 V c 7 t : Vec Ideal S64x32 .f32) = (V c main_arg15 : Vec Ideal S64x32 .f32) := by
  obtain ⟨-, -, -, -, -, -, -, -, -, -, -, -, -, -, -, e0, e1, -⟩ := idx_facts0 t
  funext y
  unfold iblk2
  rw [View.read_apply]
  show V c main_arg15 (((cfg2.win 7).blk t).view.emb y) = V c main_arg15 y
  refine congrArg _ (funext fun a => Fin.ext ?_)
  match a with
  | ⟨0, _⟩ => show win2_7.index t (0 : Fin 2) * 64 + 1 * (y 0).val = (y 0).val; omega
  | ⟨1, _⟩ => show win2_7.index t (1 : Fin 2) * 32 + 1 * (y 1).val = (y 1).val; omega

/-- So is the second-layer bias. -/
theorem blk0_8 (c : Dev nD) (t : Fin cfg2.N) :
    (iblk2 V c 8 t : Vec Ideal S32 .f32) = (V c main_arg16 : Vec Ideal S32 .f32) := by
  obtain ⟨-, -, -, -, -, -, -, -, -, -, -, -, -, -, -, -, -, e0⟩ := idx_facts0 t
  funext y
  unfold iblk2
  rw [View.read_apply]
  show V c main_arg16 (((cfg2.win 8).blk t).view.emb y) = V c main_arg16 y
  refine congrArg _ (funext fun a => Fin.ext ?_)
  match a with
  | ⟨0, _⟩ => show win2_8.index t (0 : Fin 1) * 32 + 1 * (y 0).val = (y 0).val; omega

/-! ### What a point writes back -/

/-- WHAT POINT `t` WRITES BACK is its block of the edge update of the whole arrays: row p of the block is row
    `index · 8000 + p` of the three edge-sized inputs, the weights and biases are staged whole, and the body's value at
    (p, q) reads only row p of the staged blocks. -/
theorem flushed0_eq (c : Dev nD) (t : Fin cfg2.N) :
    (dat2 (F := Ideal) V c).flushed 9 t
      = ((cfg2.win 9).blk t).view.read (Elt Ideal)
          (Hetero.edgeOut3 (V c main_v46) (V c main_v53) (V c main_arg4) (V c main_v62) (V c main_v63) (V c main_v64)
            (V c main_arg14) (V c main_arg15) (V c main_arg16)) := by
  show (cfg2.win 9).cut (grid2.coords t) ((dat2 V c).after 9 t) = _
  rw [after2_9]
  unfold out2_9
  rw [View.canon_unit_zero hz0]
  simp only [View.ld_unit_zero (S := S8000x64) hz0, View.ld_unit_zero (S := S64x64) hz0, View.ld_unit_zero (S := S8000x32) hz0,
    View.ld_unit_zero (S := S32x64) hz0, View.ld_unit_zero (S := S64) hz0', View.ld_unit_zero (S := S64x32) hz0,
    View.ld_unit_zero (S := S32) hz0']
  funext j
  obtain ⟨p, q, rfl⟩ : ∃ (p : Fin 8000) (q : Fin 32), j = ix2 p q := ⟨j 0, j 1, eq_ix2 j⟩
  obtain ⟨-, -, -, -, -, -, l9, e91, -⟩ := idx_facts0 t
  obtain ⟨r, hr⟩ : ∃ r : Fin 800000, r.val = win2_9.index t (0 : Fin 2) * 8000 + p.val :=
    ⟨⟨win2_9.index t (0 : Fin 2) * 8000 + p.val, by have := p.isLt; omega⟩, rfl⟩
  have hemb : ((cfg2.win 9).blk t).view.emb (ix2 p q) = ix2 r q := by
    funext a; apply Fin.ext
    match a with
    | ⟨0, _⟩ => show win2_9.index t (0 : Fin 2) * 8000 + 1 * p.val = r.val; omega
    | ⟨1, _⟩ => show win2_9.index t (1 : Fin 2) * 32 + 1 * q.val = q.val; omega
  show k2_pay1 (iblk2 V c 0 t) (iblk2 V c 3 t) (iblk2 V c 1 t) (iblk2 V c 4 t) (iblk2 V c 2 t) (iblk2 V c 5 t)
        (iblk2 V c 6 t) (iblk2 V c 7 t) (iblk2 V c 8 t) (ix2 p q)
      = Hetero.edgeOut3 (V c main_v46) (V c main_v53) (V c main_arg4) (V c main_v62) (V c main_v63) (V c main_v64)
          (V c main_arg14) (V c main_arg15) (V c main_arg16) (((cfg2.win 9).blk t).view.emb (ix2 p q))
  rw [hemb, Hetero.edgeOut3_apply]
  refine (pay_apply (iblk2 V c 0 t) (iblk2 V c 1 t) (iblk2 V c 2 t) (iblk2 V c 3 t) (iblk2 V c 4 t) (iblk2 V c 5 t)
    (iblk2 V c 6 t) (iblk2 V c 7 t) (iblk2 V c 8 t) p q).trans ?_
  rw [blk0_3 V c t, blk0_4 V c t, blk0_5 V c t, blk0_6 V c t, blk0_7 V c t, blk0_8 V c t]
  have b0 := fun k => blk0_0 V c t p k r hr
  have b1 := fun k => blk0_1 V c t p k r hr
  have b2 := fun k => blk0_2 V c t p k r hr
  simp only [b0, b1, b2]
  rfl

/-! ### From blocks to the array -/

/-- An index of the output array is in point `t`'s block iff each coordinate is in the block's range on its axis. -/
theorem mem_blk0 (t : Fin cfg2.N) (i : S800000x32.Idx) :
    i ∈ ((cfg2.win 9).blk t).view.set
      ↔ ∀ a : Fin 2, win2_9.index t a * S8000x32.size a ≤ (i a).val ∧ (i a).val < win2_9.index t a * S8000x32.size a + S8000x32.size a := by
  show i ∈ ((View.whole main_v65).slice (win2_9.rect t)).set ↔ _
  rw [View.set_slice_whole, Rect.mem_set_unit]
  exact Iff.rfl

/-- The 100 blocks of 8000 rows tile the 800000 rows: row r is in the block of the point whose block index is r / 8000. -/
theorem cover0 (i : S800000x32.Idx) :
    ∃ t : Fin cfg2.N, (cfg2.win 9).flush t = true ∧ i ∈ ((cfg2.win 9).blk t).view.set := by
  have hi0 : (i 0).val < 800000 := (i 0).isLt
  have hi1 : (i 1).val < 32 := (i 1).isLt
  obtain ⟨t, ht⟩ := idx_onto0 ⟨(i 0).val / 8000, by omega⟩
  have q0 : win2_9.index t (0 : Fin 2) = (i 0).val / 8000 := congrFun ht 0
  have q1 : win2_9.index t (1 : Fin 2) = 0 := congrFun ht 1
  refine ⟨t, flush2_9 t, ?_⟩
  rw [mem_blk0]
  intro a
  match a with
  | ⟨0, _⟩ => show win2_9.index t (0 : Fin 2) * 8000 ≤ (i 0).val ∧ (i 0).val < win2_9.index t (0 : Fin 2) * 8000 + 8000; omega
  | ⟨1, _⟩ => show win2_9.index t (1 : Fin 2) * 32 ≤ (i 1).val ∧ (i 1).val < win2_9.index t (1 : Fin 2) * 32 + 32; omega

/-- THE ARRAY region 2 leaves in its output window: the edge update of the arrays the region finds. -/
theorem final2 (c : Dev nD) :
    (dat2 (F := Ideal) V c).arrAt 9 cfg2.N
      = Hetero.edgeOut3 (V c main_v46) (V c main_v53) (V c main_arg4) (V c main_v62) (V c main_v63) (V c main_v64)
          (V c main_arg14) (V c main_arg15) (V c main_arg16) :=
  (dat2 (F := Ideal) V c).arrAt_eq_of_cover 9 _ (fun t _ => flushed0_eq V c t) cover0

end Cert.KernelIdeal.KEdge2

end
-- ==== Proof.KNode3.lean ====
/-
  Region 3 (the update of the type-a nodes) of the idealized kernel program, read as a value: whatever the arrays hold
  when the region is entered, the pipeline leaves the output array at `Hetero.nodeOut2` of the five input arrays.

  Grid point t stages rows 10000·t … 10000·t + 9999 of the node features and of the aggregate and the whole of the
  two weight blocks and the bias, and writes back the same rows of the output; the body's result at (p, q) depends
  only on row p of the staged blocks, so block t of the output is the restriction of ONE whole-array function to
  those rows, and the 10 blocks tile the 100000 rows.
-/
import proofs.«407052_j2267742732914_3_alg».proof.Proof.Gen.KernelIdeal.Frame
import proofs.«407052_j2267742732914_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KNode3

open Cert.KernelIdeal Cert.KernelIdeal.Gen Idealize.ShloMosaic Idealize.ShloMosaic.TcCoe Idealize.SL.Sem Idealize.ShloMosaic.ValueIdx
open Idealize.ShloMosaic.Pipeline (Dat)

/-! ## The body's result at an index

The body computes relu (x · Wx + agg · Wg + bias) on its blocks. Each product contracts the left operand's axis 1 with
the right operand's axis 0, so at output (p, q) and contraction position k the operands are read at (p, k) and (k, q);
a product into the zero accumulator is the plain sum over k. -/

/-- Where the product of the node features with the first weight block reads its operands: the left at (row of the
    output, contraction position), the right at (contraction position, column of the output), one lemma per axis. -/
theorem lhs_x3_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_x3_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_x3_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_x3_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The features' product at (p, q): the sum over the 64 features of row p times column q of the weights. -/
theorem mm_x3 (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q) = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_x3_0 _ _
    | ⟨1, _⟩ => exact (lhs_x3_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_x3_0 _ _).trans hk
    | ⟨1, _⟩ => exact rhs_x3_1 _ _)
  rw [el, er]

/-- Where the product of the aggregate with the second weight block reads its operands: the left at (row of the
    output, contraction position), the right at (contraction position, column of the output), one lemma per axis. -/
theorem lhs_g3_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_g3_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_g3_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_g3_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The aggregate's product at (p, q): the sum over the 32 aggregated attributes of row p times column q of the
    weights. -/
theorem mm_g3 (x : FVec Ideal S10000x32 .f32) (w : FVec Ideal S32x64 .f32) (p : Fin 10000) (q : Fin 64) :
    matmul (F := Ideal) dot_S10000x32_S32x64_S10000x64_1_0_0_1_n_n none x w (constant (F := Ideal) S10000x64 .f32 0x00000000#32) (ix2 p q) = ∑ k : Fin 32, x (ix2 p k) * w (ix2 k q) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_g3_0 _ _
    | ⟨1, _⟩ => exact (lhs_g3_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_g3_0 _ _).trans hk
    | ⟨1, _⟩ => exact rhs_g3_1 _ _)
  rw [el, er]

/-- The bias row added to every row: the [64] vector as a [1,64] row, that row under every row index. -/
theorem bias3_apply (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply _ _ 0 q)

/-- The body's result at row p, column q of its block. -/
theorem pay3_apply (v0 : FVec Ideal S10000x64 .f32) (v1 : FVec Ideal S64x64 .f32) (v4 : FVec Ideal S10000x32 .f32) (v6 : FVec Ideal S32x64 .f32) (v10 : FVec Ideal S64 .f32) (p : Fin 10000) (q : Fin 64) :
    k3_pay1 (F := Ideal) v0 v1 v4 v6 v10 (ix2 p q) = max ((∑ k : Fin 64, v0 (ix2 p k) * v1 (ix2 k q)) + (∑ k : Fin 32, v4 (ix2 p k) * v6 (ix2 k q)) + v10 (ix1 q)) 0 := by
  unfold k3_pay1
  show max ((matmul (F := Ideal) dot_S10000x64_S64x64_S10000x64_1_0_0_1_n_n none v0 (shapeCast S64x64 v1 shapeCasts_S64x64_S64x64) (constant (F := Ideal) S10000x64 .f32 0x00000000#32) (ix2 p q)
        + matmul (F := Ideal) dot_S10000x32_S32x64_S10000x64_1_0_0_1_n_n none (shapeCast S10000x32 v4 shapeCasts_S10000x32_S10000x32) (shapeCast S32x64 v6 shapeCasts_S32x64_S32x64) (constant (F := Ideal) S10000x64 .f32 0x00000000#32) (ix2 p q))
        + broadcastTo S10000x64 (shapeCast S1x64 v10 shapeCasts_S64_S1x64) broadcasts_S1x64_S10000x64 (ix2 p q)) (Ideal.ofBits .f32 0x00000000#32) = _
  rw [shapeCast_self, shapeCast_self, shapeCast_self, mm_x3, mm_g3, bias3_apply, Ideal.ofBits_zero_f32]

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl
theorem hz3_1 : (![0] : Fin 1 → Nat) = fun _ => 0 := funext fun a => by fin_cases a; rfl

/-- The windows' index maps, decided over the grid: point t stages block (t, 0) of the node features, of the aggregate
    and of the output, and block (0, 0) — the whole — of the two weight blocks and of the bias. -/
theorem idx_facts3 : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 :=
  (by decide +kernel : ∀ t : Fin grid3.N, _)

theorem N3 : cfg3.N = 10 := rfl

/-- Row p of block t is row 10000·t + p of the array. -/
def row3 (t : Fin cfg3.N) (p : Fin 10000) : Fin 100000 :=
  ⟨t.val * 10000 + p.val, by have := t.isLt; have := p.isLt; have h := N3; omega⟩

/-- Entry (p, q) of the output's block at point t is entry (10000·t + p, q) of the array. -/
theorem emb3_5 (t : Fin cfg3.N) (p : Fin 10000) (q : Fin 64) :
    ((cfg3.win 5).blk t).view.emb (ix2 p q) = ix2 (row3 t p) q := by
  obtain ⟨e0, e1, -⟩ := idx_facts3 t
  funext a; apply Fin.ext
  match a with
  | ⟨0, _⟩ => show win3_5.index t (0 : Fin 2) * 10000 + 1 * p.val = t.val * 10000 + p.val; rw [e0]; omega
  | ⟨1, _⟩ => show win3_5.index t (1 : Fin 2) * 64 + 1 * q.val = q.val; rw [e1]; omega

/-- The staged block of node features at point t holds rows 10000·t … of the array. -/
theorem blk3_0_apply (c : Dev nD) (t : Fin cfg3.N) (p : Fin 10000) (k : Fin 64) :
    (iblk3 V c 0 t : FVec Ideal S10000x64 .f32) (ix2 p k) = (V c main_arg0 : Hetero.Mat 100000 64) (ix2 (row3 t p) k) := by
  obtain ⟨-, -, e0, e1, -⟩ := idx_facts3 t
  show V c main_arg0 (((cfg3.win 0).blk t).view.emb (ix2 p k)) = V c main_arg0 (ix2 (row3 t p) k)
  refine congrArg _ (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The staged block of the aggregate at point t holds rows 10000·t … of the array. -/
theorem blk3_1_apply (c : Dev nD) (t : Fin cfg3.N) (p : Fin 10000) (k : Fin 32) :
    (iblk3 V c 1 t : FVec Ideal S10000x32 .f32) (ix2 p k) = (V c main_v79 : Hetero.Mat 100000 32) (ix2 (row3 t p) k) := by
  obtain ⟨-, -, -, -, e0, e1, -⟩ := idx_facts3 t
  show V c main_v79 (((cfg3.win 1).blk t).view.emb (ix2 p k)) = V c main_v79 (ix2 (row3 t p) k)
  refine congrArg _ (funext fun a => Fin.ext ?_)
  match a with
  | ⟨0, _⟩ => show win3_1.index t (0 : Fin 2) * 10000 + 1 * p.val = t.val * 10000 + p.val; rw [e0]; omega
  | ⟨1, _⟩ => show win3_1.index t (1 : Fin 2) * 32 + 1 * k.val = k.val; rw [e1]; omega

/-- The staged first weight block is the whole array at every point. -/
theorem blk3_2_apply (c : Dev nD) (t : Fin cfg3.N) (k : Fin 64) (q : Fin 64) :
    (iblk3 V c 2 t : FVec Ideal S64x64 .f32) (ix2 k q) = (V c main_v84 : Hetero.Mat 64 64) (ix2 k q) := by
  obtain ⟨-, -, -, -, -, -, e0, e1, -⟩ := idx_facts3 t
  show V c main_v84 (((cfg3.win 2).blk t).view.emb (ix2 k q)) = V c main_v84 (ix2 k q)
  refine congrArg _ (funext fun a => Fin.ext ?_)
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The staged second weight block is the whole array at every point. -/
theorem blk3_3_apply (c : Dev nD) (t : Fin cfg3.N) (k : Fin 32) (q : Fin 64) :
    (iblk3 V c 3 t : FVec Ideal S32x64 .f32) (ix2 k q) = (V c main_v85 : Hetero.Mat 32 64) (ix2 k q) := by
  obtain ⟨-, -, -, -, -, -, -, -, e0, e1, -⟩ := idx_facts3 t
  show V c main_v85 (((cfg3.win 3).blk t).view.emb (ix2 k q)) = V c main_v85 (ix2 k q)
  refine congrArg _ (funext fun a => Fin.ext ?_)
  match a with
  | ⟨0, _⟩ => show win3_3.index t (0 : Fin 2) * 32 + 1 * k.val = k.val; rw [e0]; omega
  | ⟨1, _⟩ => show win3_3.index t (1 : Fin 2) * 64 + 1 * q.val = q.val; rw [e1]; omega

/-- The staged bias is the whole vector at every point. -/
theorem blk3_4_apply (c : Dev nD) (t : Fin cfg3.N) (q : Fin 64) :
    (iblk3 V c 4 t : FVec Ideal S64 .f32) (ix1 q) = (V c main_arg18 : Hetero.Vect 64) (ix1 q) := by
  obtain ⟨-, -, -, -, -, -, -, -, -, -, e0⟩ := idx_facts3 t
  show V c main_arg18 (((cfg3.win 4).blk t).view.emb (ix1 q)) = V c main_arg18 (ix1 q)
  refine congrArg _ (funext fun a => Fin.ext ?_)
  match a with
  | ⟨0, _⟩ => show win3_4.index t (0 : Fin 1) * 64 + 1 * q.val = q.val; rw [e0]; omega

/-- WHAT POINT t WRITES BACK is block t of the node update of the arrays the region finds. -/
theorem flushed3_eq (c : Dev nD) (t : Fin cfg3.N) :
    (dat3 (F := Ideal) V c).flushed 5 t = ((cfg3.win 5).blk t).view.read (Elt Ideal) (Hetero.nodeOut2 (V c main_arg0) (V c main_v79) (V c main_v84) (V c main_v85) (V c main_arg18)) := by
  show (cfg3.win 5).cut (grid3.coords t) ((dat3 (F := Ideal) V c).after 5 t) = _
  rw [after3_5]
  unfold out3_5
  rw [View.canon_unit_zero hz3]
  simp only [View.ld_unit_zero (S := S10000x64) hz3, View.ld_unit_zero (S := S64x64) hz3, View.ld_unit_zero (S := S10000x32) hz3, View.ld_unit_zero (S := S32x64) hz3, View.ld_unit_zero (S := S64) hz3_1]
  funext j
  obtain ⟨p, q, rfl⟩ : ∃ (p : Fin 10000) (q : Fin 64), j = ix2 p q := ⟨j 0, j 1, eq_ix2 j⟩
  show k3_pay1 (F := Ideal) (iblk3 V c 0 t) (iblk3 V c 2 t) (iblk3 V c 1 t) (iblk3 V c 3 t) (iblk3 V c 4 t) (ix2 p q)
    = Hetero.nodeOut2 (V c main_arg0) (V c main_v79) (V c main_v84) (V c main_v85) (V c main_arg18) (((cfg3.win 5).blk t).view.emb (ix2 p q))
  rw [emb3_5 t p q, Hetero.nodeOut2_apply]
  refine (pay3_apply (iblk3 V c 0 t) (iblk3 V c 2 t) (iblk3 V c 1 t) (iblk3 V c 3 t) (iblk3 V c 4 t) p q).trans ?_
  unfold Hetero.nodeAt2
  simp only [blk3_0_apply, blk3_1_apply, blk3_2_apply, blk3_3_apply, blk3_4_apply]

/-- An index of the array is in point t's block iff each coordinate is in the block's range on its axis. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v86).slice (win3_5.rect t)).set ↔ _
  rw [View.set_slice_whole, Rect.mem_set_unit]
  exact Iff.rfl

/-- The 10 blocks tile the 100000 rows: row r is in the block of point r / 10000, which is written back. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by rw [N3]; omega⟩, rfl⟩
  obtain ⟨e0, e1, -⟩ := idx_facts3 t
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; rw [e0, ht]; omega
  | ⟨1, _⟩ => show win3_5.index t (1 : Fin 2) * 64 ≤ (i 1).val ∧ (i 1).val < win3_5.index t (1 : Fin 2) * 64 + 64; rw [e1]; omega

/-- THE ARRAY region 3 leaves in its output window: the node update of the arrays the region finds. -/
theorem final3 (c : Dev nD) :
    (dat3 (F := Ideal) V c).arrAt 5 cfg3.N
      = Hetero.nodeOut2 (V c main_arg0) (V c main_v79) (V c main_v84) (V c main_v85) (V c main_arg18) :=
  (dat3 (F := Ideal) V c).arrAt_eq_of_cover 5 _ (fun t _ => flushed3_eq V c t) cover3

end Cert.KernelIdeal.KNode3

end
-- ==== Proof.KNode4.lean ====
/-
  Region 4 (the update of the type-b nodes) of the idealized kernel program, read as a value: whatever the arrays hold
  when the region is entered, the pipeline leaves the output array at `Hetero.nodeOut2` of the five input arrays.

  Grid point t stages rows 10000·t … 10000·t + 9999 of the node features and of the aggregate and the whole of the
  two weight blocks and the bias, and writes back the same rows of the output; the body's result at (p, q) depends
  only on row p of the staged blocks, so block t of the output is the restriction of ONE whole-array function to
  those rows, and the 10 blocks tile the 100000 rows.
-/
import proofs.«407052_j2267742732914_3_alg».proof.Proof.Gen.KernelIdeal.Frame
import proofs.«407052_j2267742732914_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KNode4

open Cert.KernelIdeal Cert.KernelIdeal.Gen Idealize.ShloMosaic Idealize.ShloMosaic.TcCoe Idealize.SL.Sem Idealize.ShloMosaic.ValueIdx
open Idealize.ShloMosaic.Pipeline (Dat)

/-! ## The body's result at an index

The body computes relu (x · Wx + agg · Wg + bias) on its blocks. Each product contracts the left operand's axis 1 with
the right operand's axis 0, so at output (p, q) and contraction position k the operands are read at (p, k) and (k, q);
a product into the zero accumulator is the plain sum over k. -/

/-- Where the product of the node features with the first weight block reads its operands: the left at (row of the
    output, contraction position), the right at (contraction position, column of the output), one lemma per axis. -/
theorem lhs_x3_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_x3_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_x3_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_x3_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The features' product at (p, q): the sum over the 64 features of row p times column q of the weights. -/
theorem mm_x3 (x : FVec Ideal S10000x64 .f32) (w : FVec Ideal S64x64 .f32) (p : Fin 10000) (q : Fin 64) :
    matmul (F := Ideal) dot_S10000x64_S64x64_S10000x64_1_0_0_1_n_n none x w (constant (F := Ideal) S10000x64 .f32 0x00000000#32) (ix2 p q) = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_x3_0 _ _
    | ⟨1, _⟩ => exact (lhs_x3_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_x3_0 _ _).trans hk
    | ⟨1, _⟩ => exact rhs_x3_1 _ _)
  rw [el, er]

/-- Where the product of the aggregate with the second weight block reads its operands: the left at (row of the
    output, contraction position), the right at (contraction position, column of the output), one lemma per axis. -/
theorem lhs_g3_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_g3_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs_g3_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs_g3_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The aggregate's product at (p, q): the sum over the 32 aggregated attributes of row p times column q of the
    weights. -/
theorem mm_g3 (x : FVec Ideal S10000x32 .f32) (w : FVec Ideal S32x64 .f32) (p : Fin 10000) (q : Fin 64) :
    matmul (F := Ideal) dot_S10000x32_S32x64_S10000x64_1_0_0_1_n_n none x w (constant (F := Ideal) S10000x64 .f32 0x00000000#32) (ix2 p q) = ∑ k : Fin 32, x (ix2 p k) * w (ix2 k q) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_g3_0 _ _
    | ⟨1, _⟩ => exact (lhs_g3_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_g3_0 _ _).trans hk
    | ⟨1, _⟩ => exact rhs_g3_1 _ _)
  rw [el, er]

/-- The bias row added to every row: the [64] vector as a [1,64] row, that row under every row index. -/
theorem bias3_apply (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply _ _ 0 q)

/-- The body's result at row p, column q of its block. -/
theorem pay3_apply (v0 : FVec Ideal S10000x64 .f32) (v1 : FVec Ideal S64x64 .f32) (v4 : FVec Ideal S10000x32 .f32) (v6 : FVec Ideal S32x64 .f32) (v10 : FVec Ideal S64 .f32) (p : Fin 10000) (q : Fin 64) :
    k4_pay1 (F := Ideal) v0 v1 v4 v6 v10 (ix2 p q) = max ((∑ k : Fin 64, v0 (ix2 p k) * v1 (ix2 k q)) + (∑ k : Fin 32, v4 (ix2 p k) * v6 (ix2 k q)) + v10 (ix1 q)) 0 := by
  unfold k4_pay1
  show max ((matmul (F := Ideal) dot_S10000x64_S64x64_S10000x64_1_0_0_1_n_n none v0 (shapeCast S64x64 v1 shapeCasts_S64x64_S64x64) (constant (F := Ideal) S10000x64 .f32 0x00000000#32) (ix2 p q)
        + matmul (F := Ideal) dot_S10000x32_S32x64_S10000x64_1_0_0_1_n_n none (shapeCast S10000x32 v4 shapeCasts_S10000x32_S10000x32) (shapeCast S32x64 v6 shapeCasts_S32x64_S32x64) (constant (F := Ideal) S10000x64 .f32 0x00000000#32) (ix2 p q))
        + broadcastTo S10000x64 (shapeCast S1x64 v10 shapeCasts_S64_S1x64) broadcasts_S1x64_S10000x64 (ix2 p q)) (Ideal.ofBits .f32 0x00000000#32) = _
  rw [shapeCast_self, shapeCast_self, shapeCast_self, mm_x3, mm_g3, bias3_apply, Ideal.ofBits_zero_f32]

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl
theorem hz3_1 : (![0] : Fin 1 → Nat) = fun _ => 0 := funext fun a => by fin_cases a; rfl

/-- The windows' index maps, decided over the grid: point t stages block (t, 0) of the node features, of the aggregate
    and of the output, and block (0, 0) — the whole — of the two weight blocks and of the bias. -/
theorem idx_facts3 : ∀ t : Fin cfg4.N, win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0 :=
  (by decide +kernel : ∀ t : Fin grid4.N, _)

theorem N3 : cfg4.N = 10 := rfl

/-- Row p of block t is row 10000·t + p of the array. -/
def row3 (t : Fin cfg4.N) (p : Fin 10000) : Fin 100000 :=
  ⟨t.val * 10000 + p.val, by have := t.isLt; have := p.isLt; have h := N3; omega⟩

/-- Entry (p, q) of the output's block at point t is entry (10000·t + p, q) of the array. -/
theorem emb3_5 (t : Fin cfg4.N) (p : Fin 10000) (q : Fin 64) :
    ((cfg4.win 5).blk t).view.emb (ix2 p q) = ix2 (row3 t p) q := by
  obtain ⟨e0, e1, -⟩ := idx_facts3 t
  funext a; apply Fin.ext
  match a with
  | ⟨0, _⟩ => show win4_5.index t (0 : Fin 2) * 10000 + 1 * p.val = t.val * 10000 + p.val; rw [e0]; omega
  | ⟨1, _⟩ => show win4_5.index t (1 : Fin 2) * 64 + 1 * q.val = q.val; rw [e1]; omega

/-- The staged block of node features at point t holds rows 10000·t … of the array. -/
theorem blk3_0_apply (c : Dev nD) (t : Fin cfg4.N) (p : Fin 10000) (k : Fin 64) :
    (iblk4 V c 0 t : FVec Ideal S10000x64 .f32) (ix2 p k) = (V c main_arg1 : Hetero.Mat 100000 64) (ix2 (row3 t p) k) := by
  obtain ⟨-, -, e0, e1, -⟩ := idx_facts3 t
  show V c main_arg1 (((cfg4.win 0).blk t).view.emb (ix2 p k)) = V c main_arg1 (ix2 (row3 t p) k)
  refine congrArg _ (funext fun a => Fin.ext ?_)
  match a with
  | ⟨0, _⟩ => show win4_0.index t (0 : Fin 2) * 10000 + 1 * p.val = t.val * 10000 + p.val; rw [e0]; omega
  | ⟨1, _⟩ => show win4_0.index t (1 : Fin 2) * 64 + 1 * k.val = k.val; rw [e1]; omega

/-- The staged block of the aggregate at point t holds rows 10000·t … of the array. -/
theorem blk3_1_apply (c : Dev nD) (t : Fin cfg4.N) (p : Fin 10000) (k : Fin 32) :
    (iblk4 V c 1 t : FVec Ideal S10000x32 .f32) (ix2 p k) = (V c main_v83 : Hetero.Mat 100000 32) (ix2 (row3 t p) k) := by
  obtain ⟨-, -, -, -, e0, e1, -⟩ := idx_facts3 t
  show V c main_v83 (((cfg4.win 1).blk t).view.emb (ix2 p k)) = V c main_v83 (ix2 (row3 t p) k)
  refine congrArg _ (funext fun a => Fin.ext ?_)
  match a with
  | ⟨0, _⟩ => show win4_1.index t (0 : Fin 2) * 10000 + 1 * p.val = t.val * 10000 + p.val; rw [e0]; omega
  | ⟨1, _⟩ => show win4_1.index t (1 : Fin 2) * 32 + 1 * k.val = k.val; rw [e1]; omega

/-- The staged first weight block is the whole array at every point. -/
theorem blk3_2_apply (c : Dev nD) (t : Fin cfg4.N) (k : Fin 64) (q : Fin 64) :
    (iblk4 V c 2 t : FVec Ideal S64x64 .f32) (ix2 k q) = (V c main_v87 : Hetero.Mat 64 64) (ix2 k q) := by
  obtain ⟨-, -, -, -, -, -, e0, e1, -⟩ := idx_facts3 t
  show V c main_v87 (((cfg4.win 2).blk t).view.emb (ix2 k q)) = V c main_v87 (ix2 k q)
  refine congrArg _ (funext fun a => Fin.ext ?_)
  match a with
  | ⟨0, _⟩ => show win4_2.index t (0 : Fin 2) * 64 + 1 * k.val = k.val; rw [e0]; omega
  | ⟨1, _⟩ => show win4_2.index t (1 : Fin 2) * 64 + 1 * q.val = q.val; rw [e1]; omega

/-- The staged second weight block is the whole array at every point. -/
theorem blk3_3_apply (c : Dev nD) (t : Fin cfg4.N) (k : Fin 32) (q : Fin 64) :
    (iblk4 V c 3 t : FVec Ideal S32x64 .f32) (ix2 k q) = (V c main_v88 : Hetero.Mat 32 64) (ix2 k q) := by
  obtain ⟨-, -, -, -, -, -, -, -, e0, e1, -⟩ := idx_facts3 t
  show V c main_v88 (((cfg4.win 3).blk t).view.emb (ix2 k q)) = V c main_v88 (ix2 k q)
  refine congrArg _ (funext fun a => Fin.ext ?_)
  match a with
  | ⟨0, _⟩ => show win4_3.index t (0 : Fin 2) * 32 + 1 * k.val = k.val; rw [e0]; omega
  | ⟨1, _⟩ => show win4_3.index t (1 : Fin 2) * 64 + 1 * q.val = q.val; rw [e1]; omega

/-- The staged bias is the whole vector at every point. -/
theorem blk3_4_apply (c : Dev nD) (t : Fin cfg4.N) (q : Fin 64) :
    (iblk4 V c 4 t : FVec Ideal S64 .f32) (ix1 q) = (V c main_arg20 : Hetero.Vect 64) (ix1 q) := by
  obtain ⟨-, -, -, -, -, -, -, -, -, -, e0⟩ := idx_facts3 t
  show V c main_arg20 (((cfg4.win 4).blk t).view.emb (ix1 q)) = V c main_arg20 (ix1 q)
  refine congrArg _ (funext fun a => Fin.ext ?_)
  match a with
  | ⟨0, _⟩ => show win4_4.index t (0 : Fin 1) * 64 + 1 * q.val = q.val; rw [e0]; omega

/-- WHAT POINT t WRITES BACK is block t of the node update of the arrays the region finds. -/
theorem flushed3_eq (c : Dev nD) (t : Fin cfg4.N) :
    (dat4 (F := Ideal) V c).flushed 5 t = ((cfg4.win 5).blk t).view.read (Elt Ideal) (Hetero.nodeOut2 (V c main_arg1) (V c main_v83) (V c main_v87) (V c main_v88) (V c main_arg20)) := by
  show (cfg4.win 5).cut (grid4.coords t) ((dat4 (F := Ideal) V c).after 5 t) = _
  rw [after4_5]
  unfold out4_5
  rw [View.canon_unit_zero hz3]
  simp only [View.ld_unit_zero (S := S10000x64) hz3, View.ld_unit_zero (S := S64x64) hz3, View.ld_unit_zero (S := S10000x32) hz3, View.ld_unit_zero (S := S32x64) hz3, View.ld_unit_zero (S := S64) hz3_1]
  funext j
  obtain ⟨p, q, rfl⟩ : ∃ (p : Fin 10000) (q : Fin 64), j = ix2 p q := ⟨j 0, j 1, eq_ix2 j⟩
  show k4_pay1 (F := Ideal) (iblk4 V c 0 t) (iblk4 V c 2 t) (iblk4 V c 1 t) (iblk4 V c 3 t) (iblk4 V c 4 t) (ix2 p q)
    = Hetero.nodeOut2 (V c main_arg1) (V c main_v83) (V c main_v87) (V c main_v88) (V c main_arg20) (((cfg4.win 5).blk t).view.emb (ix2 p q))
  rw [emb3_5 t p q, Hetero.nodeOut2_apply]
  refine (pay3_apply (iblk4 V c 0 t) (iblk4 V c 2 t) (iblk4 V c 1 t) (iblk4 V c 3 t) (iblk4 V c 4 t) p q).trans ?_
  unfold Hetero.nodeAt2
  simp only [blk3_0_apply, blk3_1_apply, blk3_2_apply, blk3_3_apply, blk3_4_apply]

/-- An index of the array is in point t's block iff each coordinate is in the block's range on its axis. -/
theorem mem_blk3 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v89).slice (win4_5.rect t)).set ↔ _
  rw [View.set_slice_whole, Rect.mem_set_unit]
  exact Iff.rfl

/-- The 10 blocks tile the 100000 rows: row r is in the block of point r / 10000, which is written back. -/
theorem cover3 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 10000 := ⟨⟨(i 0).val / 10000, by rw [N3]; omega⟩, rfl⟩
  obtain ⟨e0, e1, -⟩ := idx_facts3 t
  refine ⟨t, flush4_5 t, ?_⟩
  rw [mem_blk3]
  intro a
  match a with
  | ⟨0, _⟩ => show win4_5.index t (0 : Fin 2) * 10000 ≤ (i 0).val ∧ (i 0).val < win4_5.index t (0 : Fin 2) * 10000 + 10000; rw [e0, ht]; omega
  | ⟨1, _⟩ => show win4_5.index t (1 : Fin 2) * 64 ≤ (i 1).val ∧ (i 1).val < win4_5.index t (1 : Fin 2) * 64 + 64; rw [e1]; omega

/-- THE ARRAY region 4 leaves in its output window: the node update of the arrays the region finds. -/
theorem final4 (c : Dev nD) :
    (dat4 (F := Ideal) V c).arrAt 5 cfg4.N
      = Hetero.nodeOut2 (V c main_arg1) (V c main_v83) (V c main_v87) (V c main_v88) (V c main_arg20) :=
  (dat4 (F := Ideal) V c).arrAt_eq_of_cover 5 _ (fun t _ => flushed3_eq V c t) cover3

end Cert.KernelIdeal.KNode4

end
-- ==== Proof.KVal.lean ====
/-
  The idealized kernel program's results as functions of the launch memory: each region's output array is the edge or
  node update (`Hetero.edgeOut`, `Hetero.nodeOut`) of what its windows stage, the staged arrays are what the host
  operations wrote — the gathered endpoint rows, the row blocks of the weight matrices, the scatter-added aggregates —,
  and the results survive to the end of @main.
-/
import proofs.«407052_j2267742732914_3_alg».proof.Proof.KFold
import proofs.«407052_j2267742732914_3_alg».proof.Proof.KRun
import proofs.«407052_j2267742732914_3_alg».proof.Proof.KEdge0
import proofs.«407052_j2267742732914_3_alg».proof.Proof.KEdge1
import proofs.«407052_j2267742732914_3_alg».proof.Proof.KEdge2
import proofs.«407052_j2267742732914_3_alg».proof.Proof.KNode3
import proofs.«407052_j2267742732914_3_alg».proof.Proof.KNode4

set_option maxRecDepth 16384

noncomputable section

namespace Cert.KernelIdeal.KVal

open Cert.KernelIdeal Cert.KernelIdeal.Gen Cert.KernelIdeal.KFold Idealize.ShloMosaic Idealize.ShloMosaic.TcCoe Idealize.SL.Sem Idealize.ShloMosaic.StableHlo
open Idealize.ShloMosaic.Pipeline (Dat)

/-! ## A block of rows of a weight matrix, as the host's slice prints it -/

theorem slice160_0 (W : FVec Ideal S160x64 .f32) :
    extractStridedSlice S64x64 ![0, 0] W slices_S160x64_S64x64_0_0 = Hetero.rows 64 0 (by decide) W := by
  funext i
  refine congrArg W (funext fun a => Fin.ext ?_)
  match a with
  | ⟨0, _⟩ => rfl
  | ⟨1, _⟩ => exact Nat.zero_add _
theorem slice160_1 (W : FVec Ideal S160x64 .f32) :
    extractStridedSlice S64x64 ![64, 0] W slices_S160x64_S64x64_64_0 = Hetero.rows 64 64 (by decide) W := by
  funext i
  refine congrArg W (funext fun a => Fin.ext ?_)
  match a with
  | ⟨0, _⟩ => rfl
  | ⟨1, _⟩ => exact Nat.zero_add _
theorem slice160_2 (W : FVec Ideal S160x64 .f32) :
    extractStridedSlice S32x64 ![128, 0] W slices_S160x64_S32x64_128_0 = Hetero.rows 32 128 (by decide) W := by
  funext i
  refine congrArg W (funext fun a => Fin.ext ?_)
  match a with
  | ⟨0, _⟩ => rfl
  | ⟨1, _⟩ => exact Nat.zero_add _
theorem slice96_0 (W : FVec Ideal S96x64 .f32) :
    extractStridedSlice S64x64 ![0, 0] W slices_S96x64_S64x64_0_0 = Hetero.rows 64 0 (by decide) W := by
  funext i
  refine congrArg W (funext fun a => Fin.ext ?_)
  match a with
  | ⟨0, _⟩ => rfl
  | ⟨1, _⟩ => exact Nat.zero_add _
theorem slice96_1 (W : FVec Ideal S96x64 .f32) :
    extractStridedSlice S32x64 ![64, 0] W slices_S96x64_S32x64_64_0 = Hetero.rows 32 64 (by decide) W := by
  funext i
  refine congrArg W (funext fun a => Fin.ext ?_)
  match a with
  | ⟨0, _⟩ => rfl
  | ⟨1, _⟩ => exact Nat.zero_add _

variable (m : (ℓ : Loc nD τ sig) → Buf (Elt Ideal) ℓ) (ρ : Dev nD → PrngReg)

/-! ## The results, named -/

/-- The updated attributes of the three edge types. -/
def eAA (c : Dev nD) : FVec Ideal S800000x32 .f32 :=
  Hetero.edgeOut (gatherRows (m ((c : Thread nD τ).loc main_arg0)) (srcOf (m ((c : Thread nD τ).loc main_arg21)))) (gatherRows (m ((c : Thread nD τ).loc main_arg0)) (dstOf (m ((c : Thread nD τ).loc main_arg21)))) (m ((c : Thread nD τ).loc main_arg2)) (m ((c : Thread nD τ).loc main_arg5)) (m ((c : Thread nD τ).loc main_arg6)) (m ((c : Thread nD τ).loc main_arg7)) (m ((c : Thread nD τ).loc main_arg8))
def eAB (c : Dev nD) : FVec Ideal S800000x32 .f32 :=
  Hetero.edgeOut (gatherRows (m ((c : Thread nD τ).loc main_arg0)) (srcOf (m ((c : Thread nD τ).loc main_arg22)))) (gatherRows (m ((c : Thread nD τ).loc main_arg1)) (dstOf (m ((c : Thread nD τ).loc main_arg22)))) (m ((c : Thread nD τ).loc main_arg3)) (m ((c : Thread nD τ).loc main_arg9)) (m ((c : Thread nD τ).loc main_arg10)) (m ((c : Thread nD τ).loc main_arg11)) (m ((c : Thread nD τ).loc main_arg12))
def eBB (c : Dev nD) : FVec Ideal S800000x32 .f32 :=
  Hetero.edgeOut (gatherRows (m ((c : Thread nD τ).loc main_arg1)) (srcOf (m ((c : Thread nD τ).loc main_arg23)))) (gatherRows (m ((c : Thread nD τ).loc main_arg1)) (dstOf (m ((c : Thread nD τ).loc main_arg23)))) (m ((c : Thread nD τ).loc main_arg4)) (m ((c : Thread nD τ).loc main_arg13)) (m ((c : Thread nD τ).loc main_arg14)) (m ((c : Thread nD τ).loc main_arg15)) (m ((c : Thread nD τ).loc main_arg16))
/-- The aggregates: the two scatter-adds of one edge type's attributes taken at once. -/
def aggA (c : Dev nD) : FVec Ideal S100000x32 .f32 :=
  addf (segSum2 (srcOf (m ((c : Thread nD τ).loc main_arg21))) (dstOf (m ((c : Thread nD τ).loc main_arg21))) (eAA m c)) (segSum (srcOf (m ((c : Thread nD τ).loc main_arg22))) (eAB m c))
def aggB (c : Dev nD) : FVec Ideal S100000x32 .f32 :=
  addf (segSum (dstOf (m ((c : Thread nD τ).loc main_arg22))) (eAB m c)) (segSum2 (srcOf (m ((c : Thread nD τ).loc main_arg23))) (dstOf (m ((c : Thread nD τ).loc main_arg23))) (eBB m c))
/-- The updated node tables. -/
def xA (c : Dev nD) : FVec Ideal S100000x64 .f32 := Hetero.nodeOut (m ((c : Thread nD τ).loc main_arg0)) (aggA m c) (m ((c : Thread nD τ).loc main_arg17)) (m ((c : Thread nD τ).loc main_arg18))
def xB (c : Dev nD) : FVec Ideal S100000x64 .f32 := Hetero.nodeOut (m ((c : Thread nD τ).loc main_arg1)) (aggB m c) (m ((c : Thread nD τ).loc main_arg19)) (m ((c : Thread nD τ).loc main_arg20))

/-! ## Each region's output array -/

theorem W2_v57 (c : Dev nD) : W2 m ρ c (Proc.devRef .tc main_v57) = eAA m c := by
  refine (W2_arr m ρ c 9).trans ?_
  rw [KEdge0.final0]
  show Hetero.edgeOut3 (W1 m ρ c (Proc.devRef .tc main_v18)) (W1 m ρ c (Proc.devRef .tc main_v25)) (W1 m ρ c (Proc.devRef .tc main_arg2))
    (W1 m ρ c (Proc.devRef .tc main_v54)) (W1 m ρ c (Proc.devRef .tc main_v55)) (W1 m ρ c (Proc.devRef .tc main_v56))
    (W1 m ρ c (Proc.devRef .tc main_arg6)) (W1 m ρ c (Proc.devRef .tc main_arg7)) (W1 m ρ c (Proc.devRef .tc main_arg8)) = _
  rw [W1_v18, W1_v25, W1_arg2, W1_v54, W1_v55, W1_v56, W1_arg6, W1_arg7, W1_arg8, slice160_0, slice160_1, slice160_2]
  rfl

theorem W4_v61 (c : Dev nD) : W4 m ρ c (Proc.devRef .tc main_v61) = eAB m c := by
  refine (W4_arr m ρ c 9).trans ?_
  rw [KEdge1.final1]
  show Hetero.edgeOut3 (W3 m ρ c (Proc.devRef .tc main_v32)) (W3 m ρ c (Proc.devRef .tc main_v39)) (W3 m ρ c (Proc.devRef .tc main_arg3))
    (W3 m ρ c (Proc.devRef .tc main_v58)) (W3 m ρ c (Proc.devRef .tc main_v59)) (W3 m ρ c (Proc.devRef .tc main_v60))
    (W3 m ρ c (Proc.devRef .tc main_arg10)) (W3 m ρ c (Proc.devRef .tc main_arg11)) (W3 m ρ c (Proc.devRef .tc main_arg12)) = _
  rw [W3_v32_to1, W1_v32, W3_v39_to1, W1_v39, W3_arg3, W3_v58, W3_v59, W3_v60, W3_arg10, W3_arg11, W3_arg12, slice160_0, slice160_1, slice160_2]
  rfl

theorem W6_v65 (c : Dev nD) : W6 m ρ c (Proc.devRef .tc main_v65) = eBB m c := by
  refine (W6_arr m ρ c 9).trans ?_
  rw [KEdge2.final2]
  show Hetero.edgeOut3 (W5 m ρ c (Proc.devRef .tc main_v46)) (W5 m ρ c (Proc.devRef .tc main_v53)) (W5 m ρ c (Proc.devRef .tc main_arg4))
    (W5 m ρ c (Proc.devRef .tc main_v62)) (W5 m ρ c (Proc.devRef .tc main_v63)) (W5 m ρ c (Proc.devRef .tc main_v64))
    (W5 m ρ c (Proc.devRef .tc main_arg14)) (W5 m ρ c (Proc.devRef .tc main_arg15)) (W5 m ρ c (Proc.devRef .tc main_arg16)) = _
  rw [W5_v46_to1, W1_v46, W5_v53_to1, W1_v53, W5_arg4, W5_v62, W5_v63, W5_v64, W5_arg14, W5_arg15, W5_arg16, slice160_0, slice160_1, slice160_2]
  rfl

theorem W8_v86 (c : Dev nD) : W8 m ρ c (Proc.devRef .tc main_v86) = xA m c := by
  refine (W8_arr m ρ c 5).trans ?_
  rw [KNode3.final3]
  show Hetero.nodeOut2 (W7 m ρ c (Proc.devRef .tc main_arg0)) (W7 m ρ c (Proc.devRef .tc main_v79)) (W7 m ρ c (Proc.devRef .tc main_v84))
    (W7 m ρ c (Proc.devRef .tc main_v85)) (W7 m ρ c (Proc.devRef .tc main_arg18)) = _
  rw [W7_arg0, W7_v79, W7_v84, W7_v85, W7_arg18, slice96_0, slice96_1, W2_v57, W4_v61]
  rfl

theorem W10_v89 (c : Dev nD) : W10 m ρ c (Proc.devRef .tc main_v89) = xB m c := by
  refine (W10_arr m ρ c 5).trans ?_
  rw [KNode4.final4]
  show Hetero.nodeOut2 (W9 m ρ c (Proc.devRef .tc main_arg1)) (W9 m ρ c (Proc.devRef .tc main_v83)) (W9 m ρ c (Proc.devRef .tc main_v87))
    (W9 m ρ c (Proc.devRef .tc main_v88)) (W9 m ρ c (Proc.devRef .tc main_arg20)) = _
  rw [W9_arg1, W9_v83_to7, W7_v83, W9_v87, W9_v88, W9_arg20, slice96_0, slice96_1, W4_v61, W6_v65]
  rfl

/-! ## The run, its results named -/

theorem run : θ_run defs (onTc (τ := τ) (main (F := Ideal))) ⟨m, fun _ => 0, ρ⟩ (fun r => ∀ c : Dev nD,
      r.2.mem ((c.tc : Thread nD τ).loc main_v86) = xA m c
      ∧ r.2.mem ((c.tc : Thread nD τ).loc main_v89) = xB m c
      ∧ r.2.mem ((c.tc : Thread nD τ).loc main_v57) = eAA m c
      ∧ r.2.mem ((c.tc : Thread nD τ).loc main_v61) = eAB m c
      ∧ r.2.mem ((c.tc : Thread nD τ).loc main_v65) = eBB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c).1.trans ((W10_v86 m ρ c).trans (W8_v86 m ρ c)),
      (h c).2.1.trans (W10_v89 m ρ c),
      (h c).2.2.1.trans ((W10_v57 m ρ c).trans ((W6_v57 m ρ c).trans (W2_v57 m ρ c))),
      (h c).2.2.2.1.trans ((W10_v61 m ρ c).trans ((W6_v61 m ρ c).trans (W4_v61 m ρ c))),
      (h c).2.2.2.2.1.trans ((W10_v65 m ρ c).trans (W6_v65 m ρ c)),
      (h c).2.2.2.2.2⟩)
    (KRun.run (F := Ideal) m ρ)

end Cert.KernelIdeal.KVal

end
-- ==== Proof.RefLaws.lean ====
/-
  The reference's edge and node updates, read index by index on the extended reals.

  The reference multiplies the concatenated row [x1 | x2 | ea] (160 entries) by the whole first-layer matrix; at an
  index the product is a sum over 160 terms, which splits at the piece boundaries 64 and 128 into the three partial
  products with rows 0–63, 64–127 and 128–159 of the matrix (sums on the extended reals regroup freely). Likewise the
  node update's product with [x | agg] (96 entries) splits at 64. The bias is broadcast along the rows and relu is
  the maximum with the zero array.
-/
import proofs.«407052_j2267742732914_3_alg».proof.Proof.Gen.ReferenceIdeal
import proofs.«407052_j2267742732914_3_alg».proof.Proof.Spec
import Idealize.ShloMosaic.Lib.Pipeline.Value
import Idealize.ShloMosaic.Lib.ValueIdx
import Idealize.ShloMosaic.Lib.KernelVsHost
import Idealize.ShloMosaic.Lib.StackMember
import Idealize.ShloMosaic.Lib.IdealHost
import Idealize.ShloMosaic.PureOps.Ideal.Laws

noncomputable section

namespace Cert.ReferenceIdeal.RefLaws

open Cert.ReferenceIdeal Cert.ReferenceIdeal.Gen Idealize.ShloMosaic Idealize.ShloMosaic.TcCoe Idealize.ShloMosaic.ValueIdx
/-- The first layer's product at (r, h) is the sum over the 160 contracted entries. -/
theorem dot160_apply (A : FVec Ideal S800000x160 .f32) (B : FVec Ideal S160x64 .f32) (r : Fin 800000) (h : Fin 64) :
    Host.dotGeneral dot_S800000x160_S160x64_S800000x64_1_0_0_1_n_n none A B (ix2 r h) = ∑ c : Fin 160, A (ix2 r c) * B (ix2 c h) :=
  StackMember.dotGeneral_plain_apply (m := 800000) (k := 160) (n := 64) none A B r h

/-- The second layer's product at (r, q) is the sum over the 64 contracted entries. -/
theorem dot64_apply (A : FVec Ideal S800000x64 .f32) (B : FVec Ideal S64x32 .f32) (r : Fin 800000) (q : Fin 32) :
    Host.dotGeneral dot_S800000x64_S64x32_S800000x32_1_0_0_1_n_n none A B (ix2 r q) = ∑ c : Fin 64, A (ix2 r c) * B (ix2 c q) :=
  StackMember.dotGeneral_plain_apply (m := 800000) (k := 64) (n := 32) none A B r q

/-- The node update's product at (r, q) is the sum over the 96 contracted entries. -/
theorem dot96_apply (A : FVec Ideal S100000x96 .f32) (B : FVec Ideal S96x64 .f32) (r : Fin 100000) (q : Fin 64) :
    Host.dotGeneral dot_S100000x96_S96x64_S100000x64_1_0_0_1_n_n none A B (ix2 r q) = ∑ c : Fin 96, A (ix2 r c) * B (ix2 c q) :=
  StackMember.dotGeneral_plain_apply (m := 100000) (k := 96) (n := 64) none A B r q

/-- A vector laid along one row and then down the rows reads, at (r, q), its entry q. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply h2 _ r q]
  refine broadcastInDim_apply ![1] h1 b (ix2 (0 : Fin 1) q) (ix1 q) ?_
  intro a
  match a with
  | ⟨0, _⟩ =>
    show q.val = if n = 1 then 0 else q.val
    split
    · have := q.isLt; omega
    · rfl

/-- The zero constant broadcast to any shape reads 0. -/
theorem zero_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply h _ j, constant_apply, Ideal.ofBits_zero_f32]

/-- Three arrays laid side by side along the columns, read in the first piece. -/
theorem concat3_apply_0 {α : Type} {m n1 n2 n3 N : Nat}
    (x1 : (⟨2, ![m, n1]⟩ : Shape).Idx → α) (x2 : (⟨2, ![m, n2]⟩ : Shape).Idx → α) (x3 : (⟨2, ![m, n3]⟩ : Shape).Idx → α)
    (h : Shape.Concatenates [⟨2, ![m, n1]⟩, ⟨2, ![m, n2]⟩, ⟨2, ![m, n3]⟩] ⟨2, ![m, N]⟩ 1) (r : Fin m) (k : Fin n1) (c : Fin N)
    (hc : c.val = k.val) :
    concatenate ⟨2, ![m, N]⟩ 1 [⟨⟨2, ![m, n1]⟩, x1⟩, ⟨⟨2, ![m, n2]⟩, x2⟩, ⟨⟨2, ![m, n3]⟩, x3⟩] h (ix2 r c) = x1 (ix2 r k) := by
  refine concatenate_apply_piece (t := ⟨2, ![m, N]⟩) 1 [⟨⟨2, ![m, n1]⟩, x1⟩, ⟨⟨2, ![m, n2]⟩, x2⟩, ⟨⟨2, ![m, n3]⟩, x3⟩] h (ix2 r c) 0 (by simp) ⟨2, ![m, n1]⟩ x1 rfl rfl 0 rfl (ix2 r k) ?_ ?_
  · intro b hb
    match b with
    | ⟨0, _⟩ => rfl
    | ⟨1, _⟩ => exact absurd rfl hb
  · show 0 + k.val = c.val
    omega

/-- Three arrays laid side by side along the columns, read in the second piece. -/
theorem concat3_apply_1 {α : Type} {m n1 n2 n3 N : Nat}
    (x1 : (⟨2, ![m, n1]⟩ : Shape).Idx → α) (x2 : (⟨2, ![m, n2]⟩ : Shape).Idx → α) (x3 : (⟨2, ![m, n3]⟩ : Shape).Idx → α)
    (h : Shape.Concatenates [⟨2, ![m, n1]⟩, ⟨2, ![m, n2]⟩, ⟨2, ![m, n3]⟩] ⟨2, ![m, N]⟩ 1) (r : Fin m) (k : Fin n2) (c : Fin N)
    (hc : c.val = n1 + k.val) :
    concatenate ⟨2, ![m, N]⟩ 1 [⟨⟨2, ![m, n1]⟩, x1⟩, ⟨⟨2, ![m, n2]⟩, x2⟩, ⟨⟨2, ![m, n3]⟩, x3⟩] h (ix2 r c) = x2 (ix2 r k) := by
  refine concatenate_apply_piece (t := ⟨2, ![m, N]⟩) 1 [⟨⟨2, ![m, n1]⟩, x1⟩, ⟨⟨2, ![m, n2]⟩, x2⟩, ⟨⟨2, ![m, n3]⟩, x3⟩] h (ix2 r c) 1 (by simp) ⟨2, ![m, n2]⟩ x2 rfl rfl n1 (by simp) (ix2 r k) ?_ ?_
  · intro b hb
    match b with
    | ⟨0, _⟩ => rfl
    | ⟨1, _⟩ => exact absurd rfl hb
  · show n1 + k.val = c.val
    omega

/-- Three arrays laid side by side along the columns, read in the third piece. -/
theorem concat3_apply_2 {α : Type} {m n1 n2 n3 N : Nat}
    (x1 : (⟨2, ![m, n1]⟩ : Shape).Idx → α) (x2 : (⟨2, ![m, n2]⟩ : Shape).Idx → α) (x3 : (⟨2, ![m, n3]⟩ : Shape).Idx → α)
    (h : Shape.Concatenates [⟨2, ![m, n1]⟩, ⟨2, ![m, n2]⟩, ⟨2, ![m, n3]⟩] ⟨2, ![m, N]⟩ 1) (r : Fin m) (k : Fin n3) (c : Fin N)
    (hc : c.val = n1 + n2 + k.val) :
    concatenate ⟨2, ![m, N]⟩ 1 [⟨⟨2, ![m, n1]⟩, x1⟩, ⟨⟨2, ![m, n2]⟩, x2⟩, ⟨⟨2, ![m, n3]⟩, x3⟩] h (ix2 r c) = x3 (ix2 r k) := by
  refine concatenate_apply_piece (t := ⟨2, ![m, N]⟩) 1 [⟨⟨2, ![m, n1]⟩, x1⟩, ⟨⟨2, ![m, n2]⟩, x2⟩, ⟨⟨2, ![m, n3]⟩, x3⟩] h (ix2 r c) 2 (by simp) ⟨2, ![m, n3]⟩ x3 rfl rfl (n1 + n2) (by simp) (ix2 r k) ?_ ?_
  · intro b hb
    match b with
    | ⟨0, _⟩ => rfl
    | ⟨1, _⟩ => exact absurd rfl hb
  · show n1 + n2 + k.val = c.val
    omega

/-- Two arrays laid side by side along the columns, read in the first piece. -/
theorem concat2_apply_0 {α : Type} {m n1 n2 N : Nat}
    (x1 : (⟨2, ![m, n1]⟩ : Shape).Idx → α) (x2 : (⟨2, ![m, n2]⟩ : Shape).Idx → α)
    (h : Shape.Concatenates [⟨2, ![m, n1]⟩, ⟨2, ![m, n2]⟩] ⟨2, ![m, N]⟩ 1) (r : Fin m) (k : Fin n1) (c : Fin N)
    (hc : c.val = k.val) :
    concatenate ⟨2, ![m, N]⟩ 1 [⟨⟨2, ![m, n1]⟩, x1⟩, ⟨⟨2, ![m, n2]⟩, x2⟩] h (ix2 r c) = x1 (ix2 r k) := by
  refine concatenate_apply_piece (t := ⟨2, ![m, N]⟩) 1 [⟨⟨2, ![m, n1]⟩, x1⟩, ⟨⟨2, ![m, n2]⟩, x2⟩] h (ix2 r c) 0 (by simp) ⟨2, ![m, n1]⟩ x1 rfl rfl 0 rfl (ix2 r k) ?_ ?_
  · intro b hb
    match b with
    | ⟨0, _⟩ => rfl
    | ⟨1, _⟩ => exact absurd rfl hb
  · show 0 + k.val = c.val
    omega

/-- Two arrays laid side by side along the columns, read in the second piece. -/
theorem concat2_apply_1 {α : Type} {m n1 n2 N : Nat}
    (x1 : (⟨2, ![m, n1]⟩ : Shape).Idx → α) (x2 : (⟨2, ![m, n2]⟩ : Shape).Idx → α)
    (h : Shape.Concatenates [⟨2, ![m, n1]⟩, ⟨2, ![m, n2]⟩] ⟨2, ![m, N]⟩ 1) (r : Fin m) (k : Fin n2) (c : Fin N)
    (hc : c.val = n1 + k.val) :
    concatenate ⟨2, ![m, N]⟩ 1 [⟨⟨2, ![m, n1]⟩, x1⟩, ⟨⟨2, ![m, n2]⟩, x2⟩] h (ix2 r c) = x2 (ix2 r k) := by
  refine concatenate_apply_piece (t := ⟨2, ![m, N]⟩) 1 [⟨⟨2, ![m, n1]⟩, x1⟩, ⟨⟨2, ![m, n2]⟩, x2⟩] h (ix2 r c) 1 (by simp) ⟨2, ![m, n2]⟩ x2 rfl rfl n1 (by simp) (ix2 r k) ?_ ?_
  · intro b hb
    match b with
    | ⟨0, _⟩ => rfl
    | ⟨1, _⟩ => exact absurd rfl hb
  · show n1 + k.val = c.val
    omega

/-- Equal row numbers read the same entry of a matrix. -/
theorem row_congr {R C : Nat} (W : Hetero.Mat R C) (a b : Fin R) (h : Fin C) (hab : a.val = b.val) :
    W (ix2 a h) = W (ix2 b h) := by
  rw [Fin.ext hab]

/-- The reference's hidden layer at edge r, unit h: relu of the three partial products plus the bias. -/
theorem hidden_apply (x1 x2 : FVec Ideal S800000x64 .f32) (ea : FVec Ideal S800000x32 .f32) (W1 : FVec Ideal S160x64 .f32)
    (b1 : FVec Ideal S64 .f32) (r : Fin 800000) (h : Fin 64) :
    maximumf (addf (Host.dotGeneral dot_S800000x160_S160x64_S800000x64_1_0_0_1_n_n none (concatenate S800000x160 1 [⟨S800000x64, x1⟩, ⟨S800000x64, x2⟩, ⟨S800000x32, ea⟩] concatenates_S800000x64_S800000x64_S800000x32_S800000x160_d1) W1) (broadcastInDim S800000x64 ![0, 1] bcast_S1x64_S800000x64_0_1 (broadcastInDim S1x64 ![1] bcast_S64_S1x64_1 b1))) (broadcastInDim S800000x64 ![] bcast_S_S800000x64 (constant S_ .f32 0x00000000#32)) (ix2 r h)
      = max (Hetero.edgeHidden3 x1 x2 ea (Hetero.rows 64 0 (by decide) W1) (Hetero.rows 64 64 (by decide) W1) (Hetero.rows 32 128 (by decide) W1) b1 r h) 0 := by
  rw [maximumf_apply, addf_apply, zero_apply, bias_apply, dot160_apply, Hetero.sum_split_160]
  unfold Hetero.edgeHidden3
  refine congrArg (fun z => max z 0) (congrArg (· + b1 (ix1 h)) ?_)
  refine congrArg₂ (· + ·) (congrArg₂ (· + ·) (Finset.sum_congr rfl fun k _ => ?_) (Finset.sum_congr rfl fun k _ => ?_))
    (Finset.sum_congr rfl fun k _ => ?_)
  · rw [concat3_apply_0 x1 x2 ea concatenates_S800000x64_S800000x64_S800000x32_S800000x160_d1 r k
      ⟨k.val, by have := k.isLt; omega⟩ rfl, Hetero.rows_apply]
    exact congrArg (x1 (ix2 r k) * ·) (row_congr W1 _ _ h (Nat.zero_add _).symm)
  · rw [concat3_apply_1 x1 x2 ea concatenates_S800000x64_S800000x64_S800000x32_S800000x160_d1 r k
      ⟨64 + k.val, by have := k.isLt; omega⟩ rfl, Hetero.rows_apply]
  · rw [concat3_apply_2 x1 x2 ea concatenates_S800000x64_S800000x64_S800000x32_S800000x160_d1 r k
      ⟨128 + k.val, by have := k.isLt; omega⟩ rfl, Hetero.rows_apply]

/-- The reference's edge update of gathered endpoint features `x1`, `x2` and attributes `ea` is `Hetero.edgeOut`. -/
theorem edge_term_eq (x1 x2 : FVec Ideal S800000x64 .f32) (ea : FVec Ideal S800000x32 .f32) (W1 : FVec Ideal S160x64 .f32)
    (b1 : FVec Ideal S64 .f32) (W2 : FVec Ideal S64x32 .f32) (b2 : FVec Ideal S32 .f32) :
    maximumf (addf (Host.dotGeneral dot_S800000x64_S64x32_S800000x32_1_0_0_1_n_n none (maximumf (addf (Host.dotGeneral dot_S800000x160_S160x64_S800000x64_1_0_0_1_n_n none (concatenate S800000x160 1 [⟨S800000x64, x1⟩, ⟨S800000x64, x2⟩, ⟨S800000x32, ea⟩] concatenates_S800000x64_S800000x64_S800000x32_S800000x160_d1) W1) (broadcastInDim S800000x64 ![0, 1] bcast_S1x64_S800000x64_0_1 (broadcastInDim S1x64 ![1] bcast_S64_S1x64_1 b1))) (broadcastInDim S800000x64 ![] bcast_S_S800000x64 (constant S_ .f32 0x00000000#32))) W2) (broadcastInDim S800000x32 ![0, 1] bcast_S1x32_S800000x32_0_1 (broadcastInDim S1x32 ![1] bcast_S32_S1x32_1 b2))) (broadcastInDim S800000x32 ![] bcast_S_S800000x32 (constant S_ .f32 0x00000000#32))
      = Hetero.edgeOut x1 x2 ea W1 b1 W2 b2 := by
  funext i
  obtain ⟨r, q, rfl⟩ : ∃ (r : Fin 800000) (q : Fin 32), i = ix2 r q := ⟨i 0, i 1, eq_ix2 i⟩
  rw [maximumf_apply, addf_apply, zero_apply, bias_apply, dot64_apply]
  unfold Hetero.edgeOut
  rw [Hetero.edgeOut3_apply]
  unfold Hetero.edgeAt3
  refine congrArg (fun z => max z 0) (congrArg (· + b2 (ix1 q)) (Finset.sum_congr rfl fun h _ => ?_))
  rw [hidden_apply]

/-- The reference's node update of features `x` and aggregate `agg` is `Hetero.nodeOut`. -/
theorem node_term_eq (x : FVec Ideal S100000x64 .f32) (agg : FVec Ideal S100000x32 .f32) (Wn : FVec Ideal S96x64 .f32)
    (bn : FVec Ideal S64 .f32) :
    maximumf (addf (Host.dotGeneral dot_S100000x96_S96x64_S100000x64_1_0_0_1_n_n none (concatenate S100000x96 1 [⟨S100000x64, x⟩, ⟨S100000x32, agg⟩] concatenates_S100000x64_S100000x32_S100000x96_d1) Wn) (broadcastInDim S100000x64 ![0, 1] bcast_S1x64_S100000x64_0_1 (broadcastInDim S1x64 ![1] bcast_S64_S1x64_1 bn))) (broadcastInDim S100000x64 ![] bcast_S_S100000x64 (constant S_ .f32 0x00000000#32))
      = Hetero.nodeOut x agg Wn bn := by
  funext i
  obtain ⟨r, q, rfl⟩ : ∃ (r : Fin 100000) (q : Fin 64), i = ix2 r q := ⟨i 0, i 1, eq_ix2 i⟩
  rw [maximumf_apply, addf_apply, zero_apply, bias_apply, dot96_apply, Hetero.sum_split_96]
  unfold Hetero.nodeOut
  rw [Hetero.nodeOut2_apply]
  unfold Hetero.nodeAt2
  refine congrArg (fun z => max z 0) (congrArg (· + bn (ix1 q)) ?_)
  refine congrArg₂ (· + ·) (Finset.sum_congr rfl fun k _ => ?_) (Finset.sum_congr rfl fun k _ => ?_)
  · rw [concat2_apply_0 x agg concatenates_S100000x64_S100000x32_S100000x96_d1 r k
      ⟨k.val, by have := k.isLt; omega⟩ rfl, Hetero.rows_apply]
    exact congrArg (x (ix2 r k) * ·) (row_congr Wn _ _ q (Nat.zero_add _).symm)
  · rw [concat2_apply_1 x agg concatenates_S100000x64_S100000x32_S100000x96_d1 r k
      ⟨64 + k.val, by have := k.isLt; omega⟩ rfl, Hetero.rows_apply]

end Cert.ReferenceIdeal.RefLaws

end
-- ==== Proof.RefVal.lean ====
/-
  The reference program's results, named: its run's composed terms are the edge updates `Hetero.edgeOut` of the
  gathered endpoint rows and the node updates `Hetero.nodeOut` of the three-term aggregates.
-/
import proofs.«407052_j2267742732914_3_alg».proof.Proof.Gen.ReferenceIdeal.Run
import proofs.«407052_j2267742732914_3_alg».proof.Proof.RefLaws

set_option maxRecDepth 16384

noncomputable section

namespace Cert.ReferenceIdeal.RefVal

open Cert.ReferenceIdeal Cert.ReferenceIdeal.Gen Cert.ReferenceIdeal.Value Idealize.ShloMosaic Idealize.ShloMosaic.TcCoe Idealize.SL.Sem Idealize.ShloMosaic.StableHlo

/-- The first row of an edge-index array [2, E]: the edges' source nodes. -/
def srcOf (ei : IVec S2x800000 32) : IVec S800000 32 :=
  shapeCast _ (extractStridedSlice S1x800000 ![0, 0] ei slices_S2x800000_S1x800000_0_0) shapeCasts_S1x800000_S800000
/-- The second row: the edges' destination nodes. -/
def dstOf (ei : IVec S2x800000 32) : IVec S800000 32 :=
  shapeCast _ (extractStridedSlice S1x800000 ![1, 0] ei slices_S2x800000_S1x800000_1_0) shapeCasts_S1x800000_S800000
/-- The rows of a node table at a vector of node indices. -/
def gatherRows (x : FVec Ideal S100000x64 .f32) (r : IVec S800000 32) : FVec Ideal S800000x64 .f32 :=
  Host.gather gather_S100000x64_S800000x1_S800000x64_1_0_n_n_0_1_164 x
    (broadcastInDim S800000x1 ![0] bcast_S800000_S800000x1_0
      (select (cmpi .slt r (broadcastInDim S800000 ![] bcast_S_S800000 (constantI S_ 32 0#32)))
        (addi r (broadcastInDim S800000 ![] bcast_S_S800000 (constantI S_ 32 100000#32))) r))
/-- The sum, per node, of the attribute rows of the edges whose index in `r` is that node. -/
def segSum (r : IVec S800000 32) (e : FVec Ideal S800000x32 .f32) : FVec Ideal S100000x32 .f32 :=
  Host.scatterAdd scatter_S100000x32_S800000x1_S800000x32_1_0_0_1
    (broadcastInDim S100000x32 ![] bcast_S_S100000x32 (constant (F := Ideal) S_ .f32 0x00000000#32))
    (broadcastInDim S800000x1 ![0] bcast_S800000_S800000x1_0 r) e

variable (m : (ℓ : Loc nD τ sig) → Buf (Elt Ideal) ℓ)

/-- The updated attributes of the three edge types. -/
def eAA (c : Dev nD) : FVec Ideal S800000x32 .f32 :=
  Hetero.edgeOut (gatherRows (m ((c.tc : Thread nD τ).loc main_arg0)) (srcOf (m ((c.tc : Thread nD τ).loc main_arg21)))) (gatherRows (m ((c.tc : Thread nD τ).loc main_arg0)) (dstOf (m ((c.tc : Thread nD τ).loc main_arg21)))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))
def eAB (c : Dev nD) : FVec Ideal S800000x32 .f32 :=
  Hetero.edgeOut (gatherRows (m ((c.tc : Thread nD τ).loc main_arg0)) (srcOf (m ((c.tc : Thread nD τ).loc main_arg22)))) (gatherRows (m ((c.tc : Thread nD τ).loc main_arg1)) (dstOf (m ((c.tc : Thread nD τ).loc main_arg22)))) (m ((c.tc : Thread nD τ).loc main_arg3)) (m ((c.tc : Thread nD τ).loc main_arg9)) (m ((c.tc : Thread nD τ).loc main_arg10)) (m ((c.tc : Thread nD τ).loc main_arg11)) (m ((c.tc : Thread nD τ).loc main_arg12))
def eBB (c : Dev nD) : FVec Ideal S800000x32 .f32 :=
  Hetero.edgeOut (gatherRows (m ((c.tc : Thread nD τ).loc main_arg1)) (srcOf (m ((c.tc : Thread nD τ).loc main_arg23)))) (gatherRows (m ((c.tc : Thread nD τ).loc main_arg1)) (dstOf (m ((c.tc : Thread nD τ).loc main_arg23)))) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16))
/-- The aggregates: each node's sum over its incident edges, three scatter-adds added left to right. -/
def aggA (c : Dev nD) : FVec Ideal S100000x32 .f32 :=
  addf (addf (segSum (srcOf (m ((c.tc : Thread nD τ).loc main_arg21))) (eAA m c)) (segSum (dstOf (m ((c.tc : Thread nD τ).loc main_arg21))) (eAA m c))) (segSum (srcOf (m ((c.tc : Thread nD τ).loc main_arg22))) (eAB m c))
def aggB (c : Dev nD) : FVec Ideal S100000x32 .f32 :=
  addf (addf (segSum (dstOf (m ((c.tc : Thread nD τ).loc main_arg22))) (eAB m c)) (segSum (srcOf (m ((c.tc : Thread nD τ).loc main_arg23))) (eBB m c))) (segSum (dstOf (m ((c.tc : Thread nD τ).loc main_arg23))) (eBB m c))
/-- The updated node tables. -/
def xA (c : Dev nD) : FVec Ideal S100000x64 .f32 := Hetero.nodeOut (m ((c.tc : Thread nD τ).loc main_arg0)) (aggA m c) (m ((c.tc : Thread nD τ).loc main_arg17)) (m ((c.tc : Thread nD τ).loc main_arg18))
def xB (c : Dev nD) : FVec Ideal S100000x64 .f32 := Hetero.nodeOut (m ((c.tc : Thread nD τ).loc main_arg1)) (aggB m c) (m ((c.tc : Thread nD τ).loc main_arg19)) (m ((c.tc : Thread nD τ).loc main_arg20))

theorem v114_eq (c : Dev nD) : res_main_v114 m c = xA m c := by
  unfold res_main_v114
  rw [RefLaws.node_term_eq, RefLaws.edge_term_eq, RefLaws.edge_term_eq]
  rfl

theorem v120_eq (c : Dev nD) : res_main_v120 m c = xB m c := by
  unfold res_main_v120
  rw [RefLaws.node_term_eq, RefLaws.edge_term_eq, RefLaws.edge_term_eq]
  rfl

/-- The reference's run with its results named. -/
theorem run (ρ : Dev nD → PrngReg) :
    θ_run defs (onTc (τ := τ) (main (F := Ideal))) ⟨m, fun _ => 0, ρ⟩ fun r => ∀ c : Dev nD,
      r.2.mem ((c.tc : Thread nD τ).loc main_v114) = xA m c
      ∧ r.2.mem ((c.tc : Thread nD τ).loc main_v120) = xB m c
      ∧ r.2.mem ((c.tc : Thread nD τ).loc main_v36) = eAA m c
      ∧ r.2.mem ((c.tc : Thread nD τ).loc main_v61) = eAB m c
      ∧ r.2.mem ((c.tc : Thread nD τ).loc main_v86) = eBB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c).1.trans (v114_eq m c), (h c).2.1.trans (v120_eq m c), (h c).2.2.1.trans (by unfold eAA gatherRows srcOf dstOf; exact RefLaws.edge_term_eq _ _ _ _ _ _ _),
      (h c).2.2.2.1.trans (by unfold eAB gatherRows srcOf dstOf; exact RefLaws.edge_term_eq _ _ _ _ _ _ _), (h c).2.2.2.2.1.trans (by unfold eBB gatherRows srcOf dstOf; exact RefLaws.edge_term_eq _ _ _ _ _ _ _), (h c).2.2.2.2.2⟩)
    (Value.run (F := Ideal) m ρ)

end Cert.ReferenceIdeal.RefVal

end
-- ==== Proof.LibRowScatter.lean ====
/-
  A row scatter-add on the extended reals, and the fusion of two of them.

  `segment_sum v idx` lowers to a scatter-add with one scatter index per update row: update row `j` (all of its
  `C` columns) is added to operand row `idx[j]`, read signed, and dropped when that row is outside the operand.
  On the extended reals the result at an index is the operand there plus the sum of the update entries that land
  there. Scattering the updates `[e ; e]` (2E rows) at the indices `[r ; c]` therefore adds, at each index, the
  entries of `e` that land there through `r` and those that land there through `c`: the sum over the 2E update rows
  splits at row E, and the two halves are the two separate scatter-adds' sums. Only commutativity and associativity
  of the sum are used, so nothing needs to be finite.
-/
import Idealize.ShloMosaic.PureOps.Ideal
import Idealize.ShloMosaic.Lib.ValueIdx
import Idealize.ShloMosaic.Lib.Pipeline.Value

noncomputable section

namespace Hetero

open Idealize.ShloMosaic Idealize.ShloMosaic.ValueIdx

/-- The dimension numbers of a row scatter: operand [N, C], scatter indices [E, 1], updates [E, C]; update axis 1 is
    the window, operand axis 0 is the scattered (inserted) one. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update lands depends only on the window's start and the window coordinate on the operand's axes:
    two scatters into one rank-2 operand shape that agree on both, axis by axis, land at the same index (or both
    drop the update). -/
theorem resultIdx?_congr2 {sz : Fin 2 → Nat} {si si' u u' : Shape} (d : ScatterDims ⟨2, sz⟩ si u)
    (d' : ScatterDims ⟨2, sz⟩ si' u') {w : Nat} (j : u.Idx) (idx : IVec si w) (j' : u'.Idx) (idx' : IVec si' w)
    (hs0 : d.start j idx (0 : Fin 2) = d'.start j' idx' (0 : Fin 2))
    (hs1 : d.start j idx (1 : Fin 2) = d'.start j' idx' (1 : Fin 2))
    (hw0 : d.window j (0 : Fin 2) = d'.window j' (0 : Fin 2))
    (hw1 : d.window j (1 : Fin 2) = d'.window j' (1 : Fin 2)) :
    d.resultIdx? j idx = d'.resultIdx? j' idx' := by
  have hs : d.start j idx = d'.start j' idx' := by
    funext k
    match k with
    | ⟨0, _⟩ => exact hs0
    | ⟨1, _⟩ => exact hs1
  have hw : d.window j = d'.window j' := by
    funext k
    match k with
    | ⟨0, _⟩ => exact hw0
    | ⟨1, _⟩ => exact hw1
  unfold ScatterDims.resultIdx?
  simp only [hs, hw]

section Coordinates

variable {N E C w : Nat} (wf : ScatterDims.WF ⟨2, ![N, C]⟩ ⟨2, ![E, 1]⟩ ⟨2, ![E, C]⟩ [1] [0] [0] 1)

/-- On the scattered axis the window of update row `a` starts at the scatter index of that row, read signed. -/
theorem rowScatter_start_zero (a : Fin E) (b : Fin C) (idx : IVec ⟨2, ![E, 1]⟩ w) :
    (rowScatter N E C wf).start (ix2 a b) idx (0 : Fin 2) = (idx (ix2 a (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 a b) ⟨List.idxOf (0 : Fin 2) (rowScatter N E C wf).scatterDimsToOperandDims,
      List.idxOf_lt_length_iff.2 (List.mem_singleton.mpr rfl)⟩ = ix2 a (0 : Fin 1) := by
    funext k; refine Fin.ext ?_
    match k with
    | ⟨0, _⟩ => rfl
    | ⟨1, _⟩ => rfl
  rw [hsi]

/-- On the window axis the start is 0: the scatter indices do not name it. -/
theorem rowScatter_start_one (j : (⟨2, ![E, C]⟩ : Shape).Idx) (idx : IVec ⟨2, ![E, 1]⟩ w) :
    (rowScatter N E C wf).start j idx (1 : Fin 2) = 0 := by
  unfold ScatterDims.start
  have h1 : ¬ ((1 : Fin 2) ∈ (rowScatter N E C wf).scatterDimsToOperandDims) :=
    show ¬ ((1 : Fin 2) ∈ [(0 : Fin 2)]) from by decide
  rw [dif_neg h1]

/-- On the scattered (inserted) axis the window coordinate is 0. -/
theorem rowScatter_window_zero (j : (⟨2, ![E, C]⟩ : Shape).Idx) :
    (rowScatter N E C wf).window j (0 : Fin 2) = 0 := by
  unfold ScatterDims.window
  have h0 : ¬ ((0 : Fin 2) ∈ (rowScatter N E C wf).sKept) :=
    show ¬ ((0 : Fin 2) ∈ [(1 : Fin 2)]) from by decide
  rw [dif_neg h0]

/-- On the window axis the window coordinate is the update's column. -/
theorem rowScatter_window_one (a : Fin E) (b : Fin C) :
    (rowScatter N E C wf).window (ix2 a b) (1 : Fin 2) = b.val := by
  unfold ScatterDims.window
  have h1 : (1 : Fin 2) ∈ (rowScatter N E C wf).sKept :=
    show (1 : Fin 2) ∈ [(1 : Fin 2)] from List.mem_singleton.mpr rfl
  rw [dif_pos h1]
  rfl

end Coordinates

section Reads

variable {E C w : Nat}

/-- The column of scatter indices made from a vector (a trailing unit axis) reads the vector at the row. -/
theorem bcast_col_apply (hE : E ≠ 1) (hb : (⟨1, ![E]⟩ : Shape).BroadcastsInDim ⟨2, ![E, 1]⟩ ![0])
    (x : IVec ⟨1, ![E]⟩ w) (a : Fin E) (b : Fin 1) :
    broadcastInDim ⟨2, ![E, 1]⟩ ![0] hb x (ix2 a b) = x (ix1 a) :=
  broadcastInDim_apply ![0] hb x (ix2 a b) (ix1 a) (fun k => by
    match k with
    | ⟨0, _⟩ =>
      show a.val = if E = 1 then 0 else a.val
      rw [if_neg hE])

variable {α : Type}

/-- The concatenation of two vectors of length `E`, read below `E`, is the first. -/
theorem concat_vec_left (hI : Shape.Concatenates [(⟨1, ![E]⟩ : Shape), ⟨1, ![E]⟩] ⟨1, ![E + E]⟩ 0)
    (r c : (⟨1, ![E]⟩ : Shape).Idx → α) (a : Fin E) :
    concatenate ⟨1, ![E + E]⟩ 0 [⟨⟨1, ![E]⟩, r⟩, ⟨⟨1, ![E]⟩, c⟩] hI (ix1 (Fin.castAdd E a)) = r (ix1 a) :=
  concatenate_pair_apply_left 0 r c hI (ix1 (Fin.castAdd E a)) rfl (ix1 a) (fun k => by
    match k with
    | ⟨0, _⟩ => rfl)

/-- The concatenation of two vectors of length `E`, read at `E + a`, is the second at `a`. -/
theorem concat_vec_right (hI : Shape.Concatenates [(⟨1, ![E]⟩ : Shape), ⟨1, ![E]⟩] ⟨1, ![E + E]⟩ 0)
    (r c : (⟨1, ![E]⟩ : Shape).Idx → α) (a : Fin E) :
    concatenate ⟨1, ![E + E]⟩ 0 [⟨⟨1, ![E]⟩, r⟩, ⟨⟨1, ![E]⟩, c⟩] hI (ix1 (Fin.natAdd E a)) = c (ix1 a) :=
  concatenate_pair_apply_right 0 r c hI (ix1 (Fin.natAdd E a)) rfl rfl (ix1 a)
    (fun k hk => by
      match k, hk with
      | ⟨0, _⟩, hk => exact absurd rfl hk)
    (by show a.val + E = E + a.val; exact Nat.add_comm _ _)

/-- The concatenation along the rows of two `E × C` arrays, read at a row below `E`, is the first. -/
theorem concat_rows_left (hU : Shape.Concatenates [(⟨2, ![E, C]⟩ : Shape), ⟨2, ![E, C]⟩] ⟨2, ![E + E, C]⟩ 0)
    (e₁ e₂ : (⟨2, ![E, C]⟩ : Shape).Idx → α) (a : Fin E) (b : Fin C) :
    concatenate ⟨2, ![E + E, C]⟩ 0 [⟨⟨2, ![E, C]⟩, e₁⟩, ⟨⟨2, ![E, C]⟩, e₂⟩] hU (ix2 (Fin.castAdd E a) b) = e₁ (ix2 a b) :=
  concatenate_pair_apply_left 0 e₁ e₂ hU (ix2 (Fin.castAdd E a) b) rfl (ix2 a b) (fun k => by
    match k with
    | ⟨0, _⟩ => rfl
    | ⟨1, _⟩ => rfl)

/-- The concatenation along the rows of two `E × C` arrays, read at row `E + a`, is the second at row `a`. -/
theorem concat_rows_right (hU : Shape.Concatenates [(⟨2, ![E, C]⟩ : Shape), ⟨2, ![E, C]⟩] ⟨2, ![E + E, C]⟩ 0)
    (e₁ e₂ : (⟨2, ![E, C]⟩ : Shape).Idx → α) (a : Fin E) (b : Fin C) :
    concatenate ⟨2, ![E + E, C]⟩ 0 [⟨⟨2, ![E, C]⟩, e₁⟩, ⟨⟨2, ![E, C]⟩, e₂⟩] hU (ix2 (Fin.natAdd E a) b) = e₂ (ix2 a b) :=
  concatenate_pair_apply_right 0 e₁ e₂ hU (ix2 (Fin.natAdd E a) b) rfl rfl (ix2 a b)
    (fun k hk => by
      match k, hk with
      | ⟨0, _⟩, hk => exact absurd rfl hk
      | ⟨1, _⟩, _ => rfl)
    (by show a.val + E = E + a.val; exact Nat.add_comm _ _)

end Reads

section Fusion

variable {N E C w : Nat}

/-- An update row below `E` of `[e ; e]` lands, through `[r ; c]`, where the same row of `e` lands through `r`. -/
theorem resultIdx?_fused_left (hE : E ≠ 1) (hEE : E + E ≠ 1)
    (wfB : ScatterDims.WF ⟨2, ![N, C]⟩ ⟨2, ![E + E, 1]⟩ ⟨2, ![E + E, C]⟩ [1] [0] [0] 1)
    (wfS : ScatterDims.WF ⟨2, ![N, C]⟩ ⟨2, ![E, 1]⟩ ⟨2, ![E, C]⟩ [1] [0] [0] 1)
    (hI : Shape.Concatenates [(⟨1, ![E]⟩ : Shape), ⟨1, ![E]⟩] ⟨1, ![E + E]⟩ 0)
    (hbB : (⟨1, ![E + E]⟩ : Shape).BroadcastsInDim ⟨2, ![E + E, 1]⟩ ![0])
    (hbS : (⟨1, ![E]⟩ : Shape).BroadcastsInDim ⟨2, ![E, 1]⟩ ![0])
    (r c : IVec ⟨1, ![E]⟩ w) (a : Fin E) (b : Fin C) :
    (rowScatter N (E + E) C wfB).resultIdx? (ix2 (Fin.castAdd E a) b)
        (broadcastInDim ⟨2, ![E + E, 1]⟩ ![0] hbB (concatenate ⟨1, ![E + E]⟩ 0 [⟨⟨1, ![E]⟩, r⟩, ⟨⟨1, ![E]⟩, c⟩] hI))
      = (rowScatter N E C wfS).resultIdx? (ix2 a b) (broadcastInDim ⟨2, ![E, 1]⟩ ![0] hbS r) := by
  refine resultIdx?_congr2 _ _ _ _ _ _ ?_ ?_ ?_ ?_
  · rw [rowScatter_start_zero, rowScatter_start_zero, bcast_col_apply hEE, bcast_col_apply hE, concat_vec_left]
  · rw [rowScatter_start_one, rowScatter_start_one]
  · rw [rowScatter_window_zero, rowScatter_window_zero]
  · rw [rowScatter_window_one, rowScatter_window_one]

/-- Update row `E + a` of `[e ; e]` lands, through `[r ; c]`, where row `a` of `e` lands through `c`. -/
theorem resultIdx?_fused_right (hE : E ≠ 1) (hEE : E + E ≠ 1)
    (wfB : ScatterDims.WF ⟨2, ![N, C]⟩ ⟨2, ![E + E, 1]⟩ ⟨2, ![E + E, C]⟩ [1] [0] [0] 1)
    (wfS : ScatterDims.WF ⟨2, ![N, C]⟩ ⟨2, ![E, 1]⟩ ⟨2, ![E, C]⟩ [1] [0] [0] 1)
    (hI : Shape.Concatenates [(⟨1, ![E]⟩ : Shape), ⟨1, ![E]⟩] ⟨1, ![E + E]⟩ 0)
    (hbB : (⟨1, ![E + E]⟩ : Shape).BroadcastsInDim ⟨2, ![E + E, 1]⟩ ![0])
    (hbS : (⟨1, ![E]⟩ : Shape).BroadcastsInDim ⟨2, ![E, 1]⟩ ![0])
    (r c : IVec ⟨1, ![E]⟩ w) (a : Fin E) (b : Fin C) :
    (rowScatter N (E + E) C wfB).resultIdx? (ix2 (Fin.natAdd E a) b)
        (broadcastInDim ⟨2, ![E + E, 1]⟩ ![0] hbB (concatenate ⟨1, ![E + E]⟩ 0 [⟨⟨1, ![E]⟩, r⟩, ⟨⟨1, ![E]⟩, c⟩] hI))
      = (rowScatter N E C wfS).resultIdx? (ix2 a b) (broadcastInDim ⟨2, ![E, 1]⟩ ![0] hbS c) := by
  refine resultIdx?_congr2 _ _ _ _ _ _ ?_ ?_ ?_ ?_
  · rw [rowScatter_start_zero, rowScatter_start_zero, bcast_col_apply hEE, bcast_col_apply hE, concat_vec_right]
  · rw [rowScatter_start_one, rowScatter_start_one]
  · rw [rowScatter_window_zero, rowScatter_window_zero]
  · rw [rowScatter_window_one, rowScatter_window_one]

/-- The fusion at any sizes: the sum over the `E + E` update rows splits at row `E`. -/
theorem scatterAdd_fused_gen (hE : E ≠ 1) (hEE : E + E ≠ 1)
    (wfB : ScatterDims.WF ⟨2, ![N, C]⟩ ⟨2, ![E + E, 1]⟩ ⟨2, ![E + E, C]⟩ [1] [0] [0] 1)
    (wfS : ScatterDims.WF ⟨2, ![N, C]⟩ ⟨2, ![E, 1]⟩ ⟨2, ![E, C]⟩ [1] [0] [0] 1)
    (hI : Shape.Concatenates [(⟨1, ![E]⟩ : Shape), ⟨1, ![E]⟩] ⟨1, ![E + E]⟩ 0)
    (hU : Shape.Concatenates [(⟨2, ![E, C]⟩ : Shape), ⟨2, ![E, C]⟩] ⟨2, ![E + E, C]⟩ 0)
    (hbB : (⟨1, ![E + E]⟩ : Shape).BroadcastsInDim ⟨2, ![E + E, 1]⟩ ![0])
    (hbS : (⟨1, ![E]⟩ : Shape).BroadcastsInDim ⟨2, ![E, 1]⟩ ![0])
    (z : (⟨2, ![N, C]⟩ : Shape).Idx → EReal) (r c : IVec ⟨1, ![E]⟩ w)
    (e : (⟨2, ![E, C]⟩ : Shape).Idx → EReal) (i : (⟨2, ![N, C]⟩ : Shape).Idx) :
    Ideal.hostScatterAdd (rowScatter N (E + E) C wfB) z
        (broadcastInDim ⟨2, ![E + E, 1]⟩ ![0] hbB (concatenate ⟨1, ![E + E]⟩ 0 [⟨⟨1, ![E]⟩, r⟩, ⟨⟨1, ![E]⟩, c⟩] hI))
        (concatenate ⟨2, ![E + E, C]⟩ 0 [⟨⟨2, ![E, C]⟩, e⟩, ⟨⟨2, ![E, C]⟩, e⟩] hU) i
      = z i + ((∑ j ∈ Finset.univ.filter (fun j => (rowScatter N E C wfS).resultIdx? j (broadcastInDim ⟨2, ![E, 1]⟩ ![0] hbS r) = some i), e j)
          + (∑ j ∈ Finset.univ.filter (fun j => (rowScatter N E C wfS).resultIdx? j (broadcastInDim ⟨2, ![E, 1]⟩ ![0] hbS c) = some i), e j)) := by
  unfold Ideal.hostScatterAdd
  refine congrArg (z i + ·) ?_
  rw [Finset.sum_filter, Finset.sum_filter, Finset.sum_filter, sum_idx2, sum_idx2, sum_idx2, Fin.sum_univ_add]
  refine congrArg₂ (· + ·) ?_ ?_
  · refine Finset.sum_congr rfl fun a _ => Finset.sum_congr rfl fun b _ => ?_
    rw [resultIdx?_fused_left hE hEE wfB wfS hI hbB hbS r c a b, concat_rows_left]
  · refine Finset.sum_congr rfl fun a _ => Finset.sum_congr rfl fun b _ => ?_
    rw [resultIdx?_fused_right hE hEE wfB wfS hI hbB hbS r c a b, concat_rows_right]

end Fusion

/-- FUSION: the scatter-add of `[e ; e]` at `[r ; c]` is, index by index, the operand plus the two separate
    scatter-adds' sums (each written as a scatter-add into the zero array). -/
theorem scatterAdd_fused
    (wfB : ScatterDims.WF ⟨2, ![100000, 32]⟩ ⟨2, ![1600000, 1]⟩ ⟨2, ![1600000, 32]⟩ [1] [0] [0] 1)
    (wfS : ScatterDims.WF ⟨2, ![100000, 32]⟩ ⟨2, ![800000, 1]⟩ ⟨2, ![800000, 32]⟩ [1] [0] [0] 1)
    (hI : Shape.Concatenates [(⟨1, ![800000]⟩ : Shape), ⟨1, ![800000]⟩] ⟨1, ![1600000]⟩ 0)
    (hU : Shape.Concatenates [(⟨2, ![800000, 32]⟩ : Shape), ⟨2, ![800000, 32]⟩] ⟨2, ![1600000, 32]⟩ 0)
    (hbB : (⟨1, ![1600000]⟩ : Shape).BroadcastsInDim ⟨2, ![1600000, 1]⟩ ![0])
    (hbS : (⟨1, ![800000]⟩ : Shape).BroadcastsInDim ⟨2, ![800000, 1]⟩ ![0])
    (z : (⟨2, ![100000, 32]⟩ : Shape).Idx → EReal) (r c : IVec ⟨1, ![800000]⟩ 32)
    (e : (⟨2, ![800000, 32]⟩ : Shape).Idx → EReal) (i : (⟨2, ![100000, 32]⟩ : Shape).Idx) :
    Ideal.hostScatterAdd (rowScatter 100000 1600000 32 wfB) z
        (broadcastInDim ⟨2, ![1600000, 1]⟩ ![0] hbB (concatenate ⟨1, ![1600000]⟩ 0 [⟨⟨1, ![800000]⟩, r⟩, ⟨⟨1, ![800000]⟩, c⟩] hI))
        (concatenate ⟨2, ![1600000, 32]⟩ 0 [⟨⟨2, ![800000, 32]⟩, e⟩, ⟨⟨2, ![800000, 32]⟩, e⟩] hU) i
      = z i + ((∑ j ∈ Finset.univ.filter (fun j => (rowScatter 100000 800000 32 wfS).resultIdx? j (broadcastInDim ⟨2, ![800000, 1]⟩ ![0] hbS r) = some i), e j)
          + (∑ j ∈ Finset.univ.filter (fun j => (rowScatter 100000 800000 32 wfS).resultIdx? j (broadcastInDim ⟨2, ![800000, 1]⟩ ![0] hbS c) = some i), e j)) :=
  scatterAdd_fused_gen (N := 100000) (E := 800000) (C := 32) (by omega) (by omega) wfB wfS hI hU hbB hbS z r c e i

end Hetero

end
-- ==== Proof.Bridge.lean ====
/-
  The two programs' results are the same functions of arguments that agree.

  Both programs gather the same endpoint rows and apply the same edge update, so the three updated edge arrays agree
  outright. The aggregates differ in arrangement only: where the reference adds three scatter-adds left to right, the
  kernel program scatters one edge type's attributes ONCE at both of its index vectors and adds the third scatter-add on
  the other side. A scatter-add into the zero array is, index by index, the sum of the updates that land there; the
  fused one's sum runs over both index vectors and splits into the two separate sums, and the remaining difference is
  the grouping of a sum of three terms. Sums on the extended reals regroup freely, so no finiteness is used.
-/
import proofs.«407052_j2267742732914_3_alg».proof.Proof.KVal
import proofs.«407052_j2267742732914_3_alg».proof.Proof.RefVal
import proofs.«407052_j2267742732914_3_alg».proof.Proof.LibRowScatter

set_option maxRecDepth 16384

noncomputable section

namespace Cert.Proof.Bridge

open Idealize.ShloMosaic Idealize.ShloMosaic.TcCoe Idealize.SL.Sem
open Cert.KernelIdeal Cert.KernelIdeal.Gen Cert.KernelIdeal.KFold Cert.KernelIdeal.KVal

/-! ## The host operations both programs share denote the same functions -/

theorem srcOf_eq (ei : IVec Cert.KernelIdeal.S2x800000 32) : Cert.ReferenceIdeal.RefVal.srcOf ei = srcOf ei := rfl
theorem dstOf_eq (ei : IVec Cert.KernelIdeal.S2x800000 32) : Cert.ReferenceIdeal.RefVal.dstOf ei = dstOf ei := rfl
theorem gatherRows_eq (x : FVec Ideal Cert.KernelIdeal.S100000x64 .f32) (r : IVec Cert.KernelIdeal.S800000 32) :
    Cert.ReferenceIdeal.RefVal.gatherRows x r = gatherRows x r := rfl
theorem segSum_eq (r : IVec Cert.KernelIdeal.S800000 32) (e : FVec Ideal Cert.KernelIdeal.S800000x32 .f32) :
    Cert.ReferenceIdeal.RefVal.segSum r e = segSum r e := rfl

/-! ## The fused scatter-add is the sum of the two separate ones -/

/-- A scatter-add on the extended reals at an index: the operand there plus the updates that land there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := by
  unfold Ideal.hostScatterAdd
  rfl

theorem segSum_def (r : IVec S800000 32) (e : FVec Ideal S800000x32 .f32) :
    segSum r e = Ideal.hostScatterAdd scatter_S100000x32_S800000x1_S800000x32_1_0_0_1
      (broadcastInDim S100000x32 ![] bcast_S_S100000x32 (constant (F := Ideal) S_ .f32 0x00000000#32))
      (broadcastInDim S800000x1 ![0] bcast_S800000_S800000x1_0 r) e := by
  unfold segSum Host.scatterAdd
  rw [Ideal.hostScatterAdd_def]

theorem segSum2_def (r c : IVec S800000 32) (e : FVec Ideal S800000x32 .f32) :
    segSum2 r c e = Ideal.hostScatterAdd scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0
        (concatenate S1600000 0 [⟨S800000, r⟩, ⟨S800000, c⟩] concatenates_S800000_S800000_S1600000_d0))
      (concatenate S1600000x32 0 [⟨S800000x32, e⟩, ⟨S800000x32, e⟩] concatenates_S800000x32_S800000x32_S1600000x32_d0) := by
  unfold segSum2 Host.scatterAdd
  rw [Ideal.hostScatterAdd_def]

/-- The printed dimension records are the row-scatter numbers. -/
theorem recB_eq : scatter_S100000x32_S1600000x1_S1600000x32_1_0_0_1
    = Hetero.rowScatter 100000 1600000 32 scatter_S100000x32_S1600000x1_S1600000x32_1_0_0_1.wf := rfl
theorem recS_eq : scatter_S100000x32_S800000x1_S800000x32_1_0_0_1
    = Hetero.rowScatter 100000 800000 32 scatter_S100000x32_S800000x1_S800000x32_1_0_0_1.wf := rfl

theorem segSum2_eq (r c : IVec S800000 32) (e : FVec Ideal S800000x32 .f32) :
    segSum2 r c e = addf (segSum r e) (segSum c e) := by
  funext i
  have hz : (broadcastInDim S100000x32 ![] bcast_S_S100000x32 (constant (F := Ideal) S_ .f32 0x00000000#32)) i = (0 : EReal) :=
    Ideal.ofBits_zero_f32
  rw [ValueIdx.addf_apply, segSum2_def, segSum_def, segSum_def, recB_eq, recS_eq,
    Hetero.scatterAdd_fused scatter_S100000x32_S1600000x1_S1600000x32_1_0_0_1.wf
      scatter_S100000x32_S800000x1_S800000x32_1_0_0_1.wf concatenates_S800000_S800000_S1600000_d0
      concatenates_S800000x32_S800000x32_S1600000x32_d0 bcast_S1600000_S1600000x1_0 bcast_S800000_S800000x1_0,
    hostScatterAdd_apply, hostScatterAdd_apply, hz, zero_add, zero_add, zero_add]

/-- Adding arrays of extended reals entry by entry is associative. -/
theorem addf_assoc {s : Shape} {φ : FTy} (a b c : FVec Ideal s φ) : addf (addf a b) c = addf a (addf b c) := by
  funext i
  exact add_assoc (a i) (b i) (c i)

/-! ## The results agree -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two launch memories agree on the 24 arguments at core `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧       m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧       m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧       m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧       m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧       m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧       m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧       m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧       m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)

theorem eAA_eq (hag : Agree m m' c) : Cert.ReferenceIdeal.RefVal.eAA m' c = eAA m c := by
  obtain ⟨h0, h1, h2, h3, h4, h5, h6, h7, h8, h9, h10, h11, h12, h13, h14, h15, h16, h17, h18, h19, h20, h21, h22, h23⟩ := hag
  unfold Cert.ReferenceIdeal.RefVal.eAA eAA
  rw [h0, h21, h2, h5, h6, h7, h8, srcOf_eq, dstOf_eq, gatherRows_eq, gatherRows_eq]

theorem eAB_eq (hag : Agree m m' c) : Cert.ReferenceIdeal.RefVal.eAB m' c = eAB m c := by
  obtain ⟨h0, h1, h2, h3, h4, h5, h6, h7, h8, h9, h10, h11, h12, h13, h14, h15, h16, h17, h18, h19, h20, h21, h22, h23⟩ := hag
  unfold Cert.ReferenceIdeal.RefVal.eAB eAB
  rw [h0, h1, h22, h3, h9, h10, h11, h12, srcOf_eq, dstOf_eq, gatherRows_eq, gatherRows_eq]

theorem eBB_eq (hag : Agree m m' c) : Cert.ReferenceIdeal.RefVal.eBB m' c = eBB m c := by
  obtain ⟨h0, h1, h2, h3, h4, h5, h6, h7, h8, h9, h10, h11, h12, h13, h14, h15, h16, h17, h18, h19, h20, h21, h22, h23⟩ := hag
  unfold Cert.ReferenceIdeal.RefVal.eBB eBB
  rw [h1, h23, h4, h13, h14, h15, h16, srcOf_eq, dstOf_eq, gatherRows_eq, gatherRows_eq]

theorem aggA_eq (hag : Agree m m' c) : Cert.ReferenceIdeal.RefVal.aggA m' c = aggA m c := by
  unfold Cert.ReferenceIdeal.RefVal.aggA aggA
  rw [eAA_eq m m' c hag, eAB_eq m m' c hag, segSum2_eq]
  obtain ⟨h0, h1, h2, h3, h4, h5, h6, h7, h8, h9, h10, h11, h12, h13, h14, h15, h16, h17, h18, h19, h20, h21, h22, h23⟩ := hag
  rw [h21, h22, srcOf_eq, dstOf_eq, srcOf_eq, segSum_eq, segSum_eq, segSum_eq]

theorem aggB_eq (hag : Agree m m' c) : Cert.ReferenceIdeal.RefVal.aggB m' c = aggB m c := by
  unfold Cert.ReferenceIdeal.RefVal.aggB aggB
  rw [eAB_eq m m' c hag, eBB_eq m m' c hag, segSum2_eq]
  obtain ⟨h0, h1, h2, h3, h4, h5, h6, h7, h8, h9, h10, h11, h12, h13, h14, h15, h16, h17, h18, h19, h20, h21, h22, h23⟩ := hag
  rw [h22, h23, dstOf_eq, srcOf_eq, dstOf_eq, segSum_eq, segSum_eq, segSum_eq]
  exact addf_assoc _ _ _

theorem xA_eq (hag : Agree m m' c) : Cert.ReferenceIdeal.RefVal.xA m' c = xA m c := by
  unfold Cert.ReferenceIdeal.RefVal.xA xA
  rw [aggA_eq m m' c hag]
  obtain ⟨h0, h1, h2, h3, h4, h5, h6, h7, h8, h9, h10, h11, h12, h13, h14, h15, h16, h17, h18, h19, h20, h21, h22, h23⟩ := hag
  rw [h0, h17, h18]

theorem xB_eq (hag : Agree m m' c) : Cert.ReferenceIdeal.RefVal.xB m' c = xB m c := by
  unfold Cert.ReferenceIdeal.RefVal.xB xB
  rw [aggB_eq m m' c hag]
  obtain ⟨h0, h1, h2, h3, h4, h5, h6, h7, h8, h9, h10, h11, h12, h13, h14, h15, h16, h17, h18, h19, h20, h21, h22, h23⟩ := hag
  rw [h1, h19, h20]

end Agree

end Cert.Proof.Bridge

end
-- ==== Proof.lean ====
/-
  The certificate of one layer of a heterogeneous graph network: the kernel program (three tiled edge-update kernels
  and two tiled node-update kernels among host gathers and scatter-adds) against the plain reference.

  The three frames: the two kernel programs' are the generated frame proofs; the reference's is its generated run with
  the results dropped. The ideal pass rewrote nothing, so `preserves` is trivial. The value claim: at the ideal
  values the kernel program's five result arrays are `Hetero.edgeOut` / `Hetero.nodeOut` of the argument arrays
  (Proof/KVal.lean: each region's blocks tile ONE whole-array function, Proof/KEdge*.lean and Proof/KNode*.lean; the
  staged arrays are what the host operations wrote, Proof/KFold.lean), the reference's are the same functions
  (Proof/RefVal.lean over Proof/RefLaws.lean: a product with a concatenated row is the sum of the products with its
  pieces), and the two arrangements of the aggregates agree because a fused scatter-add is the sum of the two separate
  ones (Proof/LibRowScatter.lean, Proof/Bridge.lean).
-/
import proofs.«407052_j2267742732914_3_alg».proof.Defs
import proofs.«407052_j2267742732914_3_alg».proof.Proof.Gen.Kernel
import proofs.«407052_j2267742732914_3_alg».proof.Proof.Gen.Kernel.Skeleton
import proofs.«407052_j2267742732914_3_alg».proof.Proof.Gen.Kernel.Launch
import proofs.«407052_j2267742732914_3_alg».proof.Proof.Gen.Kernel.Points
import proofs.«407052_j2267742732914_3_alg».proof.Proof.Gen.Kernel.Frame
import proofs.«407052_j2267742732914_3_alg».proof.Proof.Gen.KernelIdeal
import proofs.«407052_j2267742732914_3_alg».proof.Proof.Gen.KernelIdeal.Skeleton
import proofs.«407052_j2267742732914_3_alg».proof.Proof.Gen.KernelIdeal.Launch
import proofs.«407052_j2267742732914_3_alg».proof.Proof.Gen.KernelIdeal.Points
import proofs.«407052_j2267742732914_3_alg».proof.Proof.Gen.KernelIdeal.Frame
import proofs.«407052_j2267742732914_3_alg».proof.Proof.Gen.ReferenceIdeal
import proofs.«407052_j2267742732914_3_alg».proof.Proof.Gen.ReferenceIdeal.Run
import proofs.«407052_j2267742732914_3_alg».proof.Proof.Gen.Pre_finite_inputs
import proofs.«407052_j2267742732914_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_r : Cert.frame_ReferenceIdeal := fun m ρ _ =>
  (θ_run Cert.ReferenceIdeal.defs _ _).mono (fun _ h c => (h c).2.2.2.2.2) (Cert.ReferenceIdeal.Value.run (F := Ideal) m ρ)

/-- Run from memories that agree on the arguments, both idealized programs end with the same five arrays: the kernel
    program's named results, which the reference's equal. -/
theorem algebraic : Cert.algebraic_KernelIdeal_ReferenceIdeal := by
  intro m ρ m' ρ' _ hag
  refine ⟨fun c => Cert.KernelIdeal.KVal.xA m c, fun c => Cert.KernelIdeal.KVal.xB m c, fun c => Cert.KernelIdeal.KVal.eAA m c,
    fun c => Cert.KernelIdeal.KVal.eAB m c, fun c => Cert.KernelIdeal.KVal.eBB m c, Cert.KernelIdeal.KVal.run m ρ, ?_⟩
  refine (θ_run Cert.ReferenceIdeal.defs _ _).mono (fun _ h c => ⟨(h c).1.trans (Bridge.xA_eq m m' c (hag c)),
    (h c).2.1.trans (Bridge.xB_eq m m' c (hag c)), (h c).2.2.1.trans (Bridge.eAA_eq m m' c (hag c)),
    (h c).2.2.2.1.trans (Bridge.eAB_eq m m' c (hag c)), (h c).2.2.2.2.1.trans (Bridge.eBB_eq m m' c (hag c)), (h c).2.2.2.2.2⟩)
    (Cert.ReferenceIdeal.RefVal.run m' ρ')

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
